-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x27x48x3 : Shape := ⟨5, ![4, 1024, 27, 48, 3]⟩
abbrev S101x128 : Shape := ⟨2, ![101, 128]⟩
abbrev S128 : Shape := ⟨1, ![128]⟩
abbrev S_ : Shape := ⟨0, ![]⟩

class Facts : Prop where
  bcast_S_S101x128 : S_.BroadcastsInDim S101x128 (![] : Fin 0 → Fin S101x128.rank)
  reducesTo_S101x128_S_d0_1 : S101x128.ReducesTo [0, 1] S_
  h_S_ : 0 < S_.numel
  bcast_S_S128 : S_.BroadcastsInDim S128 (![] : Fin 0 → Fin S128.rank)
  reducesTo_S128_S_d0 : S128.ReducesTo [0] S_
  bcast_S_S4x1024x27x48x3 : S_.BroadcastsInDim S4x1024x27x48x3 (![] : Fin 0 → Fin S4x1024x27x48x3.rank)
  reducesTo_S4x1024x27x48x3_S_d0_1_2_3_4 : S4x1024x27x48x3.ReducesTo [0, 1, 2, 3, 4] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S4x1024x27x48x3 32) (main_arg1 : FVec F S101x128 .f32) (main_arg2 : FVec F S128 .f32) : IVec S_ 1 :=
  let main_v0 : FVec F S101x128 .f32 := Host.absf main_arg1
  let main_cst : FVec F S_ .f32 := constant S_ .f32 0x7F800000#32
  let main_v1 : FVec F S101x128 .f32 := broadcastInDim S101x128 ![] bcast_S_S101x128 main_cst
  let main_v2 : IVec S101x128 1 := cmpf .olt main_v0 main_v1
  let main_c : IVec S_ 1 := constantI S_ 1 1#1
  let main_v3 : IVec S_ 1 := (fun x v => Host.reduce IntOp.andi x v reducesTo_S101x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S4x1024x27x48x3 32 := broadcastInDim S4x1024x27x48x3 ![] bcast_S_S4x1024x27x48x3 main_c_2
  let main_v10 : IVec S4x1024x27x48x3 1 := cmpi .sge main_arg0 main_v9
  let main_c_3 : IVec S_ 1 := constantI S_ 1 1#1
  let main_v11 : IVec S_ 1 := (fun x v => Host.reduce IntOp.andi x v reducesTo_S4x1024x27x48x3_S_d0_1_2_3_4 h_S_) main_v10 main_c_3
  let main_v12 : IVec S_ 1 := andi main_v8 main_v11
  let main_c_4 : IVec S_ 32 := constantI S_ 32 256#32
  let main_v13 : IVec S4x1024x27x48x3 32 := broadcastInDim S4x1024x27x48x3 ![] bcast_S_S4x1024x27x48x3 main_c_4
  let main_v14 : IVec S4x1024x27x48x3 1 := cmpi .slt main_arg0 main_v13
  let main_c_5 : IVec S_ 1 := constantI S_ 1 1#1
  let main_v15 : IVec S_ 1 := (fun x v => Host.reduce IntOp.andi x v reducesTo_S4x1024x27x48x3_S_d0_1_2_3_4 h_S_) main_v14 main_c_5
  fn_part1 (F := F) main_v12 main_v15
-- ==== Kernel.lean ====
abbrev S4x1024x27x48x3 : Shape := ⟨5, ![4, 1024, 27, 48, 3]⟩
abbrev S101x128 : Shape := ⟨2, ![101, 128]⟩
abbrev S128 : Shape := ⟨1, ![128]⟩
abbrev S4096x1296x3 : Shape := ⟨3, ![4096, 1296, 3]⟩
abbrev S4096x1296x1 : Shape := ⟨3, ![4096, 1296, 1]⟩
abbrev S4096x1296 : Shape := ⟨2, ![4096, 1296]⟩
abbrev S_ : Shape := ⟨0, ![]⟩
abbrev S4096x512 : Shape := ⟨2, ![4096, 512]⟩
abbrev S32x1296 : Shape := ⟨2, ![32, 1296]⟩
abbrev S32x512 : Shape := ⟨2, ![32, 512]⟩
abbrev S32x8x1296 : Shape := ⟨3, ![32, 8, 1296]⟩
abbrev S32x64x1296 : Shape := ⟨3, ![32, 64, 1296]⟩
abbrev S32x1x1296 : Shape := ⟨3, ![32, 1, 1296]⟩
abbrev S32x8x64 : Shape := ⟨3, ![32, 8, 64]⟩
abbrev S32 : Shape := ⟨1, ![32]⟩
abbrev S32x1 : Shape := ⟨2, ![32, 1]⟩
abbrev S4x1024x512 : Shape := ⟨3, ![4, 1024, 512]⟩
abbrev S4x1128x512 : Shape := ⟨3, ![4, 1128, 512]⟩
abbrev S4x1024x128 : Shape := ⟨3, ![4, 1024, 128]⟩
abbrev S1x128x512 : Shape := ⟨3, ![1, 128, 512]⟩
abbrev S1x1128x512 : Shape := ⟨3, ![1, 1128, 512]⟩
abbrev S1x128x128 : Shape := ⟨3, ![1, 128, 128]⟩
abbrev S128x512 : Shape := ⟨2, ![128, 512]⟩
abbrev S1x232x512 : Shape := ⟨3, ![1, 232, 512]⟩
abbrev S232x512 : Shape := ⟨2, ![232, 512]⟩
abbrev S128x232 : Shape := ⟨2, ![128, 232]⟩
abbrev S128x128 : Shape := ⟨2, ![128, 128]⟩
abbrev S128x1 : Shape := ⟨2, ![128, 1]⟩
abbrev S1x128 : Shape := ⟨2, ![1, 128]⟩

abbrev nBuf : Space → Nat
  | .hbm => 42
  | .vmem => 12
  | .smem => 0
  | _ => 0

abbrev bufTy : (tb : Table) → Fin (tcTables nBuf tb) → BufTy
  | .hbm, ⟨0, _⟩ => ⟨S4x1024x27x48x3, .i32⟩
  | .hbm, ⟨1, _⟩ => ⟨S101x128, .f32⟩
  | .hbm, ⟨2, _⟩ => ⟨S128, .f32⟩
  | .hbm, ⟨3, _⟩ => ⟨S4096x1296x3, .i32⟩
  | .hbm, ⟨4, _⟩ => ⟨S4096x1296x1, .i32⟩
  | .hbm, ⟨5, _⟩ => ⟨S4096x1296, .i32⟩
  | .hbm, ⟨6, _⟩ => ⟨S_, .i32⟩
  | .hbm, ⟨7, _⟩ => ⟨S4096x1296, .i32⟩
  | .hbm, ⟨8, _⟩ => ⟨S4096x1296, .i32⟩
  | .hbm, ⟨9, _⟩ => ⟨S_, .i32⟩
  | .hbm, ⟨10, _⟩ => ⟨S4096x1296, .i32⟩
  | .hbm, ⟨11, _⟩ => ⟨S4096x1296, .i32⟩
  | .hbm, ⟨12, _⟩ => ⟨S_, .i32⟩
  | .hbm, ⟨13, _⟩ => ⟨S4096x1296, .i32⟩
  | .hbm, ⟨14, _⟩ => ⟨S4096x1296, .i32⟩
  | .hbm, ⟨15, _⟩ => ⟨S4096x1296x1, .i32⟩
  | .hbm, ⟨16, _⟩ => ⟨S4096x1296, .i32⟩
  | .hbm, ⟨17, _⟩ => ⟨S_, .i32⟩
  | .hbm, ⟨18, _⟩ => ⟨S4096x1296, .i32⟩
  | .hbm, ⟨19, _⟩ => ⟨S4096x1296, .i32⟩
  | .hbm, ⟨20, _⟩ => ⟨S_, .i32⟩
  | .hbm, ⟨21, _⟩ => ⟨S4096x1296, .i32⟩
  | .hbm, ⟨22, _⟩ => ⟨S4096x1296, .i32⟩
  | .hbm, ⟨23, _⟩ => ⟨S_, .i32⟩
  | .hbm, ⟨24, _⟩ => ⟨S4096x1296, .i32⟩
  | .hbm, ⟨25, _⟩ => ⟨S4096x1296, .i32⟩
  | .hbm, ⟨26, _⟩ => ⟨S4096x1296, .i32⟩
  | .hbm, ⟨27, _⟩ => ⟨S4096x1296x1, .i32⟩
  | .hbm, ⟨28, _⟩ => ⟨S4096x1296, .i32⟩
  | .hbm, ⟨29, _⟩ => ⟨S_, .i32⟩
  | .hbm, ⟨30, _⟩ => ⟨S4096x1296, .i32⟩
  | .hbm, ⟨31, _⟩ => ⟨S4096x1296, .i32⟩
  | .hbm, ⟨32, _⟩ => ⟨S_, .i32⟩
  | .hbm, ⟨33, _⟩ => ⟨S4096x1296, .i32⟩
  | .hbm, ⟨34, _⟩ => ⟨S4096x1296, .i32⟩
  | .hbm, ⟨35, _⟩ => ⟨S4096x1296, .i32⟩
  | .hbm, ⟨36, _⟩ => ⟨S4096x512, .f32⟩
  | .hbm, ⟨37, _⟩ => ⟨S4x1024x512, .f32⟩
  | .hbm, ⟨38, _⟩ => ⟨S_, .i32⟩
  | .hbm, ⟨39, _⟩ => ⟨S_, .f32⟩
  | .hbm, ⟨40, _⟩ => ⟨S4x1128x512, .f32⟩
  | .hbm, ⟨41, _⟩ => ⟨S4x1024x128, .f32⟩
  | .local _ .vmem, ⟨0, _⟩ => ⟨S32x1296, .i32⟩
  | .local _ .vmem, ⟨1, _⟩ => ⟨S32x1296, .i32⟩
  | .local _ .vmem, ⟨2, _⟩ => ⟨S32x512, .f32⟩
  | .local _ .vmem, ⟨3, _⟩ => ⟨S32x512, .f32⟩
  | .local _ .vmem, ⟨4, _⟩ => ⟨S1x128x512, .f32⟩
  | .local _ .vmem, ⟨5, _⟩ => ⟨S1x128x512, .f32⟩
  | .local _ .vmem, ⟨6, _⟩ => ⟨S1x1128x512, .f32⟩
  | .local _ .vmem, ⟨7, _⟩ => ⟨S1x1128x512, .f32⟩
  | .local _ .vmem, ⟨8, _⟩ => ⟨S101x128, .f32⟩
  | .local _ .vmem, ⟨9, _⟩ => ⟨S128, .f32⟩
  | .local _ .vmem, ⟨10, _⟩ => ⟨S1x128x128, .f32⟩
  | .local _ .vmem, ⟨11, _⟩ => ⟨S1x128x128, .f32⟩
  | _, _ => ⟨S4x1024x27x48x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1296 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c128_i32 : BitVec 32 := 128#32
  let v0 : BitVec 32 := Scalar.muli arg1 c128_i32
  v0
def k1_off1 (i : grid1.Coords) : Fin 3 → Nat :=
  let c0_2 : Index := 0#32
  let arg1 : BitVec 32 := BitVec.ofNat 32 (i 1).val
  let c128_i32 : BitVec 32 := 128#32
  let v0 : BitVec 32 := Scalar.muli arg1 c128_i32
  let v1 : BitVec 32 := v0
  let v4 : Index := Scalar.indexCast v1
  let c0_3 : Index := 0#32
  ![0, v4.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S101x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x1024x27x48x3_S4096x1296x3 : S4x1024x27x48x3.ShapeCasts S4096x1296x3
  slices_S4096x1296x3_S4096x1296x1_0_0_0 : S4096x1296x3.Slices ![0, 0, 0] S4096x1296x1
  shapeCasts_S4096x1296x1_S4096x1296 : S4096x1296x1.ShapeCasts S4096x1296
  bcast_S_S4096x1296 : S_.BroadcastsInDim S4096x1296 (![] : Fin 0 → Fin S4096x1296.rank)
  slices_S4096x1296x3_S4096x1296x1_0_0_1 : S4096x1296x3.Slices ![0, 0, 1] S4096x1296x1
  slices_S4096x1296x3_S4096x1296x1_0_0_2 : S4096x1296x3.Slices ![0, 0, 2] S4096x1296x1
  inb_S32x1296_S32x1296_0_0 : ∀ a, (![0, 0] : Fin 2 → Nat) a + S32x1296.size a ≤ S32x1296.size a
  h_S32x1296 : 0 < S32x1296.numel
  shapeCasts_S32x1296_S32x1296 : S32x1296.ShapeCasts S32x1296
  iota_S32x8x1296_d1_w32 : S32x8x1296.Iotas .tc 32 [1]
  iota_S32x64x1296_d1_w32 : S32x64x1296.Iotas .tc 32 [1]
  shapeCasts_S32x1296_S32x1x1296 : S32x1296.ShapeCasts S32x1x1296
  broadcasts_S32x1x1296_S32x8x1296 : S32x1x1296.Broadcasts S32x8x1296
  natLt_1_32 : 1 < 32
  bitsLt_bf16_f32 : FTy.bits .bf16 < FTy.bits .f32
  broadcasts_S32x1x1296_S32x64x1296 : S32x1x1296.Broadcasts S32x64x1296
  shapeCasts_S32x8x64_S32x512 : S32x8x64.ShapeCasts S32x512
  reduces_S32x512_S32 : S32x512.Reduces [1] S32
  shapeCasts_S32_S32x1 : S32.ShapeCasts S32x1
  broadcasts_S32x1_S32x512 : S32x1.Broadcasts S32x512
  inb_S32x512_S32x512_0_0 : ∀ a, (![0, 0] : Fin 2 → Nat) a + S32x512.size a ≤ S32x512.size a
  h_S32x512 : 0 < S32x512.numel
  shapeCasts_S4096x512_S4x1024x512 : S4096x512.ShapeCasts S4x1024x512
  pads_S4x1024x512_S4x1128x512_000_50540_000 : S4x1024x512.Pads (![0, 50, 0] : Fin 3 → Nat) ![0, 54, 0] ![0, 0, 0] S4x1128x512
  h_S_ : 0 < S_.numel
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  h_S1x232x512 : 0 < S1x232x512.numel
  shapeCasts_S1x232x512_S232x512 : S1x232x512.ShapeCasts S232x512
  iota_S128x128_d0_w32 : S128x128.Iotas .tc 32 [0]
  iota_S128x128_d1_w32 : S128x128.Iotas .tc 32 [1]
  inb_S101x128_S101x128_0_0 : ∀ a, (![0, 0] : Fin 2 → Nat) a + S101x128.size a ≤ S101x128.size a
  h_S101x128 : 0 < S101x128.numel
  inb_S128_S128_0 : ∀ a, (![0] : Fin 1 → Nat) a + S128.size a ≤ S128.size a
  h_S128 : 0 < S128.numel
  slices_S128x232_o0_0_S128x128 : S128x232.Slices ![0, 0] S128x128
  reduces_S128x128_S128 : S128x128.Reduces [1] S128
  shapeCasts_S128_S128x1 : S128.ShapeCasts S128x1
  slices_S101x128_o0_0_S1x128 : S101x128.Slices ![0, 0] S1x128
  shapeCasts_S1x128_S128 : S1x128.ShapeCasts S128
  shapeCasts_S128_S1x128 : S128.ShapeCasts S1x128
  broadcasts_S128x1_S128x128 : S128x1.Broadcasts S128x128
  broadcasts_S1x128_S128x128 : S1x128.Broadcasts S128x128
  slices_S128x232_o0_1_S128x128 : S128x232.Slices ![0, 1] S128x128
  slices_S101x128_o1_0_S1x128 : S101x128.Slices ![1, 0] S1x128
  slices_S128x232_o0_2_S128x128 : S128x232.Slices ![0, 2] S128x128
  slices_S101x128_o2_0_S1x128 : S101x128.Slices ![2, 0] S1x128
  slices_S128x232_o0_3_S128x128 : S128x232.Slices ![0, 3] S128x128
  slices_S101x128_o3_0_S1x128 : S101x128.Slices ![3, 0] S1x128
  slices_S128x232_o0_4_S128x128 : S128x232.Slices ![0, 4] S128x128
  slices_S101x128_o4_0_S1x128 : S101x128.Slices ![4, 0] S1x128
  slices_S128x232_o0_5_S128x128 : S128x232.Slices ![0, 5] S128x128
  slices_S101x128_o5_0_S1x128 : S101x128.Slices ![5, 0] S1x128
  slices_S128x232_o0_6_S128x128 : S128x232.Slices ![0, 6] S128x128
  slices_S101x128_o6_0_S1x128 : S101x128.Slices ![6, 0] S1x128
  slices_S128x232_o0_7_S128x128 : S128x232.Slices ![0, 7] S128x128
  slices_S101x128_o7_0_S1x128 : S101x128.Slices ![7, 0] S1x128
  slices_S128x232_o0_8_S128x128 : S128x232.Slices ![0, 8] S128x128
  slices_S101x128_o8_0_S1x128 : S101x128.Slices ![8, 0] S1x128
  slices_S128x232_o0_9_S128x128 : S128x232.Slices ![0, 9] S128x128
  slices_S101x128_o9_0_S1x128 : S101x128.Slices ![9, 0] S1x128
  slices_S128x232_o0_10_S128x128 : S128x232.Slices ![0, 10] S128x128
  slices_S101x128_o10_0_S1x128 : S101x128.Slices ![10, 0] S1x128
  slices_S128x232_o0_11_S128x128 : S128x232.Slices ![0, 11] S128x128
  slices_S101x128_o11_0_S1x128 : S101x128.Slices ![11, 0] S1x128
  slices_S128x232_o0_12_S128x128 : S128x232.Slices ![0, 12] S128x128
  slices_S101x128_o12_0_S1x128 : S101x128.Slices ![12, 0] S1x128
  slices_S128x232_o0_13_S128x128 : S128x232.Slices ![0, 13] S128x128
  slices_S101x128_o13_0_S1x128 : S101x128.Slices ![13, 0] S1x128
  slices_S128x232_o0_14_S128x128 : S128x232.Slices ![0, 14] S128x128
  slices_S101x128_o14_0_S1x128 : S101x128.Slices ![14, 0] S1x128
  slices_S128x232_o0_15_S128x128 : S128x232.Slices ![0, 15] S128x128
  slices_S101x128_o15_0_S1x128 : S101x128.Slices ![15, 0] S1x128
  slices_S128x232_o0_16_S128x128 : S128x232.Slices ![0, 16] S128x128
  slices_S101x128_o16_0_S1x128 : S101x128.Slices ![16, 0] S1x128
  slices_S128x232_o0_17_S128x128 : S128x232.Slices ![0, 17] S128x128
  slices_S101x128_o17_0_S1x128 : S101x128.Slices ![17, 0] S1x128
  slices_S128x232_o0_18_S128x128 : S128x232.Slices ![0, 18] S128x128
  slices_S101x128_o18_0_S1x128 : S101x128.Slices ![18, 0] S1x128
  slices_S128x232_o0_19_S128x128 : S128x232.Slices ![0, 19] S128x128
  slices_S101x128_o19_0_S1x128 : S101x128.Slices ![19, 0] S1x128
  slices_S128x232_o0_20_S128x128 : S128x232.Slices ![0, 20] S128x128
  slices_S101x128_o20_0_S1x128 : S101x128.Slices ![20, 0] S1x128
  slices_S128x232_o0_21_S128x128 : S128x232.Slices ![0, 21] S128x128
  slices_S101x128_o21_0_S1x128 : S101x128.Slices ![21, 0] S1x128
  slices_S128x232_o0_22_S128x128 : S128x232.Slices ![0, 22] S128x128
  slices_S101x128_o22_0_S1x128 : S101x128.Slices ![22, 0] S1x128
  slices_S128x232_o0_23_S128x128 : S128x232.Slices ![0, 23] S128x128
  slices_S101x128_o23_0_S1x128 : S101x128.Slices ![23, 0] S1x128
  slices_S128x232_o0_24_S128x128 : S128x232.Slices ![0, 24] S128x128
  slices_S101x128_o24_0_S1x128 : S101x128.Slices ![24, 0] S1x128
  slices_S128x232_o0_25_S128x128 : S128x232.Slices ![0, 25] S128x128
  slices_S101x128_o25_0_S1x128 : S101x128.Slices ![25, 0] S1x128
  slices_S128x232_o0_26_S128x128 : S128x232.Slices ![0, 26] S128x128
  slices_S101x128_o26_0_S1x128 : S101x128.Slices ![26, 0] S1x128
  slices_S128x232_o0_27_S128x128 : S128x232.Slices ![0, 27] S128x128
  slices_S101x128_o27_0_S1x128 : S101x128.Slices ![27, 0] S1x128
  slices_S128x232_o0_28_S128x128 : S128x232.Slices ![0, 28] S128x128
  slices_S101x128_o28_0_S1x128 : S101x128.Slices ![28, 0] S1x128
  slices_S128x232_o0_29_S128x128 : S128x232.Slices ![0, 29] S128x128
  slices_S101x128_o29_0_S1x128 : S101x128.Slices ![29, 0] S1x128
  slices_S128x232_o0_30_S128x128 : S128x232.Slices ![0, 30] S128x128
  slices_S101x128_o30_0_S1x128 : S101x128.Slices ![30, 0] S1x128
  slices_S128x232_o0_31_S128x128 : S128x232.Slices ![0, 31] S128x128
  slices_S101x128_o31_0_S1x128 : S101x128.Slices ![31, 0] S1x128
  slices_S128x232_o0_32_S128x128 : S128x232.Slices ![0, 32] S128x128
  slices_S101x128_o32_0_S1x128 : S101x128.Slices ![32, 0] S1x128
  slices_S128x232_o0_33_S128x128 : S128x232.Slices ![0, 33] S128x128
  slices_S101x128_o33_0_S1x128 : S101x128.Slices ![33, 0] S1x128
  slices_S128x232_o0_34_S128x128 : S128x232.Slices ![0, 34] S128x128
  slices_S101x128_o34_0_S1x128 : S101x128.Slices ![34, 0] S1x128
  slices_S128x232_o0_35_S128x128 : S128x232.Slices ![0, 35] S128x128
  slices_S101x128_o35_0_S1x128 : S101x128.Slices ![35, 0] S1x128
  slices_S128x232_o0_36_S128x128 : S128x232.Slices ![0, 36] S128x128
  slices_S101x128_o36_0_S1x128 : S101x128.Slices ![36, 0] S1x128
  slices_S128x232_o0_37_S128x128 : S128x232.Slices ![0, 37] S128x128
  slices_S101x128_o37_0_S1x128 : S101x128.Slices ![37, 0] S1x128
  slices_S128x232_o0_38_S128x128 : S128x232.Slices ![0, 38] S128x128
  slices_S101x128_o38_0_S1x128 : S101x128.Slices ![38, 0] S1x128
  slices_S128x232_o0_39_S128x128 : S128x232.Slices ![0, 39] S128x128
  slices_S101x128_o39_0_S1x128 : S101x128.Slices ![39, 0] S1x128
  slices_S128x232_o0_40_S128x128 : S128x232.Slices ![0, 40] S128x128
  slices_S101x128_o40_0_S1x128 : S101x128.Slices ![40, 0] S1x128
  slices_S128x232_o0_41_S128x128 : S128x232.Slices ![0, 41] S128x128
  slices_S101x128_o41_0_S1x128 : S101x128.Slices ![41, 0] S1x128
  slices_S128x232_o0_42_S128x128 : S128x232.Slices ![0, 42] S128x128
  slices_S101x128_o42_0_S1x128 : S101x128.Slices ![42, 0] S1x128
  slices_S128x232_o0_43_S128x128 : S128x232.Slices ![0, 43] S128x128
  slices_S101x128_o43_0_S1x128 : S101x128.Slices ![43, 0] S1x128
  slices_S128x232_o0_44_S128x128 : S128x232.Slices ![0, 44] S128x128
  slices_S101x128_o44_0_S1x128 : S101x128.Slices ![44, 0] S1x128
  slices_S128x232_o0_45_S128x128 : S128x232.Slices ![0, 45] S128x128
  slices_S101x128_o45_0_S1x128 : S101x128.Slices ![45, 0] S1x128
  slices_S128x232_o0_46_S128x128 : S128x232.Slices ![0, 46] S128x128
  slices_S101x128_o46_0_S1x128 : S101x128.Slices ![46, 0] S1x128
  slices_S128x232_o0_47_S128x128 : S128x232.Slices ![0, 47] S128x128
  slices_S101x128_o47_0_S1x128 : S101x128.Slices ![47, 0] S1x128
  slices_S128x232_o0_48_S128x128 : S128x232.Slices ![0, 48] S128x128
  slices_S101x128_o48_0_S1x128 : S101x128.Slices ![48, 0] S1x128
  slices_S128x232_o0_49_S128x128 : S128x232.Slices ![0, 49] S128x128
  slices_S101x128_o49_0_S1x128 : S101x128.Slices ![49, 0] S1x128
  slices_S128x232_o0_50_S128x128 : S128x232.Slices ![0, 50] S128x128
  slices_S101x128_o50_0_S1x128 : S101x128.Slices ![50, 0] S1x128
  slices_S128x232_o0_51_S128x128 : S128x232.Slices ![0, 51] S128x128
  slices_S101x128_o51_0_S1x128 : S101x128.Slices ![51, 0] S1x128
  slices_S128x232_o0_52_S128x128 : S128x232.Slices ![0, 52] S128x128
  slices_S101x128_o52_0_S1x128 : S101x128.Slices ![52, 0] S1x128
  slices_S128x232_o0_53_S128x128 : S128x232.Slices ![0, 53] S128x128
  slices_S101x128_o53_0_S1x128 : S101x128.Slices ![53, 0] S1x128
  slices_S128x232_o0_54_S128x128 : S128x232.Slices ![0, 54] S128x128
  slices_S101x128_o54_0_S1x128 : S101x128.Slices ![54, 0] S1x128
  slices_S128x232_o0_55_S128x128 : S128x232.Slices ![0, 55] S128x128
  slices_S101x128_o55_0_S1x128 : S101x128.Slices ![55, 0] S1x128
  slices_S128x232_o0_56_S128x128 : S128x232.Slices ![0, 56] S128x128
  slices_S101x128_o56_0_S1x128 : S101x128.Slices ![56, 0] S1x128
  slices_S128x232_o0_57_S128x128 : S128x232.Slices ![0, 57] S128x128
  slices_S101x128_o57_0_S1x128 : S101x128.Slices ![57, 0] S1x128
  slices_S128x232_o0_58_S128x128 : S128x232.Slices ![0, 58] S128x128
  slices_S101x128_o58_0_S1x128 : S101x128.Slices ![58, 0] S1x128
  slices_S128x232_o0_59_S128x128 : S128x232.Slices ![0, 59] S128x128
  slices_S101x128_o59_0_S1x128 : S101x128.Slices ![59, 0] S1x128
  slices_S128x232_o0_60_S128x128 : S128x232.Slices ![0, 60] S128x128
  slices_S101x128_o60_0_S1x128 : S101x128.Slices ![60, 0] S1x128
  slices_S128x232_o0_61_S128x128 : S128x232.Slices ![0, 61] S128x128
  slices_S101x128_o61_0_S1x128 : S101x128.Slices ![61, 0] S1x128
  slices_S128x232_o0_62_S128x128 : S128x232.Slices ![0, 62] S128x128
  slices_S101x128_o62_0_S1x128 : S101x128.Slices ![62, 0] S1x128
  slices_S128x232_o0_63_S128x128 : S128x232.Slices ![0, 63] S128x128
  slices_S101x128_o63_0_S1x128 : S101x128.Slices ![63, 0] S1x128
  slices_S128x232_o0_64_S128x128 : S128x232.Slices ![0, 64] S128x128
  slices_S101x128_o64_0_S1x128 : S101x128.Slices ![64, 0] S1x128
  slices_S128x232_o0_65_S128x128 : S128x232.Slices ![0, 65] S128x128
  slices_S101x128_o65_0_S1x128 : S101x128.Slices ![65, 0] S1x128
  slices_S128x232_o0_66_S128x128 : S128x232.Slices ![0, 66] S128x128
  slices_S101x128_o66_0_S1x128 : S101x128.Slices ![66, 0] S1x128
  slices_S128x232_o0_67_S128x128 : S128x232.Slices ![0, 67] S128x128
  slices_S101x128_o67_0_S1x128 : S101x128.Slices ![67, 0] S1x128
  slices_S128x232_o0_68_S128x128 : S128x232.Slices ![0, 68] S128x128
  slices_S101x128_o68_0_S1x128 : S101x128.Slices ![68, 0] S1x128
  slices_S128x232_o0_69_S128x128 : S128x232.Slices ![0, 69] S128x128
  slices_S101x128_o69_0_S1x128 : S101x128.Slices ![69, 0] S1x128
  slices_S128x232_o0_70_S128x128 : S128x232.Slices ![0, 70] S128x128
  slices_S101x128_o70_0_S1x128 : S101x128.Slices ![70, 0] S1x128
  slices_S128x232_o0_71_S128x128 : S128x232.Slices ![0, 71] S128x128
  slices_S101x128_o71_0_S1x128 : S101x128.Slices ![71, 0] S1x128
  slices_S128x232_o0_72_S128x128 : S128x232.Slices ![0, 72] S128x128
  slices_S101x128_o72_0_S1x128 : S101x128.Slices ![72, 0] S1x128
  slices_S128x232_o0_73_S128x128 : S128x232.Slices ![0, 73] S128x128
  slices_S101x128_o73_0_S1x128 : S101x128.Slices ![73, 0] S1x128
  slices_S128x232_o0_74_S128x128 : S128x232.Slices ![0, 74] S128x128
  slices_S101x128_o74_0_S1x128 : S101x128.Slices ![74, 0] S1x128
  slices_S128x232_o0_75_S128x128 : S128x232.Slices ![0, 75] S128x128
  slices_S101x128_o75_0_S1x128 : S101x128.Slices ![75, 0] S1x128
  slices_S128x232_o0_76_S128x128 : S128x232.Slices ![0, 76] S128x128
  slices_S101x128_o76_0_S1x128 : S101x128.Slices ![76, 0] S1x128
  slices_S128x232_o0_77_S128x128 : S128x232.Slices ![0, 77] S128x128
  slices_S101x128_o77_0_S1x128 : S101x128.Slices ![77, 0] S1x128
  slices_S128x232_o0_78_S128x128 : S128x232.Slices ![0, 78] S128x128
  slices_S101x128_o78_0_S1x128 : S101x128.Slices ![78, 0] S1x128
  slices_S128x232_o0_79_S128x128 : S128x232.Slices ![0, 79] S128x128
  slices_S101x128_o79_0_S1x128 : S101x128.Slices ![79, 0] S1x128
  slices_S128x232_o0_80_S128x128 : S128x232.Slices ![0, 80] S128x128
  slices_S101x128_o80_0_S1x128 : S101x128.Slices ![80, 0] S1x128
  slices_S128x232_o0_81_S128x128 : S128x232.Slices ![0, 81] S128x128
  slices_S101x128_o81_0_S1x128 : S101x128.Slices ![81, 0] S1x128
  slices_S128x232_o0_82_S128x128 : S128x232.Slices ![0, 82] S128x128
  slices_S101x128_o82_0_S1x128 : S101x128.Slices ![82, 0] S1x128
  slices_S128x232_o0_83_S128x128 : S128x232.Slices ![0, 83] S128x128
  slices_S101x128_o83_0_S1x128 : S101x128.Slices ![83, 0] S1x128
  slices_S128x232_o0_84_S128x128 : S128x232.Slices ![0, 84] S128x128
  slices_S101x128_o84_0_S1x128 : S101x128.Slices ![84, 0] S1x128
  slices_S128x232_o0_85_S128x128 : S128x232.Slices ![0, 85] S128x128
  slices_S101x128_o85_0_S1x128 : S101x128.Slices ![85, 0] S1x128
  slices_S128x232_o0_86_S128x128 : S128x232.Slices ![0, 86] S128x128
  slices_S101x128_o86_0_S1x128 : S101x128.Slices ![86, 0] S1x128
  slices_S128x232_o0_87_S128x128 : S128x232.Slices ![0, 87] S128x128
  slices_S101x128_o87_0_S1x128 : S101x128.Slices ![87, 0] S1x128
  slices_S128x232_o0_88_S128x128 : S128x232.Slices ![0, 88] S128x128
  slices_S101x128_o88_0_S1x128 : S101x128.Slices ![88, 0] S1x128
  slices_S128x232_o0_89_S128x128 : S128x232.Slices ![0, 89] S128x128
  slices_S101x128_o89_0_S1x128 : S101x128.Slices ![89, 0] S1x128
  slices_S128x232_o0_90_S128x128 : S128x232.Slices ![0, 90] S128x128
  slices_S101x128_o90_0_S1x128 : S101x128.Slices ![90, 0] S1x128
  slices_S128x232_o0_91_S128x128 : S128x232.Slices ![0, 91] S128x128
  slices_S101x128_o91_0_S1x128 : S101x128.Slices ![91, 0] S1x128
  slices_S128x232_o0_92_S128x128 : S128x232.Slices ![0, 92] S128x128
  slices_S101x128_o92_0_S1x128 : S101x128.Slices ![92, 0] S1x128
  slices_S128x232_o0_93_S128x128 : S128x232.Slices ![0, 93] S128x128
  slices_S101x128_o93_0_S1x128 : S101x128.Slices ![93, 0] S1x128
  slices_S128x232_o0_94_S128x128 : S128x232.Slices ![0, 94] S128x128
  slices_S101x128_o94_0_S1x128 : S101x128.Slices ![94, 0] S1x128
  slices_S128x232_o0_95_S128x128 : S128x232.Slices ![0, 95] S128x128
  slices_S101x128_o95_0_S1x128 : S101x128.Slices ![95, 0] S1x128
  slices_S128x232_o0_96_S128x128 : S128x232.Slices ![0, 96] S128x128
  slices_S101x128_o96_0_S1x128 : S101x128.Slices ![96, 0] S1x128
  slices_S128x232_o0_97_S128x128 : S128x232.Slices ![0, 97] S128x128
  slices_S101x128_o97_0_S1x128 : S101x128.Slices ![97, 0] S1x128
  slices_S128x232_o0_98_S128x128 : S128x232.Slices ![0, 98] S128x128
  slices_S101x128_o98_0_S1x128 : S101x128.Slices ![98, 0] S1x128
  slices_S128x232_o0_99_S128x128 : S128x232.Slices ![0, 99] S128x128
  slices_S101x128_o99_0_S1x128 : S101x128.Slices ![99, 0] S1x128
  slices_S128x232_o0_100_S128x128 : S128x232.Slices ![0, 100] S128x128
  slices_S101x128_o100_0_S1x128 : S101x128.Slices ![100, 0] S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S32x8x1296_S32x64x1296_S32x8x64_2_2_1_1_0_0_wf : DotDims.WF S32x8x1296 S32x64x1296 S32x8x64 [2] [2] [1] [1] [0] [0]
  dot_S128x512_S232x512_S128x232_1_1_0_0_n_n_wf : DotDims.WF S128x512 S232x512 S128x232 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1296.size a ≤ S4096x1296.size a
  hwx0_0 : ∀ i : grid0.Coords, EltTy.bits .i32 = 32 ∨ (Rect.block (s := S4096x1296) S32x1296.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S4096x512.size a
  hwx0_1 : ∀ i : grid0.Coords, EltTy.bits .f32 = 32 ∨ (Rect.block (s := S4096x512) S32x512.size (cc0_transform_1 i) (hinb0_1 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x232x512.size a ≤ S1x1128x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S4x1024x512.size a
  hwx1_0 : ∀ i : grid1.Coords, EltTy.bits .f32 = 32 ∨ (Rect.block (s := S4x1024x512) S1x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1128x512.size a ≤ S4x1128x512.size a
  hwx1_1 : ∀ i : grid1.Coords, EltTy.bits .f32 = 32 ∨ (Rect.block (s := S4x1128x512) S1x1128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S101x128.size a ≤ S101x128.size a
  hwx1_2 : ∀ i : grid1.Coords, EltTy.bits .f32 = 32 ∨ (Rect.block (s := S101x128) S101x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x128.size a ≤ S4x1024x128.size a
  hwx1_4 : ∀ i : grid1.Coords, EltTy.bits .f32 = 32 ∨ (Rect.block (s := S4x1024x128) S1x128x128.size (cc1_transform_4 i) (hinb1_4 i)).WholeWords (EltTy.packing .f32)

variable [Facts₀]

def dot_S32x8x1296_S32x64x1296_S32x8x64_2_2_1_1_0_0 : DotDims S32x8x1296 S32x64x1296 S32x8x64 where
  lhsContracting := [2]
  rhsContracting := [2]
  lhsNonContracting := [1]
  rhsNonContracting := [1]
  lhsBatch := [0]
  rhsBatch := [0]
  wf := dot_S32x8x1296_S32x64x1296_S32x8x64_2_2_1_1_0_0_wf
def dot_S128x512_S232x512_S128x232_1_1_0_0_n_n : DotDims S128x512 S232x512 S128x232 where
  lhsContracting := [1]
  rhsContracting := [1]
  lhsNonContracting := [0]
  rhsNonContracting := [0]
  lhsBatch := []
  rhsBatch := []
  wf := dot_S128x512_S232x512_S128x232_1_1_0_0_n_n_wf

abbrev win0_0 : Pipeline.Window sig grid0 :=
  Pipeline.Window.ofSpec (Memref.whole main_v24) S32x1296.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v26) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S101x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x1024x27x48x3 : Shape := ⟨5, ![4, 1024, 27, 48, 3]⟩
abbrev S101x128 : Shape := ⟨2, ![101, 128]⟩
abbrev S128 : Shape := ⟨1, ![128]⟩
abbrev S4096x1296x3 : Shape := ⟨3, ![4096, 1296, 3]⟩
abbrev S4096x1296x1 : Shape := ⟨3, ![4096, 1296, 1]⟩
abbrev S4096x1296 : Shape := ⟨2, ![4096, 1296]⟩
abbrev S_ : Shape := ⟨0, ![]⟩
abbrev S4096 : Shape := ⟨1, ![4096]⟩
abbrev S4096x1 : Shape := ⟨2, ![4096, 1]⟩
abbrev S5308416 : Shape := ⟨1, ![5308416]⟩
abbrev S2097152 : Shape := ⟨1, ![2097152]⟩
abbrev S5308416x1 : Shape := ⟨2, ![5308416, 1]⟩
abbrev S4x1024x512 : Shape := ⟨3, ![4, 1024, 512]⟩
abbrev S4x1024 : Shape := ⟨2, ![4, 1024]⟩
abbrev S4x1024x1 : Shape := ⟨3, ![4, 1024, 1]⟩
abbrev S4x1024x1024 : Shape := ⟨3, ![4, 1024, 1024]⟩
abbrev S4x1024x1124 : Shape := ⟨3, ![4, 1024, 1124]⟩
abbrev S1024 : Shape := ⟨1, ![1024]⟩
abbrev S1024x1 : Shape := ⟨2, ![1024, 1]⟩
abbrev S101 : Shape := ⟨1, ![101]⟩
abbrev S1x101 : Shape := ⟨2, ![1, 101]⟩
abbrev S1024x101 : Shape := ⟨2, ![1024, 101]⟩
abbrev S1024x101x1 : Shape := ⟨3, ![1024, 101, 1]⟩
abbrev S1024x101x2 : Shape := ⟨3, ![1024, 101, 2]⟩
abbrev S4x1024x101 : Shape := ⟨3, ![4, 1024, 101]⟩
abbrev S4x1024x128 : Shape := ⟨3, ![4, 1024, 128]⟩
abbrev S1x1x128 : Shape := ⟨3, ![1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x1024x27x48x3, .i32⟩
  | .hbm, ⟨1, _⟩ => ⟨S101x128, .f32⟩
  | .hbm, ⟨2, _⟩ => ⟨S128, .f32⟩
  | .hbm, ⟨3, _⟩ => ⟨S4096x1296x3, .i32⟩
  | .hbm, ⟨4, _⟩ => ⟨S4096x1296x1, .i32⟩
  | .hbm, ⟨5, _⟩ => ⟨S4096x1296, .i32⟩
  | .hbm, ⟨6, _⟩ => ⟨S_, .i32⟩
  | .hbm, ⟨7, _⟩ => ⟨S4096x1296, .i32⟩
  | .hbm, ⟨8, _⟩ => ⟨S4096x1296, .i32⟩
  | .hbm, ⟨9, _⟩ => ⟨S_, .i32⟩
  | .hbm, ⟨10, _⟩ => ⟨S4096x1296, .i32⟩
  | .hbm, ⟨11, _⟩ => ⟨S4096x1296, .i32⟩
  | .hbm, ⟨12, _⟩ => ⟨S4096x1296x1, .i32⟩
  | .hbm, ⟨13, _⟩ => ⟨S4096x1296, .i32⟩
  | .hbm, ⟨14, _⟩ => ⟨S_, .i32⟩
  | .hbm, ⟨15, _⟩ => ⟨S4096x1296, .i32⟩
  | .hbm, ⟨16, _⟩ => ⟨S4096x1296, .i32⟩
  | .hbm, ⟨17, _⟩ => ⟨S_, .i32⟩
  | .hbm, ⟨18, _⟩ => ⟨S4096x1296, .i32⟩
  | .hbm, ⟨19, _⟩ => ⟨S4096x1296, .i32⟩
  | .hbm, ⟨20, _⟩ => ⟨S4096x1296, .i32⟩
  | .hbm, ⟨21, _⟩ => ⟨S4096x1296x1, .i32⟩
  | .hbm, ⟨22, _⟩ => ⟨S4096x1296, .i32⟩
  | .hbm, ⟨23, _⟩ => ⟨S_, .i32⟩
  | .hbm, ⟨24, _⟩ => ⟨S4096x1296, .i32⟩
  | .hbm, ⟨25, _⟩ => ⟨S4096x1296, .i32⟩
  | .hbm, ⟨26, _⟩ => ⟨S4096x1296, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1296, .i32⟩
  | .hbm, ⟨33, _⟩ => ⟨S4096x1296, .i32⟩
  | .hbm, ⟨34, _⟩ => ⟨S_, .f32⟩
  | .hbm, ⟨35, _⟩ => ⟨S5308416, .f32⟩
  | .hbm, ⟨36, _⟩ => ⟨S5308416, .i32⟩
  | .hbm, ⟨37, _⟩ => ⟨S_, .f32⟩
  | .hbm, ⟨38, _⟩ => ⟨S2097152, .f32⟩
  | .hbm, ⟨39, _⟩ => ⟨S5308416x1, .i32⟩
  | .hbm, ⟨40, _⟩ => ⟨S2097152, .f32⟩
  | .hbm, ⟨41, _⟩ => ⟨S4x1024x512, .f32⟩
  | .hbm, ⟨42, _⟩ => ⟨S4x1024x512, .f32⟩
  | .hbm, ⟨43, _⟩ => ⟨S_, .f32⟩
  | .hbm, ⟨44, _⟩ => ⟨S4x1024, .f32⟩
  | .hbm, ⟨45, _⟩ => ⟨S4x1024x1, .f32⟩
  | .hbm, ⟨46, _⟩ => ⟨S4x1024x1, .f32⟩
  | .hbm, ⟨47, _⟩ => ⟨S_, .f32⟩
  | .hbm, ⟨48, _⟩ => ⟨S4x1024x1, .f32⟩
  | .hbm, ⟨49, _⟩ => ⟨S4x1024x1, .f32⟩
  | .hbm, ⟨50, _⟩ => ⟨S4x1024x512, .f32⟩
  | .hbm, ⟨51, _⟩ => ⟨S4x1024x512, .f32⟩
  | .hbm, ⟨52, _⟩ => ⟨S4x1024x1024, .f32⟩
  | .hbm, ⟨53, _⟩ => ⟨S_, .i32⟩
  | .hbm, ⟨54, _⟩ => ⟨S_, .f32⟩
  | .hbm, ⟨55, _⟩ => ⟨S4x1024x1124, .f32⟩
  | .hbm, ⟨56, _⟩ => ⟨S1024, .i32⟩
  | .hbm, ⟨57, _⟩ => ⟨S1024x1, .i32⟩
  | .hbm, ⟨58, _⟩ => ⟨S101, .i32⟩
  | .hbm, ⟨59, _⟩ => ⟨S1x101, .i32⟩
  | .hbm, ⟨60, _⟩ => ⟨S1024x101, .i32⟩
  | .hbm, ⟨61, _⟩ => ⟨S1024x101, .i32⟩
  | .hbm, ⟨62, _⟩ => ⟨S1024x101, .i32⟩
  | .hbm, ⟨63, _⟩ => ⟨S_, .i32⟩
  | .hbm, ⟨64, _⟩ => ⟨S1024x1, .i32⟩
  | .hbm, ⟨65, _⟩ => ⟨S1024x1, .i1⟩
  | .hbm, ⟨66, _⟩ => ⟨S_, .i32⟩
  | .hbm, ⟨67, _⟩ => ⟨S1024x1, .i32⟩
  | .hbm, ⟨68, _⟩ => ⟨S1024x1, .i32⟩
  | .hbm, ⟨69, _⟩ => ⟨S1024x1, .i32⟩
  | .hbm, ⟨70, _⟩ => ⟨S_, .i32⟩
  | .hbm, ⟨71, _⟩ => ⟨S1024x101, .i32⟩
  | .hbm, ⟨72, _⟩ => ⟨S1024x101, .i1⟩
  | .hbm, ⟨73, _⟩ => ⟨S_, .i32⟩
  | .hbm, ⟨74, _⟩ => ⟨S1024x101, .i32⟩
  | .hbm, ⟨75, _⟩ => ⟨S1024x101, .i32⟩
  | .hbm, ⟨76, _⟩ => ⟨S1024x101, .i32⟩
  | .hbm, ⟨77, _⟩ => ⟨S1024x101, .i32⟩
  | .hbm, ⟨78, _⟩ => ⟨S1024x101x1, .i32⟩
  | .hbm, ⟨79, _⟩ => ⟨S1024x101x1, .i32⟩
  | .hbm, ⟨80, _⟩ => ⟨S1024x101x2, .i32⟩
  | .hbm, ⟨81, _⟩ => ⟨S4x1024x101, .f32⟩
  | .hbm, ⟨82, _⟩ => ⟨S4x1024x128, .f32⟩
  | .hbm, ⟨83, _⟩ => ⟨S1x1x128, .f32⟩
  | .hbm, ⟨84, _⟩ => ⟨S4x1024x128, .f32⟩
  | .hbm, ⟨85, _⟩ => ⟨S4x1024x128, .f32⟩
  | .hbm, ⟨86, _⟩ => ⟨S_, .f32⟩
  | .hbm, ⟨87, _⟩ => ⟨S4x1024x128, .f32⟩
  | .hbm, ⟨88, _⟩ => ⟨S4x1024x128, .f32⟩
  | _, _ => ⟨S4x1024x27x48x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_call0_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call1_cst : Ref sig .tc := ⟨.hbm, 86, rfl⟩
abbrev main_call1_v0 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  shapeCasts_S4x1024x27x48x3_S4096x1296x3 : S4x1024x27x48x3.ShapeCasts S4096x1296x3
  slices_S4096x1296x3_S4096x1296x1_0_0_0 : S4096x1296x3.Slices ![0, 0, 0] S4096x1296x1
  shapeCasts_S4096x1296x1_S4096x1296 : S4096x1296x1.ShapeCasts S4096x1296
  bcast_S_S4096x1296 : S_.BroadcastsInDim S4096x1296 (![] : Fin 0 → Fin S4096x1296.rank)
  slices_S4096x1296x3_S4096x1296x1_0_0_1 : S4096x1296x3.Slices ![0, 0, 1] S4096x1296x1
  slices_S4096x1296x3_S4096x1296x1_0_0_2 : S4096x1296x3.Slices ![0, 0, 2] S4096x1296x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1296_0_1 : S4096x1.BroadcastsInDim S4096x1296 (![0, 1] : Fin 2 → Fin S4096x1296.rank)
  bcast_S_S5308416 : S_.BroadcastsInDim S5308416 (![] : Fin 0 → Fin S5308416.rank)
  shapeCasts_S4096x1296_S5308416 : S4096x1296.ShapeCasts S5308416
  bcast_S_S2097152 : S_.BroadcastsInDim S2097152 (![] : Fin 0 → Fin S2097152.rank)
  bcast_S5308416_S5308416x1_0 : S5308416.BroadcastsInDim S5308416x1 (![0] : Fin 1 → Fin S5308416x1.rank)
  shapeCasts_S2097152_S4x1024x512 : S2097152.ShapeCasts S4x1024x512
  reducesTo_S4x1024x512_S4x1024_d2 : S4x1024x512.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x512_0_1_2 : S4x1024x1.BroadcastsInDim S4x1024x512 (![0, 1, 2] : Fin 3 → Fin S4x1024x512.rank)
  pads_S4x1024x1024_S4x1024x1124_000_000_50500 : S4x1024x1024.Pads (![0, 0, 50] : Fin 3 → Nat) ![0, 0, 50] ![0, 0, 0] S4x1024x1124
  bcast_S1024_S1024x1_0 : S1024.BroadcastsInDim S1024x1 (![0] : Fin 1 → Fin S1024x1.rank)
  bcast_S101_S1x101_1 : S101.BroadcastsInDim S1x101 (![1] : Fin 1 → Fin S1x101.rank)
  bcast_S1024x1_S1024x101_0_1 : S1024x1.BroadcastsInDim S1024x101 (![0, 1] : Fin 2 → Fin S1024x101.rank)
  bcast_S1x101_S1024x101_0_1 : S1x101.BroadcastsInDim S1024x101 (![0, 1] : Fin 2 → Fin S1024x101.rank)
  bcast_S_S1024x1 : S_.BroadcastsInDim S1024x1 (![] : Fin 0 → Fin S1024x1.rank)
  bcast_S_S1024x101 : S_.BroadcastsInDim S1024x101 (![] : Fin 0 → Fin S1024x101.rank)
  bcast_S1024x101_S1024x101x1_0_1 : S1024x101.BroadcastsInDim S1024x101x1 (![0, 1] : Fin 2 → Fin S1024x101x1.rank)
  concatenates_S1024x101x1_S1024x101x1_S1024x101x2_d2 : Shape.Concatenates [S1024x101x1, S1024x101x1] S1024x101x2 2
  bcast_S128_S1x1x128_2 : S128.BroadcastsInDim S1x1x128 (![2] : Fin 1 → Fin S1x1x128.rank)
  bcast_S1x1x128_S4x1024x128_0_1_2 : S1x1x128.BroadcastsInDim S4x1024x128 (![0, 1, 2] : Fin 3 → Fin S4x1024x128.rank)
  bcast_S_S4x1024x128 : S_.BroadcastsInDim S4x1024x128 (![] : Fin 0 → Fin S4x1024x128.rank)
  scatter_S2097152_S5308416x1_S5308416_n_0_0_1_wf : ScatterDims.WF S2097152 S5308416x1 S5308416 [] [0] [0] 1
  dot_S4x1024x512_S4x1024x512_S4x1024x1024_2_2_1_1_0_0_wf : DotDims.WF S4x1024x512 S4x1024x512 S4x1024x1024 [2] [2] [1] [1] [0] [0]
  gather_S4x1024x1124_S1024x101x2_S4x1024x101_0_12_n_n_12_2_411_wf : GatherDims.WF S4x1024x1124 S1024x101x2 S4x1024x101 [0] [1, 2] [] [1, 2] [] 2 ![4, 1, 1]
  dot_S4x1024x101_S101x128_S4x1024x128_2_0_01_1_n_n_wf : DotDims.WF S4x1024x101 S101x128 S4x1024x128 [2] [0] [0, 1] [1] [] []

variable [Facts₀]

def scatter_S2097152_S5308416x1_S5308416_n_0_0_1 : ScatterDims S2097152 S5308416x1 S5308416 where
  updateWindowDims := []
  insertedWindowDims := [0]
  scatterDimsToOperandDims := [0]
  indexVectorDim := 1
  wf := scatter_S2097152_S5308416x1_S5308416_n_0_0_1_wf
def dot_S4x1024x512_S4x1024x512_S4x1024x1024_2_2_1_1_0_0 : DotDims S4x1024x512 S4x1024x512 S4x1024x1024 where
  lhsContracting := [2]
  rhsContracting := [2]
  lhsNonContracting := [1]
  rhsNonContracting := [1]
  lhsBatch := [0]
  rhsBatch := [0]
  wf := dot_S4x1024x512_S4x1024x512_S4x1024x1024_2_2_1_1_0_0_wf
def gather_S4x1024x1124_S1024x101x2_S4x1024x101_0_12_n_n_12_2_411 : GatherDims S4x1024x1124 S1024x101x2 S4x1024x101 where
  offsetDims := [0]
  collapsedSliceDims := [1, 2]
  operandBatchingDims := []
  startIndicesBatchingDims := []
  startIndexMap := [1, 2]
  indexVectorDim := 2
  sliceSizes := ![4, 1, 1]
  wf := gather_S4x1024x1124_S1024x101x2_S4x1024x101_0_12_n_n_12_2_411_wf
def dot_S4x1024x101_S101x128_S4x1024x128_2_0_01_1_n_n : DotDims S4x1024x101 S101x128 S4x1024x128 where
  lhsContracting := [2]
  rhsContracting := [0]
  lhsNonContracting := [0, 1]
  rhsNonContracting := [1]
  lhsBatch := []
  rhsBatch := []
  wf := dot_S4x1024x101_S101x128_S4x1024x128_2_0_01_1_n_n_wf

class Facts : Prop extends Facts₀ where

variable [Facts]
-- ==== Proof.Spec.lean ====
/-
  The mathematics both programs compute, stated once over literal shapes.

  A frame is a 27 x 48 picture of RGB words. A pixel's bin is the 9-bit number made of the top three bits of each
  of its three 8-bit channels; a frame's histogram counts its pixels per bin (512 bins), and the histogram row is
  divided by the larger of its Euclidean norm and a small constant. For every batch b and time t the result takes
  the 101 inner products of row t with the rows t-50 .. t+50 of the same batch (zero where that row does not exist),
  combines them linearly with the weight matrix, adds the bias and clips below at zero.
-/
import Idealize.ShloMosaic.PureOps.Ideal
import Idealize.ShloMosaic.Lib.ValueIdx

noncomputable section

namespace Cert.Spec

open Idealize.ShloMosaic Idealize.ShloMosaic.ValueIdx
open scoped BigOperators

abbrev ShFrames : Shape := ⟨5, ![4, 1024, 27, 48, 3]⟩
abbrev ShBins : Shape := ⟨2, ![4096, 1296]⟩
abbrev ShX2 : Shape := ⟨2, ![4096, 512]⟩
abbrev ShX3 : Shape := ⟨3, ![4, 1024, 512]⟩
abbrev ShXp : Shape := ⟨3, ![4, 1128, 512]⟩
abbrev ShW : Shape := ⟨2, ![101, 128]⟩
abbrev ShB : Shape := ⟨1, ![128]⟩
abbrev ShOut : Shape := ⟨3, ![4, 1024, 128]⟩

/-- Frame number of time t in batch b. -/
def fr (b : Fin 4) (t : Fin 1024) : Fin 4096 := ⟨b.val * 1024 + t.val, by have := b.isLt; have := t.isLt; omega⟩

/-- Channel ch of pixel p of frame f. -/
def pix (frames : IVec ShFrames 32) (f : Fin 4096) (p : Fin 1296) (ch : Fin 3) : BitVec 32 :=
  frames (ix5 (⟨f.val / 1024, by have := f.isLt; omega⟩ : Fin 4) (⟨f.val % 1024, by omega⟩ : Fin 1024)
    (⟨p.val / 48, by have := p.isLt; omega⟩ : Fin 27) (⟨p.val % 48, by omega⟩ : Fin 48) ch)

/-- A channel word shifted down by five bits (arithmetic shift, as the host does it). -/
def chan (a : BitVec 32) : BitVec 32 := IntOp.shrsi .host a 5#32

/-- The bin word with each channel masked to three bits. -/
def kword (a b c : BitVec 32) : BitVec 32 :=
  IntOp.addi (IntOp.addi (IntOp.shli .host (IntOp.andi (chan a) 7#32) 6#32) (IntOp.shli .host (IntOp.andi (chan b) 7#32) 3#32))
    (IntOp.andi (chan c) 7#32)

/-- The bin word without masks, plus the frame's offset f * 512. -/
def rword (a b c f : BitVec 32) : BitVec 32 :=
  IntOp.addi (IntOp.addi (IntOp.addi (IntOp.shli .host (chan a) 6#32) (IntOp.shli .host (chan b) 3#32)) (chan c))
    (IntOp.shli .host f 9#32)

/-- The bin of pixel p of frame f as a number (meaningful when every channel is below 256). -/
def binOf (frames : IVec ShFrames 32) (f : Fin 4096) (p : Fin 1296) : ℕ :=
  (pix frames f p 0).toNat / 32 * 64 + (pix frames f p 1).toNat / 32 * 8 + (pix frames f p 2).toNat / 32

/-- The masked bin words of all pixels. -/
def kbins (frames : IVec ShFrames 32) : IVec ShBins 32 := fun i =>
  kword (pix frames (i 0) (i 1) 0) (pix frames (i 0) (i 1) 1) (pix frames (i 0) (i 1) 2)

/-- How many pixels of frame f fall in bin k. -/
def cnt (bins : Fin 4096 → Fin 1296 → ℕ) (f : Fin 4096) (k : ℕ) : ℕ :=
  (Finset.univ.filter fun p : Fin 1296 => bins f p = k).card

/-- The histogram of frame f as extended reals. -/
def hE (bins : Fin 4096 → Fin 1296 → ℕ) (f : Fin 4096) (k : Fin 512) : EReal := (((cnt bins f k.val : ℕ) : ℝ) : EReal)

/-- A row divided by max(its Euclidean norm, 1e-12 as an f32). -/
def xrow (h : Fin 512 → EReal) (k : Fin 512) : EReal :=
  Ideal.div (h k) (max (Ideal.sqrt (∑ j : Fin 512, h j * h j)) (Ideal.ofBits .f32 0x2B8CBCCC#32))

/-- The normalised histogram of time t in batch b. -/
def xn (bins : Fin 4096 → Fin 1296 → ℕ) (b : Fin 4) (t : Fin 1024) (k : Fin 512) : EReal := xrow (hE bins (fr b t)) k

/-- A compare bit widened to a word and converted to a float: 0 or 1. -/
def oh (bit : BitVec 1) : EReal := (((bit.setWidth 32).toInt : ℝ) : EReal)

/-- The histogram as a sum over pixels of products of two one-hot indicators (top three bits, low six bits). -/
def ohsum (bins : IVec ShBins 32) (f : Fin 4096) (k : Fin 512) : EReal :=
  ∑ p : Fin 1296, oh (IntOp.cmpi .eq (IntOp.shrsi .vector (bins (ix2 f p)) 6#32) (BitVec.ofNat 32 (k.val / 64)))
    * oh (IntOp.cmpi .eq (IntOp.andi (bins (ix2 f p)) 63#32) (BitVec.ofNat 32 (k.val % 64)))

/-- The normalised one-hot histogram of every frame. -/
def xk (bins : IVec ShBins 32) : ShX2.Idx → EReal := fun i => xrow (ohsum bins (i 0)) (i 1)

/-- Rows padded by 50 zero rows before and 54 after along the time axis. -/
def padx (x : ShX3.Idx → EReal) : ShXp.Idx → EReal := fun i =>
  if h : 50 ≤ (i 1).val ∧ (i 1).val < 1074 then x (ix3 (i 0) (⟨(i 1).val - 50, by omega⟩ : Fin 1024) (i 2)) else 0

/-- Inner product of row t with padded row t + l. -/
def dotk (x : ShX3.Idx → EReal) (xp : ShXp.Idx → EReal) (b : Fin 4) (t : Fin 1024) (l : Fin 101) : EReal :=
  ∑ k : Fin 512, x (ix3 b t k) * xp (ix3 b (⟨t.val + l.val, by have := t.isLt; have := l.isLt; omega⟩ : Fin 1128) k)

/-- The windowed linear layer over a padded copy of the rows. -/
def out1 (x : ShX3.Idx → EReal) (xp : ShXp.Idx → EReal) (w : ShW.Idx → EReal) (bias : ShB.Idx → EReal) : ShOut.Idx → EReal := fun i =>
  max ((∑ l : Fin 101, dotk x xp (i 0) (i 1) l * w (ix2 l (i 2))) + bias (ix1 (i 2))) 0

/-- One output block of the windowed layer: from 128 query rows, the 232 padded key rows that start at the block's
    first row, the weights and the bias. -/
def blk1 (xq : Fin 128 → Fin 512 → EReal) (key : Fin 232 → Fin 512 → EReal) (w : ShW.Idx → EReal) (bias : ShB.Idx → EReal)
    (p q : Fin 128) : EReal :=
  max ((∑ l : Fin 101, (∑ k : Fin 512, xq p k * key (⟨l.val + p.val, by have := l.isLt; have := p.isLt; omega⟩ : Fin 232) k) * w (ix2 l q))
    + bias (ix1 q)) 0

/-- Inner product of row t with row t + l - 50, zero when that row does not exist. -/
def win (x : Fin 4 → Fin 1024 → Fin 512 → EReal) (b : Fin 4) (t : Fin 1024) (l : Fin 101) : EReal :=
  if h : 50 ≤ t.val + l.val ∧ t.val + l.val < 1074 then
    ∑ k : Fin 512, x b t k * x b (⟨t.val + l.val - 50, by omega⟩ : Fin 1024) k
  else 0

/-- The windowed linear layer. -/
def outv (x : Fin 4 → Fin 1024 → Fin 512 → EReal) (w : ShW.Idx → EReal) (bias : ShB.Idx → EReal)
    (b : Fin 4) (t : Fin 1024) (q : Fin 128) : EReal :=
  max ((∑ l : Fin 101, win x b t l * w (ix2 l q)) + bias (ix1 q)) 0

/-- What both programs compute from the argument arrays. -/
def result (frames : IVec ShFrames 32) (w : ShW.Idx → EReal) (bias : ShB.Idx → EReal) : ShOut.Idx → EReal := fun i =>
  outv (xn (binOf frames)) w bias (i 0) (i 1) (i 2)

end Cert.Spec

end
-- ==== Proof.PreRange.lean ====
import proofs.«409566_j37400575214078_3_alg».proof.Proof.Gen.Pre_finite_inputs
import proofs.«409566_j37400575214078_3_alg».proof.Proof.Spec
import Idealize.ShloMosaic.Lib.ReduceAll
import Idealize.ShloMosaic.Lib.Affine

noncomputable section

open Idealize.ShloMosaic Idealize.ShloMosaic.ValueIdx

namespace Cert.PreRange

/-- The scalar shape has one index. -/
instance : Subsingleton Cert.Pre_finite_inputs.S_.Idx := ⟨fun a b => funext fun d => d.elim0⟩

/-- The precondition is a conjunction of four tests, each an "and" over a whole array. Its last two conjuncts compare
    every channel word of the frames, read signed, with 0 (at least) and with 256 (below); a signed word in that
    range is the same number read unsigned. -/
theorem range_of_pre {F : FTy → Type} [FloatOps F] (a0 : IVec Cert.Pre_finite_inputs.S4x1024x27x48x3 32)
    (a1 : FVec F Cert.Pre_finite_inputs.S101x128 .f32) (a2 : FVec F Cert.Pre_finite_inputs.S128 .f32)
    (h : Cert.Pre_finite_inputs.fn (F := F) a0 a1 a2 = fun _ => 1#1) : ∀ i, (a0 i).toNat < 256 := by
  intro i
  have h0 := congrFun h ix0
  dsimp only [Cert.Pre_finite_inputs.fn, Cert.Pre_finite_inputs.fn_part1, andi] at h0
  obtain ⟨h1, hlt⟩ := IntOp.andi_eq_one.1 h0
  obtain ⟨_, hge⟩ := IntOp.andi_eq_one.1 h1
  have e1 := Host.reduce_andi_all _ _ _ _ _ hge i
  have e2 := Host.reduce_andi_all _ _ _ _ _ hlt i
  dsimp only [cmpi] at e1 e2
  rw [IntOp.cmpi_sge] at e1
  rw [IntOp.cmpi_slt] at e2
  change (0#32 : BitVec 32).toInt ≤ (a0 i).toInt at e1
  change (a0 i).toInt < (256#32 : BitVec 32).toInt at e2
  rw [show (0#32 : BitVec 32).toInt = 0 from by decide] at e1
  rw [show (256#32 : BitVec 32).toInt = 256 from by decide] at e2
  have hn : (a0 i).toNat < 2 ^ 32 := (a0 i).isLt
  rw [BitVec.toInt_eq_toNat_cond] at e1 e2
  split_ifs at e1 e2 <;> omega

end Cert.PreRange

end
-- ==== Proof.Words.lean ====
import proofs.«409566_j37400575214078_3_alg».proof.Proof.Spec
import Idealize.ShloMosaic.Lib.StableHlo.Predicate

noncomputable section

open Idealize.ShloMosaic

namespace Cert.Words

/-- A channel word below 256 shifted down by five bits is the number of its top three bits. -/
theorem chan_toNat (a : BitVec 32) (ha : a.toNat < 256) : (Spec.chan a).toNat = a.toNat / 32 := by
  unfold Spec.chan IntOp.shrsi
  have h5 : (5#32).toNat < 32 := by decide
  rw [if_pos h5]
  have hmsb : a.msb = false := by
    rw [BitVec.msb_eq_false_iff_two_mul_lt]; omega
  rw [BitVec.sshiftRight_eq', BitVec.sshiftRight_eq_of_msb_false hmsb, BitVec.toNat_ushiftRight, Nat.shiftRight_eq_div_pow]
  rfl

/-- A left shift by a literal amount below the width multiplies by the power of two, modulo 2^32. -/
theorem shli_toNat (x : BitVec 32) (n : ℕ) (hn : n < 32) :
    (IntOp.shli .host x (BitVec.ofNat 32 n)).toNat = x.toNat * 2 ^ n % 2 ^ 32 := by
  unfold IntOp.shli
  have h : (BitVec.ofNat 32 n).toNat = n := by simp [BitVec.toNat_ofNat]; omega
  rw [if_pos (by omega), BitVec.shiftLeft_eq', h, BitVec.toNat_shiftLeft, Nat.shiftLeft_eq]

/-- The mask 7 is the identity on a word below 8. -/
theorem and7_toNat (x : BitVec 32) (hx : x.toNat < 8) : (IntOp.andi x 7#32).toNat = x.toNat := by
  unfold IntOp.andi
  rw [BitVec.toNat_and]
  have : (7#32).toNat = 2 ^ 3 - 1 := by decide
  rw [this, Nat.and_two_pow_sub_one_eq_mod]; omega

/-- With every channel below 256 the masked bin word is the 9-bit number of the channels' top three bits. -/
theorem kword_toNat (a b c : BitVec 32) (ha : a.toNat < 256) (hb : b.toNat < 256) (hc : c.toNat < 256) :
    (Spec.kword a b c).toNat = a.toNat / 32 * 64 + b.toNat / 32 * 8 + c.toNat / 32 := by
  have ea := chan_toNat a ha
  have eb := chan_toNat b hb
  have ec := chan_toNat c hc
  have ma := and7_toNat (Spec.chan a) (by omega)
  have mb := and7_toNat (Spec.chan b) (by omega)
  have mc := and7_toNat (Spec.chan c) (by omega)
  have sa := shli_toNat (IntOp.andi (Spec.chan a) 7#32) 6 (by omega)
  have sb := shli_toNat (IntOp.andi (Spec.chan b) 7#32) 3 (by omega)
  unfold Spec.kword
  simp only [IntOp.addi, BitVec.toNat_add]
  change (((IntOp.shli .host (IntOp.andi (Spec.chan a) 7#32) (BitVec.ofNat 32 6)).toNat + (IntOp.shli .host (IntOp.andi (Spec.chan b) 7#32) (BitVec.ofNat 32 3)).toNat) % 2 ^ 32 + (IntOp.andi (Spec.chan c) 7#32).toNat) % 2 ^ 32 = _
  rw [sa, sb, ma, mb, mc, ea, eb, ec]
  omega

/-- With every channel below 256 the unmasked word plus the frame offset is f * 512 + the same 9-bit number, read signed. -/
theorem rword_toInt (a b c : BitVec 32) (f : ℕ) (hf : f < 4096) (ha : a.toNat < 256) (hb : b.toNat < 256) (hc : c.toNat < 256) :
    (Spec.rword a b c (BitVec.ofNat 32 f)).toInt = ((f * 512 + (a.toNat / 32 * 64 + b.toNat / 32 * 8 + c.toNat / 32) : ℕ) : ℤ) := by
  have ea := chan_toNat a ha
  have eb := chan_toNat b hb
  have ec := chan_toNat c hc
  have sa := shli_toNat (Spec.chan a) 6 (by omega)
  have sb := shli_toNat (Spec.chan b) 3 (by omega)
  have sf := shli_toNat (BitVec.ofNat 32 f) 9 (by omega)
  have hfn : (BitVec.ofNat 32 f).toNat = f := by simp [BitVec.toNat_ofNat]; omega
  have key : (Spec.rword a b c (BitVec.ofNat 32 f)).toNat = f * 512 + (a.toNat / 32 * 64 + b.toNat / 32 * 8 + c.toNat / 32) := by
    unfold Spec.rword
    simp only [IntOp.addi, BitVec.toNat_add]
    change ((((IntOp.shli .host (Spec.chan a) (BitVec.ofNat 32 6)).toNat + (IntOp.shli .host (Spec.chan b) (BitVec.ofNat 32 3)).toNat) % 2 ^ 32 + (Spec.chan c).toNat) % 2 ^ 32 + (IntOp.shli .host (BitVec.ofNat 32 f) (BitVec.ofNat 32 9)).toNat) % 2 ^ 32 = _
    rw [sa, sb, sf, hfn, ea, eb, ec]
    omega
  rw [StableHlo.Predicate.toInt_eq_toNat_of_lt (by rw [key]; omega), key]

/-- The float of a widened compare bit is 1 for a true bit and 0 for a false one. -/
theorem oh_ofBool (b : Bool) : Spec.oh (BitVec.ofBool b) = if b then 1 else 0 := by
  unfold Spec.oh
  cases b
  · have : ((BitVec.ofBool false).setWidth 32).toInt = 0 := by decide
    rw [this]; simp
  · have : ((BitVec.ofBool true).setWidth 32).toInt = 1 := by decide
    rw [this]; simp

/-- The indicator of an equality compare. -/
theorem oh_cmpi_eq (x y : BitVec 32) : Spec.oh (IntOp.cmpi .eq x y) = if x = y then 1 else 0 := by
  unfold IntOp.cmpi
  rw [oh_ofBool]
  by_cases h : x = y
  · simp [h]
  · simp [h]

/-- For a word below 512 the product of the two one-hot indicators (top three bits equal k / 64, low six bits equal
    k % 64) is the indicator of the word being k. -/
theorem oh_split (w : BitVec 32) (hw : w.toNat < 512) (k : Fin 512) :
    Spec.oh (IntOp.cmpi .eq (IntOp.shrsi .vector w 6#32) (BitVec.ofNat 32 (k.val / 64)))
      * Spec.oh (IntOp.cmpi .eq (IntOp.andi w 63#32) (BitVec.ofNat 32 (k.val % 64)))
    = if w.toNat = k.val then 1 else 0 := by
  have hk := k.isLt
  have h1 : (IntOp.shrsi .vector w 6#32).toNat = w.toNat / 64 := by
    unfold IntOp.shrsi
    have h6 : (6#32).toNat < 32 := by decide
    rw [if_pos h6]
    have hmsb : w.msb = false := by
      rw [BitVec.msb_eq_false_iff_two_mul_lt]; omega
    rw [BitVec.sshiftRight_eq', BitVec.sshiftRight_eq_of_msb_false hmsb, BitVec.toNat_ushiftRight, Nat.shiftRight_eq_div_pow]
    rfl
  have h2 : (IntOp.andi w 63#32).toNat = w.toNat % 64 := by
    unfold IntOp.andi
    rw [BitVec.toNat_and]
    have : (63#32).toNat = 2 ^ 6 - 1 := by decide
    rw [this, Nat.and_two_pow_sub_one_eq_mod]
  have e1 : (IntOp.shrsi .vector w 6#32 = BitVec.ofNat 32 (k.val / 64)) ↔ w.toNat / 64 = k.val / 64 := by
    rw [← BitVec.toNat_inj, h1, BitVec.toNat_ofNat]
    have : k.val / 64 % 2 ^ 32 = k.val / 64 := by omega
    rw [this]
  have e2 : (IntOp.andi w 63#32 = BitVec.ofNat 32 (k.val % 64)) ↔ w.toNat % 64 = k.val % 64 := by
    rw [← BitVec.toNat_inj, h2, BitVec.toNat_ofNat]
    have : k.val % 64 % 2 ^ 32 = k.val % 64 := by omega
    rw [this]
  rw [oh_cmpi_eq, oh_cmpi_eq]
  by_cases hwk : w.toNat = k.val
  · have a1 : w.toNat / 64 = k.val / 64 := by omega
    have a2 : w.toNat % 64 = k.val % 64 := by omega
    rw [if_pos (e1.mpr a1), if_pos (e2.mpr a2), if_pos hwk, one_mul]
  · rw [if_neg hwk]
    by_cases a1 : w.toNat / 64 = k.val / 64
    · have a2 : ¬ w.toNat % 64 = k.val % 64 := by omega
      rw [if_neg (fun h => a2 (e2.mp h)), mul_zero]
    · rw [if_neg (fun h => a1 (e1.mp h)), zero_mul]

end Cert.Words

end
-- ==== Proof.KMath.lean ====
import proofs.«409566_j37400575214078_3_alg».proof.Proof.Spec
import proofs.«409566_j37400575214078_3_alg».proof.Proof.Words

noncomputable section

open Idealize.ShloMosaic Idealize.ShloMosaic.ValueIdx
open scoped BigOperators

namespace Cert.KMath

/-- The coercion from the reals to the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Each masked bin word is the bin number of its pixel. -/
private theorem kbins_toNat (frames : IVec Spec.ShFrames 32) (hr : ∀ i, (frames i).toNat < 256) (f : Fin 4096) (p : Fin 1296) :
    (Spec.kbins frames (ix2 f p)).toNat = Spec.binOf frames f p := by
  show (Spec.kword (Spec.pix frames f p 0) (Spec.pix frames f p 1) (Spec.pix frames f p 2)).toNat = _
  unfold Spec.binOf
  exact Words.kword_toNat _ _ _ (by unfold Spec.pix; exact hr _) (by unfold Spec.pix; exact hr _) (by unfold Spec.pix; exact hr _)

/-- A bin number is below 512: each channel contributes a digit below 8. -/
private theorem binOf_lt (frames : IVec Spec.ShFrames 32) (hr : ∀ i, (frames i).toNat < 256) (f : Fin 4096) (p : Fin 1296) :
    Spec.binOf frames f p < 512 := by
  unfold Spec.binOf
  have h0 : (Spec.pix frames f p 0).toNat < 256 := by unfold Spec.pix; exact hr _
  have h1 : (Spec.pix frames f p 1).toNat < 256 := by unfold Spec.pix; exact hr _
  have h2 : (Spec.pix frames f p 2).toNat < 256 := by unfold Spec.pix; exact hr _
  omega

/-- The one-hot sum over the masked bin words is the pixel count per bin. -/
theorem ohsum_kbins (frames : IVec Spec.ShFrames 32) (hr : ∀ i, (frames i).toNat < 256) (f : Fin 4096) (k : Fin 512) :
    Spec.ohsum (Spec.kbins frames) f k = Spec.hE (Spec.binOf frames) f k := by
  unfold Spec.ohsum Spec.hE Spec.cnt
  have h1 : ∀ p : Fin 1296,
      Spec.oh (IntOp.cmpi .eq (IntOp.shrsi .vector (Spec.kbins frames (ix2 f p)) 6#32) (BitVec.ofNat 32 (k.val / 64)))
        * Spec.oh (IntOp.cmpi .eq (IntOp.andi (Spec.kbins frames (ix2 f p)) 63#32) (BitVec.ofNat 32 (k.val % 64)))
      = (((if Spec.binOf frames f p = k.val then (1 : ℝ) else 0 : ℝ)) : EReal) := by
    intro p
    have hw : (Spec.kbins frames (ix2 f p)).toNat < 512 := by
      rw [kbins_toNat frames hr]; exact binOf_lt frames hr f p
    rw [Words.oh_split _ hw k, kbins_toNat frames hr]
    split <;> simp
  rw [Finset.sum_congr rfl (fun p _ => h1 p), ← coe_sum, Finset.sum_boole]

/-- The kernel's normalised histogram is the specification's. -/
theorem xk_kbins (frames : IVec Spec.ShFrames 32) (hr : ∀ i, (frames i).toNat < 256) (b : Fin 4) (t : Fin 1024) (k : Fin 512) :
    Spec.xk (Spec.kbins frames) (ix2 (Spec.fr b t) k) = Spec.xn (Spec.binOf frames) b t k := by
  show Spec.xrow (Spec.ohsum (Spec.kbins frames) (Spec.fr b t)) k = Spec.xrow (Spec.hE (Spec.binOf frames) (Spec.fr b t)) k
  congr 1
  funext j
  exact ohsum_kbins frames hr _ j

/-- One inner product against the zero-padded rows is the windowed inner product. -/
private theorem dotk_padx (x : Spec.ShX3.Idx → EReal) (b : Fin 4) (t : Fin 1024) (l : Fin 101) :
    Spec.dotk x (Spec.padx x) b t l = Spec.win (fun b t k => x (ix3 b t k)) b t l := by
  unfold Spec.dotk Spec.win
  by_cases h : 50 ≤ t.val + l.val ∧ t.val + l.val < 1074
  · rw [dif_pos h]
    refine Finset.sum_congr rfl (fun k _ => ?_)
    congr 1
    unfold Spec.padx
    exact dif_pos h
  · rw [dif_neg h]
    refine Finset.sum_eq_zero (fun k _ => ?_)
    have hz : Spec.padx x (ix3 b (⟨t.val + l.val, by have := t.isLt; have := l.isLt; omega⟩ : Fin 1128) k) = 0 := by
      unfold Spec.padx
      exact dif_neg h
    rw [hz, mul_zero]

/-- Inner products against the zero-padded rows are the windowed inner products. -/
theorem out1_padx (x : Spec.ShX3.Idx → EReal) (w : Spec.ShW.Idx → EReal) (bias : Spec.ShB.Idx → EReal) :
    Spec.out1 x (Spec.padx x) w bias = fun i => Spec.outv (fun b t k => x (ix3 b t k)) w bias (i 0) (i 1) (i 2) := by
  funext i
  unfold Spec.out1 Spec.outv
  congr 2
  refine Finset.sum_congr rfl (fun l _ => ?_)
  congr 1
  exact dotk_padx x (i 0) (i 1) l

end Cert.KMath

end
-- ==== Proof.KHost.lean ====
import proofs.«409566_j37400575214078_3_alg».proof.Proof.Gen.KernelIdeal.Frame
import proofs.«409566_j37400575214078_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.KernelVsHost

noncomputable section

open Idealize.ShloMosaic Idealize.ShloMosaic.TcCoe Idealize.SL.Sem Idealize.ShloMosaic.ValueIdx
open Cert.KernelIdeal Cert.KernelIdeal.Gen

namespace Cert.KernelIdeal.KHost

variable (m : (ℓ : Loc nD τ sig) → Buf (Elt Ideal) ℓ) (ρ : Dev nD → PrngReg)

/-- Channel o of pixel p of frame f, read through the regrouping of the picture axes, the unit slice on the channel axis
    and the removal of that unit axis. -/
theorem slice_read (x0 : IVec Spec.ShFrames 32) (o : Nat) (ho : o < 3) (h : S4096x1296x3.Slices ![0, 0, o] S4096x1296x1)
    (f : Fin 4096) (p : Fin 1296) :
    shapeCast S4096x1296
      (extractStridedSlice S4096x1296x1 ![0, 0, o]
        (fun i => shapeCast S4096x1296x3 x0 shapeCasts_S4x1024x27x48x3_S4096x1296x3 i) h)
      shapeCasts_S4096x1296x1_S4096x1296 (ix2 f p) = Spec.pix x0 f p ⟨o, ho⟩ := by
  have hf := f.isLt
  have hp := p.isLt
  refine (shapeCast_apply _ shapeCasts_S4096x1296x1_S4096x1296 (ix2 f p) (ix3 f p (0 : Fin 1)) ?_).trans ?_
  · rw [Shape.rowMajor_val_three, Shape.rowMajor_val_two]
    show (f.val * 1296 + p.val) * 1 + 0 = f.val * 1296 + p.val
    omega
  refine (extractStridedSlice_apply _ _ h (ix3 f p (0 : Fin 1)) (ix3 f p (⟨o, ho⟩ : Fin 3)) ?_).trans ?_
  · intro a
    match a with
    | ⟨0, _⟩ => show f.val = 0 + f.val; omega
    | ⟨1, _⟩ => show p.val = 0 + p.val; omega
    | ⟨2, _⟩ => show o = o + 0; omega
  unfold Spec.pix
  refine shapeCast_apply x0 shapeCasts_S4x1024x27x48x3_S4096x1296x3 (ix3 f p (⟨o, ho⟩ : Fin 3)) _ ?_
  rw [Shape.rowMajor_val_five, Shape.rowMajor_val_three]
  show (((f.val / 1024 * 1024 + f.val % 1024) * 27 + p.val / 48) * 48 + p.val % 48) * 3 + o = (f.val * 1296 + p.val) * 3 + o
  omega

/-- A rank-zero constant broadcast to every pixel reads as the constant. -/
theorem bcast_read (b : BitVec 32) (i : S4096x1296.Idx) :
    broadcastInDim S4096x1296 ![] bcast_S_S4096x1296 (constantI S_ 32 b) i = b :=
  broadcastInDim_apply _ bcast_S_S4096x1296 (constantI S_ 32 b) i ix0 (fun a => a.elim0)

/-- The host operations before the first region leave the masked bin words of all pixels. -/
theorem V1_v24 (c : Dev nD) :
    (V1 m ρ c main_v24 : Spec.ShBins.Idx → BitVec 32) = Spec.kbins (m ((c : Thread nD τ).loc main_arg0)) := by
  have e : (V1 m ρ c main_v24 : Spec.ShBins.Idx → BitVec 32) =
      addi
        (addi
          (Host.shli
            (andi
              (Host.shrsi
                (shapeCast S4096x1296
                  (extractStridedSlice S4096x1296x1 ![0, 0, 0]
                    (fun i => shapeCast S4096x1296x3 (m ((c : Thread nD τ).loc main_arg0)) shapeCasts_S4x1024x27x48x3_S4096x1296x3 i)
                    slices_S4096x1296x3_S4096x1296x1_0_0_0)
                  shapeCasts_S4096x1296x1_S4096x1296)
                (broadcastInDim S4096x1296 ![] bcast_S_S4096x1296 (constantI S_ 32 5#32)))
              (broadcastInDim S4096x1296 ![] bcast_S_S4096x1296 (constantI S_ 32 7#32)))
            (broadcastInDim S4096x1296 ![] bcast_S_S4096x1296 (constantI S_ 32 6#32)))
          (Host.shli
            (andi
              (Host.shrsi
                (shapeCast S4096x1296
                  (extractStridedSlice S4096x1296x1 ![0, 0, 1]
                    (fun i => shapeCast S4096x1296x3 (m ((c : Thread nD τ).loc main_arg0)) shapeCasts_S4x1024x27x48x3_S4096x1296x3 i)
                    slices_S4096x1296x3_S4096x1296x1_0_0_1)
                  shapeCasts_S4096x1296x1_S4096x1296)
                (broadcastInDim S4096x1296 ![] bcast_S_S4096x1296 (constantI S_ 32 5#32)))
              (broadcastInDim S4096x1296 ![] bcast_S_S4096x1296 (constantI S_ 32 7#32)))
            (broadcastInDim S4096x1296 ![] bcast_S_S4096x1296 (constantI S_ 32 3#32))))
        (andi
          (Host.shrsi
            (shapeCast S4096x1296
              (extractStridedSlice S4096x1296x1 ![0, 0, 2]
                (fun i => shapeCast S4096x1296x3 (m ((c : Thread nD τ).loc main_arg0)) shapeCasts_S4x1024x27x48x3_S4096x1296x3 i)
                slices_S4096x1296x3_S4096x1296x1_0_0_2)
              shapeCasts_S4096x1296x1_S4096x1296)
            (broadcastInDim S4096x1296 ![] bcast_S_S4096x1296 (constantI S_ 32 5#32)))
          (broadcastInDim S4096x1296 ![] bcast_S_S4096x1296 (constantI S_ 32 7#32))) := by
    dsimp only [V1, W1, hostOps0]
    after_results_simp
    rfl
  rw [e]
  funext i
  obtain ⟨f, p, rfl⟩ : ∃ (f : Fin 4096) (p : Fin 1296), i = ix2 f p := ⟨i 0, i 1, eq_ix2 i⟩
  have h0 := slice_read (m ((c : Thread nD τ).loc main_arg0)) 0 (by omega) slices_S4096x1296x3_S4096x1296x1_0_0_0 f p
  have h1 := slice_read (m ((c : Thread nD τ).loc main_arg0)) 1 (by omega) slices_S4096x1296x3_S4096x1296x1_0_0_1 f p
  have h2 := slice_read (m ((c : Thread nD τ).loc main_arg0)) 2 (by omega) slices_S4096x1296x3_S4096x1296x1_0_0_2 f p
  have b3 := bcast_read 3#32 (ix2 f p)
  have b5 := bcast_read 5#32 (ix2 f p)
  have b6 := bcast_read 6#32 (ix2 f p)
  have b7 := bcast_read 7#32 (ix2 f p)
  simp only [addi, andi, Host.shli, Host.shrsi]
  rw [h0, h1, h2, b3, b5, b6, b7]
  rfl

/-- What the second region's entry holds at the regrouped rows: the shape cast of the first region's result. -/
theorem V4_v26_cast (c : Dev nD) :
    (V4 m ρ c main_v26 : Spec.ShX3.Idx → EReal)
      = shapeCast S4x1024x512 (V2 m ρ c main_v25 : Spec.ShX2.Idx → EReal) shapeCasts_S4096x512_S4x1024x512 := by
  dsimp only [V4, W4, W3, V2, hostOps1_1, hostOps1]
  after_results
  rfl

/-- The reshape after the first region regroups the 4096 frames as 4 batches of 1024 times. -/
theorem V4_v26 (c : Dev nD) :
    (V4 m ρ c main_v26 : Spec.ShX3.Idx → EReal) = fun i => (V2 m ρ c main_v25 : Spec.ShX2.Idx → EReal) (ix2 (Spec.fr (i 0) (i 1)) (i 2)) := by
  rw [V4_v26_cast]
  funext i
  obtain ⟨b, t, k, rfl⟩ : ∃ (b : Fin 4) (t : Fin 1024) (k : Fin 512), i = ix3 b t k := ⟨i 0, i 1, i 2, eq_ix3 i⟩
  refine shapeCast_apply _ shapeCasts_S4096x512_S4x1024x512 (ix3 b t k) (ix2 (Spec.fr b t) k) ?_
  rw [Shape.rowMajor_val_two, Shape.rowMajor_val_three]
  show (b.val * 1024 + t.val) * 512 + k.val = (b.val * 1024 + t.val) * 512 + k.val
  rfl

/-- What the second region's entry holds at the padded rows: the pad of the regrouped rows by the converted word 0. -/
theorem V4_v27_pad (c : Dev nD) :
    (V4 m ρ c main_v27 : Spec.ShXp.Idx → EReal)
      = pad S4x1128x512 ![0, 50, 0] ![0, 54, 0] ![0, 0, 0]
          (shapeCast S4x1024x512 (V2 m ρ c main_v25 : Spec.ShX2.Idx → EReal) shapeCasts_S4096x512_S4x1024x512)
          (sitofp (F := Ideal) .f32 (constantI S_ 32 0#32))
          pads_S4x1024x512_S4x1128x512_000_50540_000 h_S_ := by
  dsimp only [V4, W4, W3, V2, hostOps1_1, hostOps1]
  after_results
  rfl

/-- The pad puts 50 zero rows before and 54 after along the time axis. -/
theorem V4_v27 (c : Dev nD) :
    (V4 m ρ c main_v27 : Spec.ShXp.Idx → EReal) = Spec.padx (V4 m ρ c main_v26) := by
  rw [V4_v27_pad, ← V4_v26_cast]
  generalize (V4 m ρ c main_v26 : Spec.ShX3.Idx → EReal) = x
  funext j
  obtain ⟨b, t, k, rfl⟩ : ∃ (b : Fin 4) (t : Fin 1128) (k : Fin 512), j = ix3 b t k := ⟨j 0, j 1, j 2, eq_ix3 j⟩
  unfold Spec.padx
  by_cases hc : 50 ≤ t.val ∧ t.val < 1074
  · rw [dif_pos hc]
    refine pad_apply_of_inside _ _ _ x _ pads_S4x1024x512_S4x1128x512_000_50540_000 h_S_ (ix3 b t k)
      (ix3 b (⟨t.val - 50, by omega⟩ : Fin 1024) k) ?_
    intro a
    match a with
    | ⟨0, _⟩ => show b.val = 0 + b.val * (0 + 1); omega
    | ⟨1, _⟩ => show t.val = 50 + (t.val - 50) * (0 + 1); omega
    | ⟨2, _⟩ => show k.val = 0 + k.val * (0 + 1); omega
  · rw [dif_neg hc]
    refine (pad_apply_of_not_inside _ _ _ x _ pads_S4x1024x512_S4x1128x512_000_50540_000 h_S_ (ix3 b t k) (1 : Fin 3) ?_).trans ?_
    · show ¬(50 ≤ t.val ∧ (t.val - 50) % (0 + 1) = 0 ∧ (t.val - 50) / (0 + 1) < 1024)
      omega
    · exact sitofp_zero (φ := .f32)

/-- The weights and the bias reach the second region as launched: no host operation and neither region writes them. -/
theorem V4_arg1 (c : Dev nD) : V4 m ρ c main_arg1 = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem V4_arg2 (c : Dev nD) : V4 m ρ c main_arg2 = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.KHost

end
-- ==== Proof.KReg0.lean ====
/-
  The first region: the histogram kernel. Each of its 128 grid points takes 32 frames' bin words (a [32,1296] block),
  forms for every frame the two one-hot indicator arrays (top three bits of the nine-bit bin against 0..7, low six bits
  against 0..63), multiplies them pixel-wise and sums over the 1296 pixels (a batched product over the frames), reads the
  [32,8,64] result as [32,512], and divides each row by the larger of its Euclidean norm and a small constant.
  Here: that block at an index, the blocks of all points laid side by side, and so the whole output array.
-/
import proofs.«409566_j37400575214078_3_alg».proof.Proof.Gen.KernelIdeal.Frame
import proofs.«409566_j37400575214078_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen
open scoped BigOperators

namespace Cert.KernelIdeal.KReg0

variable (V : (c : Dev nD) → (b : Ref sig .tc) → Buf (Elt Ideal) ((c : Thread nD τ).loc b))

/-! ## The block's arithmetic, named piece by piece -/

/-- The indicator of the top three bits: at (r, a, p), whether pixel p of row r has its bin word shifted down by six equal to a. -/
def hiOH (x0 : Vec Ideal S32x1296 .i32) : FVec Ideal S32x8x1296 .bf16 :=
  truncf .bf16 (sitofp .f32 (extui 32 (cmpi .eq (broadcastTo S32x8x1296 (shapeCast S32x1x1296 (shrsi (shapeCast S32x1296 x0 shapeCasts_S32x1296_S32x1296) (broadcast S32x1296 6#32)) shapeCasts_S32x1296_S32x1x1296) broadcasts_S32x1x1296_S32x8x1296) (iota .tc S32x8x1296 32 [1] iota_S32x8x1296_d1_w32)) natLt_1_32)) bitsLt_bf16_f32

/-- The indicator of the low six bits: at (r, b, p), whether pixel p of row r has its bin word masked to six bits equal to b. -/
def loOH (x0 : Vec Ideal S32x1296 .i32) : FVec Ideal S32x64x1296 .bf16 :=
  truncf .bf16 (sitofp .f32 (extui 32 (cmpi .eq (broadcastTo S32x64x1296 (shapeCast S32x1x1296 (andi (shapeCast S32x1296 x0 shapeCasts_S32x1296_S32x1296) (broadcast S32x1296 63#32)) shapeCasts_S32x1296_S32x1x1296) broadcasts_S32x1x1296_S32x64x1296) (iota .tc S32x64x1296 32 [1] iota_S32x64x1296_d1_w32)) natLt_1_32)) bitsLt_bf16_f32

/-- The histogram block: the product of the two indicators summed over the pixels, frame by frame, read as [32,512]. -/
def hist (x0 : Vec Ideal S32x1296 .i32) : FVec Ideal S32x512 .f32 :=
  shapeCast S32x512 (matmul dot_S32x8x1296_S32x64x1296_S32x8x64_2_2_1_1_0_0 none (hiOH x0) (loOH x0) (constant (F := Ideal) S32x8x64 .f32 0x00000000#32)) shapeCasts_S32x8x64_S32x512

/-- The divisor column: per row the larger of the square root of the sum of squares and the small constant. -/
def nrm (h : FVec Ideal S32x512 .f32) : FVec Ideal S32x1 .f32 :=
  maximumf (sqrt (shapeCast S32x1 (multiReduction (F := Ideal) .add [1] S32 (mulf h h) 0x00000000#32 reduces_S32x512_S32 (.inl rfl) rfl) shapeCasts_S32_S32x1)) (broadcast S32x1 (Scalar.ofBits .f32 0x2B8CBCCC#32))

/-- The block the body stores is the histogram block divided by its divisor column spread along the rows. -/
theorem pay_eq (x0 : Vec Ideal S32x1296 .i32) :
    k0_pay1 (F := Ideal) x0 = divf (hist x0) (broadcastTo S32x512 (nrm (hist x0)) broadcasts_S32x1_S32x512) := rfl

/-! ## Each piece at an index -/

/-- A [32,1296] array given a unit middle axis and spread along it reads, at (r, a, p), the array at (r, p). -/
theorem bcast_row {α : Type} {n : Nat} (v : S32x1296.Idx → α) (h1 : S32x1296.ShapeCasts S32x1x1296)
    (h2 : S32x1x1296.Broadcasts ⟨3, ![32, n, 1296]⟩) (r : Fin 32) (a : Fin n) (p : Fin 1296) :
    broadcastTo ⟨3, ![32, n, 1296]⟩ (shapeCast S32x1x1296 v h1) h2 (ix3 r a p) = v (ix2 r p) := by
  rw [broadcastTo_apply _ h2 (ix3 r a p) (ix3 r (0 : Fin 1) p) (fun c => by fin_cases c <;> rfl)]
  refine shapeCast_apply v h1 _ _ ?_
  rw [Shape.rowMajor_val_two, Shape.rowMajor_val_three]
  show r.val * 1296 + p.val = (r.val * 1 + 0) * 1296 + p.val
  omega

/-- The first indicator at (r, a, p). -/
theorem hiOH_apply (x0 : Vec Ideal S32x1296 .i32) (r : Fin 32) (a : Fin 8) (p : Fin 1296) :
    hiOH x0 (ix3 r a p) = Spec.oh (IntOp.cmpi .eq (IntOp.shrsi .vector (x0 (ix2 r p)) 6#32) (BitVec.ofNat 32 a.val)) := by
  have e1 := bcast_row (n := 8) (shrsi (shapeCast S32x1296 x0 shapeCasts_S32x1296_S32x1296) (broadcast S32x1296 6#32)) shapeCasts_S32x1296_S32x1x1296 broadcasts_S32x1x1296_S32x8x1296 r a p
  have e2 : iota .tc S32x8x1296 32 [1] iota_S32x8x1296_d1_w32 (ix3 r a p) = BitVec.ofNat 32 a.val := by
    show BitVec.ofNat 32 (0 * 8 + a.val) = _
    rw [Nat.zero_mul, Nat.zero_add]
  show ((((IntOp.cmpi .eq (broadcastTo S32x8x1296 _ broadcasts_S32x1x1296_S32x8x1296 (ix3 r a p)) (iota .tc S32x8x1296 32 [1] iota_S32x8x1296_d1_w32 (ix3 r a p))).setWidth 32).toInt : ℝ) : EReal) = _
  rw [e1, e2, shapeCast_self]
  rfl

/-- The second indicator at (r, b, p). -/
theorem loOH_apply (x0 : Vec Ideal S32x1296 .i32) (r : Fin 32) (b : Fin 64) (p : Fin 1296) :
    loOH x0 (ix3 r b p) = Spec.oh (IntOp.cmpi .eq (IntOp.andi (x0 (ix2 r p)) 63#32) (BitVec.ofNat 32 b.val)) := by
  have e1 := bcast_row (n := 64) (andi (shapeCast S32x1296 x0 shapeCasts_S32x1296_S32x1296) (broadcast S32x1296 63#32)) shapeCasts_S32x1296_S32x1x1296 broadcasts_S32x1x1296_S32x64x1296 r b p
  have e2 : iota .tc S32x64x1296 32 [1] iota_S32x64x1296_d1_w32 (ix3 r b p) = BitVec.ofNat 32 b.val := by
    show BitVec.ofNat 32 (0 * 64 + b.val) = _
    rw [Nat.zero_mul, Nat.zero_add]
  show ((((IntOp.cmpi .eq (broadcastTo S32x64x1296 _ broadcasts_S32x1x1296_S32x64x1296 (ix3 r b p)) (iota .tc S32x64x1296 32 [1] iota_S32x64x1296_d1_w32 (ix3 r b p))).setWidth 32).toInt : ℝ) : EReal) = _
  rw [e1, e2, shapeCast_self]
  rfl

/-- The batched product's operand indices, axis by axis: the batch axis and the kept axis follow the result index, the
    contracted axis the summation index. -/
theorem lhs_dot_0 (i : S32x8x64.Idx) (q : dot_S32x8x1296_S32x64x1296_S32x8x64_2_2_1_1_0_0.contr.Idx) :
    (dot_S32x8x1296_S32x64x1296_S32x8x64_2_2_1_1_0_0.lhsIdx i q 0).val = (i 0).val := by
  unfold DotDims.lhsIdx
  rw [dif_pos (show (0 : Fin S32x8x1296.rank) ∈ dot_S32x8x1296_S32x64x1296_S32x8x64_2_2_1_1_0_0.lhsBatch by decide)]
  rfl
theorem lhs_dot_1 (i : S32x8x64.Idx) (q : dot_S32x8x1296_S32x64x1296_S32x8x64_2_2_1_1_0_0.contr.Idx) :
    (dot_S32x8x1296_S32x64x1296_S32x8x64_2_2_1_1_0_0.lhsIdx i q 1).val = (i 1).val := by
  unfold DotDims.lhsIdx
  rw [dif_neg (show ¬(1 : Fin S32x8x1296.rank) ∈ dot_S32x8x1296_S32x64x1296_S32x8x64_2_2_1_1_0_0.lhsBatch by decide), dif_pos (show (1 : Fin S32x8x1296.rank) ∈ dot_S32x8x1296_S32x64x1296_S32x8x64_2_2_1_1_0_0.lhsNonContracting by decide)]
  rfl
theorem lhs_dot_2 (i : S32x8x64.Idx) (q : dot_S32x8x1296_S32x64x1296_S32x8x64_2_2_1_1_0_0.contr.Idx) :
    (dot_S32x8x1296_S32x64x1296_S32x8x64_2_2_1_1_0_0.lhsIdx i q 2).val = (q ⟨0, by decide⟩).val :=
  dot_S32x8x1296_S32x64x1296_S32x8x64_2_2_1_1_0_0.lhsIdx_val_of_single rfl i q
theorem rhs_dot_0 (i : S32x8x64.Idx) (q : dot_S32x8x1296_S32x64x1296_S32x8x64_2_2_1_1_0_0.contr.Idx) :
    (dot_S32x8x1296_S32x64x1296_S32x8x64_2_2_1_1_0_0.rhsIdx i q 0).val = (i 0).val := by
  unfold DotDims.rhsIdx
  rw [dif_pos (show (0 : Fin S32x64x1296.rank) ∈ dot_S32x8x1296_S32x64x1296_S32x8x64_2_2_1_1_0_0.rhsBatch by decide)]
  rfl
theorem rhs_dot_1 (i : S32x8x64.Idx) (q : dot_S32x8x1296_S32x64x1296_S32x8x64_2_2_1_1_0_0.contr.Idx) :
    (dot_S32x8x1296_S32x64x1296_S32x8x64_2_2_1_1_0_0.rhsIdx i q 1).val = (i 2).val := by
  unfold DotDims.rhsIdx
  rw [dif_neg (show ¬(1 : Fin S32x64x1296.rank) ∈ dot_S32x8x1296_S32x64x1296_S32x8x64_2_2_1_1_0_0.rhsBatch by decide), dif_pos (show (1 : Fin S32x64x1296.rank) ∈ dot_S32x8x1296_S32x64x1296_S32x8x64_2_2_1_1_0_0.rhsNonContracting by decide)]
  rfl
theorem rhs_dot_2 (i : S32x8x64.Idx) (q : dot_S32x8x1296_S32x64x1296_S32x8x64_2_2_1_1_0_0.contr.Idx) :
    (dot_S32x8x1296_S32x64x1296_S32x8x64_2_2_1_1_0_0.rhsIdx i q 2).val = (q ⟨0, by decide⟩).val :=
  dot_S32x8x1296_S32x64x1296_S32x8x64_2_2_1_1_0_0.rhsIdx_val_of_single rfl i q

/-- The batched product into the zero accumulator at (r, a, b): the sum over the pixels of the two factors. -/
theorem mm_apply (L : FVec Ideal S32x8x1296 .bf16) (R : FVec Ideal S32x64x1296 .bf16) (r : Fin 32) (a : Fin 8) (b : Fin 64) :
    matmul dot_S32x8x1296_S32x64x1296_S32x8x64_2_2_1_1_0_0 none L R (constant (F := Ideal) S32x8x64 .f32 0x00000000#32) (ix3 r a b)
      = ∑ p : Fin 1296, L (ix3 r a p) * R (ix3 r b p) := by
  show FloatOps.matmul dot_S32x8x1296_S32x64x1296_S32x8x64_2_2_1_1_0_0 none L R (constant (F := Ideal) S32x8x64 .f32 0x00000000#32) (ix3 r a b) = _
  rw [Ideal.matmul_constant_zero_apply, ← Equiv.sum_comp (ValueIdx.contrEquiv1 dot_S32x8x1296_S32x64x1296_S32x8x64_2_2_1_1_0_0 1296 rfl rfl).symm]
  refine Finset.sum_congr rfl fun k _ => ?_
  have hk := ValueIdx.contrEquiv1_symm_val dot_S32x8x1296_S32x64x1296_S32x8x64_2_2_1_1_0_0 1296 rfl rfl k
  have el : dot_S32x8x1296_S32x64x1296_S32x8x64_2_2_1_1_0_0.lhsIdx (ix3 r a b) ((ValueIdx.contrEquiv1 dot_S32x8x1296_S32x64x1296_S32x8x64_2_2_1_1_0_0 1296 rfl rfl).symm k) = ix3 r a k := funext fun c => Fin.ext (by
    match c with
    | ⟨0, _⟩ => exact lhs_dot_0 _ _
    | ⟨1, _⟩ => exact lhs_dot_1 _ _
    | ⟨2, _⟩ => exact (lhs_dot_2 _ _).trans hk)
  have er : dot_S32x8x1296_S32x64x1296_S32x8x64_2_2_1_1_0_0.rhsIdx (ix3 r a b) ((ValueIdx.contrEquiv1 dot_S32x8x1296_S32x64x1296_S32x8x64_2_2_1_1_0_0 1296 rfl rfl).symm k) = ix3 r b k := funext fun c => Fin.ext (by
    match c with
    | ⟨0, _⟩ => exact rhs_dot_0 _ _
    | ⟨1, _⟩ => exact rhs_dot_1 _ _
    | ⟨2, _⟩ => exact (rhs_dot_2 _ _).trans hk)
  rw [el, er]

/-- The histogram of row r at bin k: the sum over the pixels of the two indicators' product. -/
theorem hist_apply (x0 : Vec Ideal S32x1296 .i32) (r : Fin 32) (k : Fin 512) :
    hist x0 (ix2 r k) = ∑ p : Fin 1296, Spec.oh (IntOp.cmpi .eq (IntOp.shrsi .vector (x0 (ix2 r p)) 6#32) (BitVec.ofNat 32 (k.val / 64)))
      * Spec.oh (IntOp.cmpi .eq (IntOp.andi (x0 (ix2 r p)) 63#32) (BitVec.ofNat 32 (k.val % 64))) := by
  unfold hist
  have hk : (S32x8x64.rowMajor (ix3 r (⟨k.val / 64, by have := k.isLt; omega⟩ : Fin 8) (⟨k.val % 64, by omega⟩ : Fin 64))).val = (S32x512.rowMajor (ix2 r k)).val := by
    rw [Shape.rowMajor_val_two, Shape.rowMajor_val_three]
    show (r.val * 8 + k.val / 64) * 64 + k.val % 64 = r.val * 512 + k.val
    omega
  rw [shapeCast_apply _ shapeCasts_S32x8x64_S32x512 (ix2 r k) _ hk, mm_apply]
  refine Finset.sum_congr rfl fun p _ => ?_
  rw [hiOH_apply, loOH_apply]

/-- Row r's index with column j put back is (r, j). -/
theorem lift_row (h : S32x512.Reduces [1] S32) (r : Fin 32) (j : Fin (S32x512.size 1)) :
    h.lift (ix1 r) j = ix2 r (⟨j.val, j.isLt⟩ : Fin 512) := by
  funext c; apply Fin.ext
  fin_cases c <;> rfl

/-- A sum along a row of a [32,512] vector, at row r. -/
theorem rowsum_apply (v : FVec Ideal S32x512 .f32) (hφ : FKind.Formats .f32) (hacc : (0x00000000#32 : BitVec 32) = 0x00000000#32) (r : Fin 32) :
    multiReduction (F := Ideal) .add [1] S32 v 0x00000000#32 reduces_S32x512_S32 hφ hacc (ix1 r) = ∑ j : Fin 512, v (ix2 r j) := by
  refine (Ideal.multiReduction_add_single v 0x00000000#32 reduces_S32x512_S32 hφ hacc (ix1 r)).trans ?_
  show ∑ j : Fin 512, _ = _
  refine Finset.sum_congr rfl fun j _ => ?_
  exact congrArg v (lift_row reduces_S32x512_S32 r j)

/-- The divisor of row r: the larger of the row's Euclidean norm and the small constant. -/
theorem nrm_apply (h : FVec Ideal S32x512 .f32) (r : Fin 32) (k : Fin 512) :
    broadcastTo S32x512 (nrm h) broadcasts_S32x1_S32x512 (ix2 r k)
      = max (Ideal.sqrt (∑ j : Fin 512, h (ix2 r j) * h (ix2 r j))) (Ideal.ofBits .f32 0x2B8CBCCC#32) := by
  rw [broadcastTo_apply _ broadcasts_S32x1_S32x512 (ix2 r k) (ix2 r (0 : Fin 1)) (fun c => by fin_cases c <;> rfl)]
  unfold nrm
  show max (Ideal.sqrt (shapeCast S32x1 _ shapeCasts_S32_S32x1 (ix2 r (0 : Fin 1)))) (Ideal.ofBits .f32 0x2B8CBCCC#32) = _
  have hk : (S32.rowMajor (ix1 r)).val = (S32x1.rowMajor (ix2 r (0 : Fin 1))).val := by
    rw [Shape.rowMajor_val_one, Shape.rowMajor_val_two]
    show r.val = r.val * 1 + 0
    omega
  rw [shapeCast_apply _ shapeCasts_S32_S32x1 (ix2 r (0 : Fin 1)) (ix1 r) hk]
  congr 2
  exact rowsum_apply (mulf h h) _ _ r

/-- The payload at (r, k): the histogram row divided by its divisor. -/
theorem pay_apply (x0 : Vec Ideal S32x1296 .i32) (r : Fin 32) (k : Fin 512) :
    k0_pay1 (F := Ideal) x0 (ix2 r k) = Spec.xrow (fun j => ∑ p : Fin 1296, Spec.oh (IntOp.cmpi .eq (IntOp.shrsi .vector (x0 (ix2 r p)) 6#32) (BitVec.ofNat 32 (j.val / 64)))
      * Spec.oh (IntOp.cmpi .eq (IntOp.andi (x0 (ix2 r p)) 63#32) (BitVec.ofNat 32 (j.val % 64)))) k := by
  rw [pay_eq]
  show Ideal.div (hist x0 (ix2 r k)) (broadcastTo S32x512 (nrm (hist x0)) broadcasts_S32x1_S32x512 (ix2 r k)) = _
  rw [nrm_apply]
  unfold Spec.xrow
  simp only [hist_apply]

/-! ## From the blocks to the array -/

/-- The zero offsets, however spelt. -/
theorem hz : (![0, 0] : Fin 2 → Nat) = fun _ => 0 := funext fun a => by fin_cases a <;> rfl

/-- Both windows' block index at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block of point t at (r, p) is the bin word of frame 32 t + r at pixel p. -/
theorem iblk_apply (c : Dev nD) (t : Fin cfg0.N) (r : Fin 32) (p : Fin 1296) (f : Fin 4096) (hf : f.val = 32 * t.val + r.val) :
    (iblk0 V c 0 t : Vec Ideal S32x1296 .i32) (ix2 r p) = (V c main_v24 : Spec.ShBins.Idx → BitVec 32) (ix2 f p) := by
  obtain ⟨e0, e1, -, -⟩ := idx_facts t
  unfold iblk0
  rw [View.read_apply]
  show V c main_v24 _ = V c main_v24 _
  congr 1
  funext a
  apply Fin.ext
  match a with
  | ⟨0, _⟩ => show win0_0.index t (0 : Fin 2) * 32 + 1 * r.val = f.val; rw [e0, hf]; omega
  | ⟨1, _⟩ => show win0_0.index t (1 : Fin 2) * 1296 + 1 * p.val = p.val; rw [e1]; omega

/-- The output block of point t at (r, k) is the array at row 32 t + r, column k. -/
theorem oblk_read (G : S4096x512.Idx → EReal) (t : Fin cfg0.N) (r : Fin 32) (k : Fin 512) (f : Fin 4096) (hf : f.val = 32 * t.val + r.val) :
    (((cfg0.win 1).blk t).view.read (Elt Ideal) G : S32x512.Idx → EReal) (ix2 r k) = G (ix2 f k) := by
  obtain ⟨-, -, e2, e3⟩ := idx_facts t
  rw [View.read_apply]
  show G _ = G _
  congr 1
  funext a
  apply Fin.ext
  match a with
  | ⟨0, _⟩ => show win0_1.index t (0 : Fin 2) * 32 + 1 * r.val = f.val; rw [e2, hf]; omega
  | ⟨1, _⟩ => show win0_1.index t (1 : Fin 2) * 512 + 1 * k.val = k.val; rw [e3]; omega

/-- A row of a block whose bin words are those of frame f gives frame f's row of the normalised histogram. -/
theorem xrow_block (X : Vec Ideal S32x1296 .i32) (bins : IVec Spec.ShBins 32) (r : Fin 32) (f : Fin 4096) (k : Fin 512)
    (h : ∀ p : Fin 1296, X (ix2 r p) = bins (ix2 f p)) :
    Spec.xrow (fun j => ∑ p : Fin 1296, Spec.oh (IntOp.cmpi .eq (IntOp.shrsi .vector (X (ix2 r p)) 6#32) (BitVec.ofNat 32 (j.val / 64)))
      * Spec.oh (IntOp.cmpi .eq (IntOp.andi (X (ix2 r p)) 63#32) (BitVec.ofNat 32 (j.val % 64)))) k = Spec.xk bins (ix2 f k) := by
  show _ = Spec.xrow (Spec.ohsum bins f) k
  refine congrArg (fun g => Spec.xrow g k) ?_
  funext j
  unfold Spec.ohsum
  refine Finset.sum_congr rfl fun p _ => ?_
  rw [h p]

/-- What point t writes back is block t of the normalised one-hot histogram of the bin words. -/
theorem flushed_eq (c : Dev nD) (t : Fin cfg0.N) :
    (dat0 V c).flushed 1 t = ((cfg0.win 1).blk t).view.read (Elt Ideal) (Spec.xk (V c main_v24)) := by
  show (cfg0.win 1).cut (grid0.coords t) ((dat0 V c).after 1 t) = _
  rw [after0_1]
  unfold out0_1
  rw [View.canon_unit_zero hz]
  simp only [View.ld_unit_zero (S := S32x1296) hz]
  refine funext fun (j : S32x512.Idx) => ?_
  obtain ⟨r, k, rfl⟩ : ∃ (r : Fin 32) (k : Fin 512), j = ix2 r k := ⟨j 0, j 1, eq_ix2 j⟩
  have hx : (cfg0.win 1).xinj (grid0.coords t) (ix2 r k) = (ix2 r k : S32x512.Idx) :=
    funext fun a => Fin.ext (by match a with | ⟨0, _⟩ => rfl | ⟨1, _⟩ => rfl)
  show k0_pay1 (F := Ideal) (iblk0 V c 0 t) ((cfg0.win 1).xinj (grid0.coords t) (ix2 r k)) = _
  rw [hx]
  refine (pay_apply (iblk0 V c 0 t) r k).trans ?_
  have ht : t.val < 128 := t.isLt
  refine Eq.trans ?_ (oblk_read (Spec.xk (V c main_v24)) t r k (⟨32 * t.val + r.val, by omega⟩ : Fin 4096) rfl).symm
  exact xrow_block (iblk0 V c 0 t) (V c main_v24) r (⟨32 * t.val + r.val, by omega⟩ : Fin 4096) k
    (fun p => iblk_apply V c t r p (⟨32 * t.val + r.val, by omega⟩ : Fin 4096) rfl)

/-- An index of the array is in point t's block iff each coordinate is in the block's range on its axis. -/
theorem mem_blk (t : Fin cfg0.N) (i : S4096x512.Idx) :
    i ∈ ((cfg0.win 1).blk t).view.set ↔ ∀ a : Fin 2, win0_1.index t a * S32x512.size a ≤ (i a).val ∧ (i a).val < win0_1.index t a * S32x512.size a + S32x512.size a := by
  show i ∈ ((View.whole main_v25).slice (win0_1.rect t)).set ↔ _
  rw [View.set_slice_whole, Rect.mem_set_unit]
  exact Iff.rfl

/-- Row i of the array is in the block of point i / 32. -/
theorem cover (i : S4096x512.Idx) : ∃ t : Fin cfg0.N, (cfg0.win 1).flush t = true ∧ i ∈ ((cfg0.win 1).blk t).view.set := by
  have hi0 : (i 0).val < 4096 := (i 0).isLt
  have hi1 : (i 1).val < 512 := (i 1).isLt
  have hlt : (i 0).val / 32 < 128 := by omega
  obtain ⟨-, -, e2, e3⟩ := idx_facts (⟨(i 0).val / 32, hlt⟩ : Fin cfg0.N)
  have e2' : win0_1.index (⟨(i 0).val / 32, hlt⟩ : Fin cfg0.N) (0 : Fin 2) = (i 0).val / 32 := e2
  refine ⟨(⟨(i 0).val / 32, hlt⟩ : Fin cfg0.N), flush0_1 _, ?_⟩
  rw [mem_blk]
  intro a
  match a with
  | ⟨0, _⟩ =>
    show win0_1.index (⟨(i 0).val / 32, hlt⟩ : Fin cfg0.N) (0 : Fin 2) * 32 ≤ (i 0).val ∧ (i 0).val < win0_1.index (⟨(i 0).val / 32, hlt⟩ : Fin cfg0.N) (0 : Fin 2) * 32 + 32
    rw [e2']; omega
  | ⟨1, _⟩ =>
    show win0_1.index (⟨(i 0).val / 32, hlt⟩ : Fin cfg0.N) (1 : Fin 2) * 512 ≤ (i 1).val ∧ (i 1).val < win0_1.index (⟨(i 0).val / 32, hlt⟩ : Fin cfg0.N) (1 : Fin 2) * 512 + 512
    rw [e3]; omega

/-- After the first region its output array holds the normalised one-hot histogram of the bin words it was entered with. -/
theorem arr0 (c : Dev nD) :
    ((dat0 V c).arrAt 1 cfg0.N : Spec.ShX2.Idx → EReal) = Spec.xk (V c main_v24) :=
  (dat0 V c).arrAt_eq_of_cover 1 (Spec.xk (V c main_v24)) (fun t _ => flushed_eq V c t) cover

end Cert.KernelIdeal.KReg0

end
-- ==== Proof.KReg1Body.lean ====
import proofs.«409566_j37400575214078_3_alg».proof.Proof.Gen.KernelIdeal.Frame
import proofs.«409566_j37400575214078_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StableHlo.Predicate

noncomputable section

open Idealize.ShloMosaic Idealize.ShloMosaic.TcCoe Idealize.SL.Sem Idealize.ShloMosaic.ValueIdx
open Cert.KernelIdeal Cert.KernelIdeal.Gen

namespace Cert.KernelIdeal.KReg1Body

open scoped BigOperators

/-- The identity mask at (p, j): one on the diagonal, zero off it. -/
theorem idm_apply (p j : Fin 128) : k1_pay3 (F := Ideal) (ix2 p j) = if p = j then (1 : EReal) else 0 := by
  unfold k1_pay3
  show ((((IntOp.cmpi .eq (iota .tc S128x128 32 [0] _ (ix2 p j)) (iota .tc S128x128 32 [1] _ (ix2 p j))).setWidth 32).toInt : ℝ) : EReal) = _
  rw [iota_single_apply, iota_single_apply]
  show ((((IntOp.cmpi .eq (BitVec.ofNat 32 p.val) (BitVec.ofNat 32 j.val)).setWidth 32).toInt : ℝ) : EReal) = _
  by_cases h : p = j
  · subst h
    rw [if_pos rfl, StableHlo.Predicate.cmpi_eq_iff.mpr rfl]
    norm_num
  · rw [if_neg h]
    have hne : ¬ IntOp.cmpi .eq (BitVec.ofNat 32 p.val) (BitVec.ofNat 32 j.val) = 1#1 := by
      rw [StableHlo.Predicate.cmpi_eq_iff]
      intro e
      apply h
      have := congrArg BitVec.toNat e
      simp only [BitVec.toNat_ofNat] at this
      have hp := p.isLt; have hj := j.isLt
      apply Fin.ext; omega
    rw [eq_zero_of_ne_one hne]
    norm_num

/-- The diagonal of S shifted by l, at row p (zero where the column does not exist). -/
def Dg (S : FVec Ideal S128x232 .f32) (p : Fin 128) (l : ℕ) : EReal :=
  if h : l + p.val < 232 then S (ix2 p ⟨l + p.val, h⟩) else 0

/-- Row l of the weights at column q (zero where the row does not exist). -/
def Wg (w : Vec Ideal S101x128 .f32) (q : Fin 128) (l : ℕ) : EReal :=
  if h : l < 101 then w (ix2 ⟨l, h⟩ q) else 0

/-- The row sum of (the column slice of S at l) times the identity mask is the shifted diagonal. -/
theorem diag_apply (S : FVec Ideal S128x232 .f32) (l : ℕ) (hs : S128x232.Slices ![0, l] S128x128)
    (hr : S128x128.Reduces [1] S128) (p : Fin 128) :
    multiReduction (F := Ideal) .add [1] S128 (mulf (extractStridedSlice S128x128 ![0, l] S hs) (k1_pay3 (F := Ideal)))
        0x00000000#32 hr (.inl rfl) rfl (ix1 p) = Dg S p l := by
  have hl : l + 128 ≤ 232 := hs.2 1
  refine (Ideal.multiReduction_add_single _ _ hr _ _ (ix1 p)).trans ?_
  have hlift : ∀ k : Fin 128, hr.lift (ix1 p) k = ix2 p k := fun k => funext fun a => by
    match a with
    | ⟨0, _⟩ => exact Fin.ext rfl
    | ⟨1, _⟩ => exact Fin.ext rfl
  show ∑ k : Fin 128, mulf (extractStridedSlice S128x128 ![0, l] S hs) (k1_pay3 (F := Ideal)) (hr.lift (ix1 p) k) = _
  rw [Finset.sum_eq_single p]
  · rw [hlift, mulf_apply, idm_apply, if_pos rfl, mul_one, slice2_axis1_eq]
    unfold Dg
    rw [dif_pos (by have := p.isLt; omega)]
  · intro k _ hk
    rw [hlift, mulf_apply, idm_apply, if_neg (fun e => hk e.symm), mul_zero]
  · intro h; exact absurd (Finset.mem_univ p) h

/-- A column vector broadcast along the rows, at (p, q). -/
theorem bcol_apply (d : FVec Ideal S128x1 .f32) (hb : S128x1.Broadcasts S128x128) (p q : Fin 128) :
    broadcastTo S128x128 d hb (ix2 p q) = d (ix2 p (0 : Fin 1)) :=
  broadcastTo_apply d hb (ix2 p q) (ix2 p (0 : Fin 1)) (fun a => by
    match a with
    | ⟨0, _⟩ => rfl
    | ⟨1, _⟩ => rfl)

/-- A vector seen as a column, at (p, 0). -/
theorem col_apply (v : FVec Ideal S128 .f32) (hc : S128.ShapeCasts S128x1) (p : Fin 128) :
    shapeCast S128x1 v hc (ix2 p (0 : Fin 1)) = v (ix1 p) :=
  shapeCast_apply v hc (ix2 p (0 : Fin 1)) (ix1 p) (by
    rw [Shape.rowMajor_val_one, Shape.rowMajor_val_two]; simp)

/-- A row vector broadcast along the columns, at (p, q). -/
theorem brow_apply (r : FVec Ideal S1x128 .f32) (hb : S1x128.Broadcasts S128x128) (p q : Fin 128) :
    broadcastTo S128x128 r hb (ix2 p q) = r (ix2 (0 : Fin 1) q) :=
  broadcastTo_apply r hb (ix2 p q) (ix2 (0 : Fin 1) q) (fun a => by
    match a with
    | ⟨0, _⟩ => rfl
    | ⟨1, _⟩ => rfl)

/-- Row l of the weights, flattened and restored, at (0, q). -/
theorem wrow_apply (w : FVec Ideal S101x128 .f32) (l : ℕ) (hw : S101x128.Slices ![l, 0] S1x128)
    (h1 : S1x128.ShapeCasts S128) (h2 : S128.ShapeCasts S1x128) (q : Fin 128) :
    shapeCast S1x128 (shapeCast S128 (extractStridedSlice S1x128 ![l, 0] w hw) h1) h2 (ix2 (0 : Fin 1) q) = Wg w q l := by
  have hl : l + 1 ≤ 101 := hw.2 0
  rw [shapeCast_apply _ h2 (ix2 (0 : Fin 1) q) (ix1 q) (by rw [Shape.rowMajor_val_one, Shape.rowMajor_val_two]; simp),
    shapeCast_apply _ h1 (ix1 q) (ix2 (0 : Fin 1) q) (by rw [Shape.rowMajor_val_one, Shape.rowMajor_val_two]; simp),
    slice2_axis0_eq]
  unfold Wg
  rw [dif_pos (by omega)]
  rfl

/-- The same, with the reduction spelt as the sum over the columns. -/
theorem diag_apply' (S : FVec Ideal S128x232 .f32) (l : ℕ) (hs : S128x232.Slices ![0, l] S128x128)
    (hr : S128x128.Reduces (@List.cons (Fin 2) (1 : Fin S128x128.rank) (@List.nil (Fin 2))) S128) (p : Fin 128) :
    FloatOps.reduceAdd (F := Ideal) (@List.cons (Fin 2) (1 : Fin S128x128.rank) (@List.nil (Fin 2))) hr
      (mulf (extractStridedSlice S128x128 ![0, l] S hs) (k1_pay3 (F := Ideal))) (ix1 p) = Dg S p l :=
  diag_apply S l hs hr p

/-- The f32 zero pattern is the extended real zero. -/
theorem zero_bits : FloatOps.ofBits (F := Ideal) .f32 0x00000000#32 = (0 : EReal) := Ideal.ofBits_zero_f32

/-- Steps 0 and 1 from the zero accumulator. -/
theorem pay4_sum (x0 : Vec Ideal S1x128x512 .f32) (v5 : Vec Ideal S1x232x512 .f32) (w : Vec Ideal S101x128 .f32) (p q : Fin 128) :
    k1_pay4 x0 v5 w (ix2 p q) = ∑ l ∈ Finset.range 2, Dg (k1_pay2 x0 v5) p l * Wg w q l := by
  unfold k1_pay4
  simp only [addf_apply, mulf_apply, bcol_apply, brow_apply, col_apply, multiReduction, diag_apply', wrow_apply, broadcast_apply]
  rw [Finset.sum_range_succ, Finset.sum_range_succ, Finset.sum_range_zero]
  exact congrArg (fun z => z + _ + _) zero_bits

/-- The diagonal for step 2. -/
theorem pay5_diag (x0 : Vec Ideal S1x128x512 .f32) (v5 : Vec Ideal S1x232x512 .f32) (p : Fin 128) :
    k1_pay5 x0 v5 (ix2 p (0 : Fin 1)) = Dg (k1_pay2 x0 v5) p 2 := by
  unfold k1_pay5
  simp only [col_apply, multiReduction, diag_apply']

/-- Steps 2 to 6: the accumulator gains five terms. -/
theorem pay6_sum (S : FVec Ideal S128x232 .f32) (w : Vec Ideal S101x128 .f32) (acc : FVec Ideal S128x128 .f32)
    (d : FVec Ideal S128x1 .f32) (p q : Fin 128)
    (ha : acc (ix2 p q) = ∑ l ∈ Finset.range 2, Dg S p l * Wg w q l) (hd : d (ix2 p (0 : Fin 1)) = Dg S p 2) :
    k1_pay6 S (k1_pay3 (F := Ideal)) w acc d (ix2 p q) = ∑ l ∈ Finset.range 7, Dg S p l * Wg w q l := by
  unfold k1_pay6
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 7. -/
theorem pay7_diag (S : FVec Ideal S128x232 .f32) (p : Fin 128) :
    k1_pay7 S (k1_pay3 (F := Ideal)) (ix2 p (0 : Fin 1)) = Dg S p 7 := by
  unfold k1_pay7
  simp only [col_apply, multiReduction, diag_apply']

/-- Steps 7 to 11: the accumulator gains five terms. -/
theorem pay8_sum (S : FVec Ideal S128x232 .f32) (w : Vec Ideal S101x128 .f32) (acc : FVec Ideal S128x128 .f32)
    (d : FVec Ideal S128x1 .f32) (p q : Fin 128)
    (ha : acc (ix2 p q) = ∑ l ∈ Finset.range 7, Dg S p l * Wg w q l) (hd : d (ix2 p (0 : Fin 1)) = Dg S p 7) :
    k1_pay8 S (k1_pay3 (F := Ideal)) w acc d (ix2 p q) = ∑ l ∈ Finset.range 12, Dg S p l * Wg w q l := by
  unfold k1_pay8
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 12. -/
theorem pay9_diag (S : FVec Ideal S128x232 .f32) (p : Fin 128) :
    k1_pay9 S (k1_pay3 (F := Ideal)) (ix2 p (0 : Fin 1)) = Dg S p 12 := by
  unfold k1_pay9
  simp only [col_apply, multiReduction, diag_apply']

/-- Steps 12 to 16: the accumulator gains five terms. -/
theorem pay10_sum (S : FVec Ideal S128x232 .f32) (w : Vec Ideal S101x128 .f32) (acc : FVec Ideal S128x128 .f32)
    (d : FVec Ideal S128x1 .f32) (p q : Fin 128)
    (ha : acc (ix2 p q) = ∑ l ∈ Finset.range 12, Dg S p l * Wg w q l) (hd : d (ix2 p (0 : Fin 1)) = Dg S p 12) :
    k1_pay10 S (k1_pay3 (F := Ideal)) w acc d (ix2 p q) = ∑ l ∈ Finset.range 17, Dg S p l * Wg w q l := by
  unfold k1_pay10
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 17. -/
theorem pay11_diag (S : FVec Ideal S128x232 .f32) (p : Fin 128) :
    k1_pay11 S (k1_pay3 (F := Ideal)) (ix2 p (0 : Fin 1)) = Dg S p 17 := by
  unfold k1_pay11
  simp only [col_apply, multiReduction, diag_apply']

/-- Steps 17 to 21: the accumulator gains five terms. -/
theorem pay12_sum (S : FVec Ideal S128x232 .f32) (w : Vec Ideal S101x128 .f32) (acc : FVec Ideal S128x128 .f32)
    (d : FVec Ideal S128x1 .f32) (p q : Fin 128)
    (ha : acc (ix2 p q) = ∑ l ∈ Finset.range 17, Dg S p l * Wg w q l) (hd : d (ix2 p (0 : Fin 1)) = Dg S p 17) :
    k1_pay12 S (k1_pay3 (F := Ideal)) w acc d (ix2 p q) = ∑ l ∈ Finset.range 22, Dg S p l * Wg w q l := by
  unfold k1_pay12
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 22. -/
theorem pay13_diag (S : FVec Ideal S128x232 .f32) (p : Fin 128) :
    k1_pay13 S (k1_pay3 (F := Ideal)) (ix2 p (0 : Fin 1)) = Dg S p 22 := by
  unfold k1_pay13
  simp only [col_apply, multiReduction, diag_apply']

/-- Steps 22 to 26: the accumulator gains five terms. -/
theorem pay14_sum (S : FVec Ideal S128x232 .f32) (w : Vec Ideal S101x128 .f32) (acc : FVec Ideal S128x128 .f32)
    (d : FVec Ideal S128x1 .f32) (p q : Fin 128)
    (ha : acc (ix2 p q) = ∑ l ∈ Finset.range 22, Dg S p l * Wg w q l) (hd : d (ix2 p (0 : Fin 1)) = Dg S p 22) :
    k1_pay14 S (k1_pay3 (F := Ideal)) w acc d (ix2 p q) = ∑ l ∈ Finset.range 27, Dg S p l * Wg w q l := by
  unfold k1_pay14
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 27. -/
theorem pay15_diag (S : FVec Ideal S128x232 .f32) (p : Fin 128) :
    k1_pay15 S (k1_pay3 (F := Ideal)) (ix2 p (0 : Fin 1)) = Dg S p 27 := by
  unfold k1_pay15
  simp only [col_apply, multiReduction, diag_apply']

/-- Steps 27 to 31: the accumulator gains five terms. -/
theorem pay16_sum (S : FVec Ideal S128x232 .f32) (w : Vec Ideal S101x128 .f32) (acc : FVec Ideal S128x128 .f32)
    (d : FVec Ideal S128x1 .f32) (p q : Fin 128)
    (ha : acc (ix2 p q) = ∑ l ∈ Finset.range 27, Dg S p l * Wg w q l) (hd : d (ix2 p (0 : Fin 1)) = Dg S p 27) :
    k1_pay16 S (k1_pay3 (F := Ideal)) w acc d (ix2 p q) = ∑ l ∈ Finset.range 32, Dg S p l * Wg w q l := by
  unfold k1_pay16
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 32. -/
theorem pay17_diag (S : FVec Ideal S128x232 .f32) (p : Fin 128) :
    k1_pay17 S (k1_pay3 (F := Ideal)) (ix2 p (0 : Fin 1)) = Dg S p 32 := by
  unfold k1_pay17
  simp only [col_apply, multiReduction, diag_apply']

/-- Steps 32 to 36: the accumulator gains five terms. -/
theorem pay18_sum (S : FVec Ideal S128x232 .f32) (w : Vec Ideal S101x128 .f32) (acc : FVec Ideal S128x128 .f32)
    (d : FVec Ideal S128x1 .f32) (p q : Fin 128)
    (ha : acc (ix2 p q) = ∑ l ∈ Finset.range 32, Dg S p l * Wg w q l) (hd : d (ix2 p (0 : Fin 1)) = Dg S p 32) :
    k1_pay18 S (k1_pay3 (F := Ideal)) w acc d (ix2 p q) = ∑ l ∈ Finset.range 37, Dg S p l * Wg w q l := by
  unfold k1_pay18
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 37. -/
theorem pay19_diag (S : FVec Ideal S128x232 .f32) (p : Fin 128) :
    k1_pay19 S (k1_pay3 (F := Ideal)) (ix2 p (0 : Fin 1)) = Dg S p 37 := by
  unfold k1_pay19
  simp only [col_apply, multiReduction, diag_apply']

/-- Steps 37 to 41: the accumulator gains five terms. -/
theorem pay20_sum (S : FVec Ideal S128x232 .f32) (w : Vec Ideal S101x128 .f32) (acc : FVec Ideal S128x128 .f32)
    (d : FVec Ideal S128x1 .f32) (p q : Fin 128)
    (ha : acc (ix2 p q) = ∑ l ∈ Finset.range 37, Dg S p l * Wg w q l) (hd : d (ix2 p (0 : Fin 1)) = Dg S p 37) :
    k1_pay20 S (k1_pay3 (F := Ideal)) w acc d (ix2 p q) = ∑ l ∈ Finset.range 42, Dg S p l * Wg w q l := by
  unfold k1_pay20
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 42. -/
theorem pay21_diag (S : FVec Ideal S128x232 .f32) (p : Fin 128) :
    k1_pay21 S (k1_pay3 (F := Ideal)) (ix2 p (0 : Fin 1)) = Dg S p 42 := by
  unfold k1_pay21
  simp only [col_apply, multiReduction, diag_apply']

/-- Steps 42 to 46: the accumulator gains five terms. -/
theorem pay22_sum (S : FVec Ideal S128x232 .f32) (w : Vec Ideal S101x128 .f32) (acc : FVec Ideal S128x128 .f32)
    (d : FVec Ideal S128x1 .f32) (p q : Fin 128)
    (ha : acc (ix2 p q) = ∑ l ∈ Finset.range 42, Dg S p l * Wg w q l) (hd : d (ix2 p (0 : Fin 1)) = Dg S p 42) :
    k1_pay22 S (k1_pay3 (F := Ideal)) w acc d (ix2 p q) = ∑ l ∈ Finset.range 47, Dg S p l * Wg w q l := by
  unfold k1_pay22
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 47. -/
theorem pay23_diag (S : FVec Ideal S128x232 .f32) (p : Fin 128) :
    k1_pay23 S (k1_pay3 (F := Ideal)) (ix2 p (0 : Fin 1)) = Dg S p 47 := by
  unfold k1_pay23
  simp only [col_apply, multiReduction, diag_apply']

/-- Steps 47 to 51: the accumulator gains five terms. -/
theorem pay24_sum (S : FVec Ideal S128x232 .f32) (w : Vec Ideal S101x128 .f32) (acc : FVec Ideal S128x128 .f32)
    (d : FVec Ideal S128x1 .f32) (p q : Fin 128)
    (ha : acc (ix2 p q) = ∑ l ∈ Finset.range 47, Dg S p l * Wg w q l) (hd : d (ix2 p (0 : Fin 1)) = Dg S p 47) :
    k1_pay24 S (k1_pay3 (F := Ideal)) w acc d (ix2 p q) = ∑ l ∈ Finset.range 52, Dg S p l * Wg w q l := by
  unfold k1_pay24
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 52. -/
theorem pay25_diag (S : FVec Ideal S128x232 .f32) (p : Fin 128) :
    k1_pay25 S (k1_pay3 (F := Ideal)) (ix2 p (0 : Fin 1)) = Dg S p 52 := by
  unfold k1_pay25
  simp only [col_apply, multiReduction, diag_apply']

/-- Steps 52 to 56: the accumulator gains five terms. -/
theorem pay26_sum (S : FVec Ideal S128x232 .f32) (w : Vec Ideal S101x128 .f32) (acc : FVec Ideal S128x128 .f32)
    (d : FVec Ideal S128x1 .f32) (p q : Fin 128)
    (ha : acc (ix2 p q) = ∑ l ∈ Finset.range 52, Dg S p l * Wg w q l) (hd : d (ix2 p (0 : Fin 1)) = Dg S p 52) :
    k1_pay26 S (k1_pay3 (F := Ideal)) w acc d (ix2 p q) = ∑ l ∈ Finset.range 57, Dg S p l * Wg w q l := by
  unfold k1_pay26
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 57. -/
theorem pay27_diag (S : FVec Ideal S128x232 .f32) (p : Fin 128) :
    k1_pay27 S (k1_pay3 (F := Ideal)) (ix2 p (0 : Fin 1)) = Dg S p 57 := by
  unfold k1_pay27
  simp only [col_apply, multiReduction, diag_apply']

/-- Steps 57 to 61: the accumulator gains five terms. -/
theorem pay28_sum (S : FVec Ideal S128x232 .f32) (w : Vec Ideal S101x128 .f32) (acc : FVec Ideal S128x128 .f32)
    (d : FVec Ideal S128x1 .f32) (p q : Fin 128)
    (ha : acc (ix2 p q) = ∑ l ∈ Finset.range 57, Dg S p l * Wg w q l) (hd : d (ix2 p (0 : Fin 1)) = Dg S p 57) :
    k1_pay28 S (k1_pay3 (F := Ideal)) w acc d (ix2 p q) = ∑ l ∈ Finset.range 62, Dg S p l * Wg w q l := by
  unfold k1_pay28
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 62. -/
theorem pay29_diag (S : FVec Ideal S128x232 .f32) (p : Fin 128) :
    k1_pay29 S (k1_pay3 (F := Ideal)) (ix2 p (0 : Fin 1)) = Dg S p 62 := by
  unfold k1_pay29
  simp only [col_apply, multiReduction, diag_apply']

/-- Steps 62 to 66: the accumulator gains five terms. -/
theorem pay30_sum (S : FVec Ideal S128x232 .f32) (w : Vec Ideal S101x128 .f32) (acc : FVec Ideal S128x128 .f32)
    (d : FVec Ideal S128x1 .f32) (p q : Fin 128)
    (ha : acc (ix2 p q) = ∑ l ∈ Finset.range 62, Dg S p l * Wg w q l) (hd : d (ix2 p (0 : Fin 1)) = Dg S p 62) :
    k1_pay30 S (k1_pay3 (F := Ideal)) w acc d (ix2 p q) = ∑ l ∈ Finset.range 67, Dg S p l * Wg w q l := by
  unfold k1_pay30
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 67. -/
theorem pay31_diag (S : FVec Ideal S128x232 .f32) (p : Fin 128) :
    k1_pay31 S (k1_pay3 (F := Ideal)) (ix2 p (0 : Fin 1)) = Dg S p 67 := by
  unfold k1_pay31
  simp only [col_apply, multiReduction, diag_apply']

/-- Steps 67 to 71: the accumulator gains five terms. -/
theorem pay32_sum (S : FVec Ideal S128x232 .f32) (w : Vec Ideal S101x128 .f32) (acc : FVec Ideal S128x128 .f32)
    (d : FVec Ideal S128x1 .f32) (p q : Fin 128)
    (ha : acc (ix2 p q) = ∑ l ∈ Finset.range 67, Dg S p l * Wg w q l) (hd : d (ix2 p (0 : Fin 1)) = Dg S p 67) :
    k1_pay32 S (k1_pay3 (F := Ideal)) w acc d (ix2 p q) = ∑ l ∈ Finset.range 72, Dg S p l * Wg w q l := by
  unfold k1_pay32
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 72. -/
theorem pay33_diag (S : FVec Ideal S128x232 .f32) (p : Fin 128) :
    k1_pay33 S (k1_pay3 (F := Ideal)) (ix2 p (0 : Fin 1)) = Dg S p 72 := by
  unfold k1_pay33
  simp only [col_apply, multiReduction, diag_apply']

/-- Steps 72 to 76: the accumulator gains five terms. -/
theorem pay34_sum (S : FVec Ideal S128x232 .f32) (w : Vec Ideal S101x128 .f32) (acc : FVec Ideal S128x128 .f32)
    (d : FVec Ideal S128x1 .f32) (p q : Fin 128)
    (ha : acc (ix2 p q) = ∑ l ∈ Finset.range 72, Dg S p l * Wg w q l) (hd : d (ix2 p (0 : Fin 1)) = Dg S p 72) :
    k1_pay34 S (k1_pay3 (F := Ideal)) w acc d (ix2 p q) = ∑ l ∈ Finset.range 77, Dg S p l * Wg w q l := by
  unfold k1_pay34
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 77. -/
theorem pay35_diag (S : FVec Ideal S128x232 .f32) (p : Fin 128) :
    k1_pay35 S (k1_pay3 (F := Ideal)) (ix2 p (0 : Fin 1)) = Dg S p 77 := by
  unfold k1_pay35
  simp only [col_apply, multiReduction, diag_apply']

/-- Steps 77 to 81: the accumulator gains five terms. -/
theorem pay36_sum (S : FVec Ideal S128x232 .f32) (w : Vec Ideal S101x128 .f32) (acc : FVec Ideal S128x128 .f32)
    (d : FVec Ideal S128x1 .f32) (p q : Fin 128)
    (ha : acc (ix2 p q) = ∑ l ∈ Finset.range 77, Dg S p l * Wg w q l) (hd : d (ix2 p (0 : Fin 1)) = Dg S p 77) :
    k1_pay36 S (k1_pay3 (F := Ideal)) w acc d (ix2 p q) = ∑ l ∈ Finset.range 82, Dg S p l * Wg w q l := by
  unfold k1_pay36
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 82. -/
theorem pay37_diag (S : FVec Ideal S128x232 .f32) (p : Fin 128) :
    k1_pay37 S (k1_pay3 (F := Ideal)) (ix2 p (0 : Fin 1)) = Dg S p 82 := by
  unfold k1_pay37
  simp only [col_apply, multiReduction, diag_apply']

/-- Steps 82 to 86: the accumulator gains five terms. -/
theorem pay38_sum (S : FVec Ideal S128x232 .f32) (w : Vec Ideal S101x128 .f32) (acc : FVec Ideal S128x128 .f32)
    (d : FVec Ideal S128x1 .f32) (p q : Fin 128)
    (ha : acc (ix2 p q) = ∑ l ∈ Finset.range 82, Dg S p l * Wg w q l) (hd : d (ix2 p (0 : Fin 1)) = Dg S p 82) :
    k1_pay38 S (k1_pay3 (F := Ideal)) w acc d (ix2 p q) = ∑ l ∈ Finset.range 87, Dg S p l * Wg w q l := by
  unfold k1_pay38
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 87. -/
theorem pay39_diag (S : FVec Ideal S128x232 .f32) (p : Fin 128) :
    k1_pay39 S (k1_pay3 (F := Ideal)) (ix2 p (0 : Fin 1)) = Dg S p 87 := by
  unfold k1_pay39
  simp only [col_apply, multiReduction, diag_apply']

/-- Steps 87 to 91: the accumulator gains five terms. -/
theorem pay40_sum (S : FVec Ideal S128x232 .f32) (w : Vec Ideal S101x128 .f32) (acc : FVec Ideal S128x128 .f32)
    (d : FVec Ideal S128x1 .f32) (p q : Fin 128)
    (ha : acc (ix2 p q) = ∑ l ∈ Finset.range 87, Dg S p l * Wg w q l) (hd : d (ix2 p (0 : Fin 1)) = Dg S p 87) :
    k1_pay40 S (k1_pay3 (F := Ideal)) w acc d (ix2 p q) = ∑ l ∈ Finset.range 92, Dg S p l * Wg w q l := by
  unfold k1_pay40
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 92. -/
theorem pay41_diag (S : FVec Ideal S128x232 .f32) (p : Fin 128) :
    k1_pay41 S (k1_pay3 (F := Ideal)) (ix2 p (0 : Fin 1)) = Dg S p 92 := by
  unfold k1_pay41
  simp only [col_apply, multiReduction, diag_apply']

/-- Steps 92 to 96: the accumulator gains five terms. -/
theorem pay42_sum (S : FVec Ideal S128x232 .f32) (w : Vec Ideal S101x128 .f32) (acc : FVec Ideal S128x128 .f32)
    (d : FVec Ideal S128x1 .f32) (p q : Fin 128)
    (ha : acc (ix2 p q) = ∑ l ∈ Finset.range 92, Dg S p l * Wg w q l) (hd : d (ix2 p (0 : Fin 1)) = Dg S p 92) :
    k1_pay42 S (k1_pay3 (F := Ideal)) w acc d (ix2 p q) = ∑ l ∈ Finset.range 97, Dg S p l * Wg w q l := by
  unfold k1_pay42
  simp only [addf_apply, mulf_apply, bcol_apply, brow_apply, col_apply, multiReduction, diag_apply', wrow_apply]
  rw [Finset.sum_range_succ, Finset.sum_range_succ, Finset.sum_range_succ, Finset.sum_range_succ, Finset.sum_range_succ, ← ha, ← hd]

/-- The diagonal for step 97. -/
theorem pay43_diag (S : FVec Ideal S128x232 .f32) (p : Fin 128) :
    k1_pay43 S (k1_pay3 (F := Ideal)) (ix2 p (0 : Fin 1)) = Dg S p 97 := by
  unfold k1_pay43
  simp only [col_apply, multiReduction, diag_apply']

/-- Steps 97 to 99: the accumulator gains three terms. -/
theorem pay44_sum (S : FVec Ideal S128x232 .f32) (w : Vec Ideal S101x128 .f32) (acc : FVec Ideal S128x128 .f32)
    (d : FVec Ideal S128x1 .f32) (p q : Fin 128)
    (ha : acc (ix2 p q) = ∑ l ∈ Finset.range 97, Dg S p l * Wg w q l) (hd : d (ix2 p (0 : Fin 1)) = Dg S p 97) :
    k1_pay44 S (k1_pay3 (F := Ideal)) w acc d (ix2 p q) = ∑ l ∈ Finset.range 100, Dg S p l * Wg w q l := by
  unfold k1_pay44
  simp only [addf_apply, mulf_apply, bcol_apply, brow_apply, col_apply, multiReduction, diag_apply', wrow_apply]
  rw [Finset.sum_range_succ, Finset.sum_range_succ, Finset.sum_range_succ, ← ha, ← hd]

/-- Row 100 of the weights. -/
theorem pay45_apply (w : Vec Ideal S101x128 .f32) (q : Fin 128) : k1_pay45 w (ix2 (0 : Fin 1) q) = Wg w q 100 := by
  unfold k1_pay45
  simp only [wrow_apply]

/-- The diagonal for step 100, broadcast along the rows. -/
theorem pay46_apply (S : FVec Ideal S128x232 .f32) (p q : Fin 128) :
    k1_pay46 S (k1_pay3 (F := Ideal)) (ix2 p q) = Dg S p 100 := by
  unfold k1_pay46
  simp only [bcol_apply, col_apply, multiReduction, diag_apply']

/-- The product's operand indices, coordinate by coordinate. -/
theorem dot_lhs_0 (i : S128x232.Idx) (q : dot_S128x512_S232x512_S128x232_1_1_0_0_n_n.contr.Idx) : (dot_S128x512_S232x512_S128x232_1_1_0_0_n_n.lhsIdx i q 0).val = (i 0).val := by
  unfold DotDims.lhsIdx
  rw [dif_neg (show ¬(0 : Fin S128x512.rank) ∈ dot_S128x512_S232x512_S128x232_1_1_0_0_n_n.lhsBatch by decide),
    dif_pos (show (0 : Fin S128x512.rank) ∈ dot_S128x512_S232x512_S128x232_1_1_0_0_n_n.lhsNonContracting by decide)]
  rfl
theorem dot_lhs_1 (i : S128x232.Idx) (q : dot_S128x512_S232x512_S128x232_1_1_0_0_n_n.contr.Idx) : (dot_S128x512_S232x512_S128x232_1_1_0_0_n_n.lhsIdx i q 1).val = (q ⟨0, by decide⟩).val :=
  dot_S128x512_S232x512_S128x232_1_1_0_0_n_n.lhsIdx_val_of_single rfl i q
theorem dot_rhs_0 (i : S128x232.Idx) (q : dot_S128x512_S232x512_S128x232_1_1_0_0_n_n.contr.Idx) : (dot_S128x512_S232x512_S128x232_1_1_0_0_n_n.rhsIdx i q 0).val = (i 1).val := by
  unfold DotDims.rhsIdx
  rw [dif_neg (show ¬(0 : Fin S232x512.rank) ∈ dot_S128x512_S232x512_S128x232_1_1_0_0_n_n.rhsBatch by decide),
    dif_pos (show (0 : Fin S232x512.rank) ∈ dot_S128x512_S232x512_S128x232_1_1_0_0_n_n.rhsNonContracting by decide)]
  rfl
theorem dot_rhs_1 (i : S128x232.Idx) (q : dot_S128x512_S232x512_S128x232_1_1_0_0_n_n.contr.Idx) : (dot_S128x512_S232x512_S128x232_1_1_0_0_n_n.rhsIdx i q 1).val = (q ⟨0, by decide⟩).val :=
  dot_S128x512_S232x512_S128x232_1_1_0_0_n_n.rhsIdx_val_of_single rfl i q

/-- The product S at (p, j): the inner product of query row p and key row j. -/
theorem pay2_apply (x0 : Vec Ideal S1x128x512 .f32) (v5 : Vec Ideal S1x232x512 .f32) (p : Fin 128) (j : Fin 232) :
    k1_pay2 x0 v5 (ix2 p j) = ∑ k : Fin 512, x0 (ix3 (0 : Fin 1) p k) * v5 (ix3 (0 : Fin 1) j k) := by
  unfold k1_pay2
  refine (Ideal.matmul_constant_zero_apply dot_S128x512_S232x512_S128x232_1_1_0_0_n_n none _ _ (ix2 p j)).trans ?_
  rw [← Equiv.sum_comp (ValueIdx.contrEquiv1 dot_S128x512_S232x512_S128x232_1_1_0_0_n_n 512 rfl rfl).symm]
  refine Finset.sum_congr rfl fun k _ => ?_
  have hk := ValueIdx.contrEquiv1_symm_val dot_S128x512_S232x512_S128x232_1_1_0_0_n_n 512 rfl rfl k
  have el : dot_S128x512_S232x512_S128x232_1_1_0_0_n_n.lhsIdx (ix2 p j) ((ValueIdx.contrEquiv1 dot_S128x512_S232x512_S128x232_1_1_0_0_n_n 512 rfl rfl).symm k) = ix2 p k := funext fun a => Fin.ext (by
    match a with
    | ⟨0, _⟩ => exact dot_lhs_0 _ _
    | ⟨1, _⟩ => exact (dot_lhs_1 _ _).trans hk)
  have er : dot_S128x512_S232x512_S128x232_1_1_0_0_n_n.rhsIdx (ix2 p j) ((ValueIdx.contrEquiv1 dot_S128x512_S232x512_S128x232_1_1_0_0_n_n 512 rfl rfl).symm k) = ix2 j k := funext fun a => Fin.ext (by
    match a with
    | ⟨0, _⟩ => exact dot_rhs_0 _ _
    | ⟨1, _⟩ => exact (dot_rhs_1 _ _).trans hk)
  rw [el, er, truncf_apply, truncf_apply,
    shapeCast_apply _ _ (ix2 p k) (ix3 (0 : Fin 1) p k) (by rw [Shape.rowMajor_val_three, Shape.rowMajor_val_two]; simp),
    shapeCast_apply _ _ (ix2 j k) (ix3 (0 : Fin 1) j k) (by rw [Shape.rowMajor_val_three, Shape.rowMajor_val_two]; simp)]

/-- A vector seen as a row, at (0, q). -/
theorem row_apply (v : FVec Ideal S128 .f32) (hc : S128.ShapeCasts S1x128) (q : Fin 128) :
    shapeCast S1x128 v hc (ix2 (0 : Fin 1) q) = v (ix1 q) :=
  shapeCast_apply v hc (ix2 (0 : Fin 1) q) (ix1 q) (by
    rw [Shape.rowMajor_val_one, Shape.rowMajor_val_two]; simp)

/-- The last step, the bias and the clip at zero, at (a, p, q). -/
theorem pay1_apply (b : Vec Ideal S128 .f32) (acc : FVec Ideal S128x128 .f32) (r : FVec Ideal S1x128 .f32)
    (d : FVec Ideal S128x128 .f32) (a : Fin 1) (p q : Fin 128) :
    k1_pay1 b acc r d (ix3 a p q) = max ((acc (ix2 p q) + d (ix2 p q) * r (ix2 (0 : Fin 1) q)) + b (ix1 q)) 0 := by
  unfold k1_pay1
  refine (shapeCast_apply _ _ (ix3 a p q) (ix2 p q) (by
    rw [Shape.rowMajor_val_three, Shape.rowMajor_val_two]; have := a.isLt; simp)).trans ?_
  simp only [maximumf_apply, addf_apply, mulf_apply, brow_apply, row_apply, broadcast_apply]
  exact congrArg (max _) zero_bits

/-- The loaded key rows: row j of the load is row (block's first row + j) of the padded block. -/
theorem key_apply (i : grid1.Coords) (x1 : Vec Ideal S1x1128x512 .f32) (j : Fin 232) (k : Fin 512) :
    View.ld x1 (Rect.unit (s := S1x1128x512) (k1_off1 i) S1x232x512.size (k1_off1_inb i)) (ix3 (0 : Fin 1) j k)
      = x1 (ix3 (0 : Fin 1) (⟨(i 1).val * 128 + j.val, by have h1 : (i 1).val < 8 := (i 1).isLt; have := j.isLt; omega⟩ : Fin 1128) k) := by
  show x1 ((Rect.unit (s := S1x1128x512) (k1_off1 i) S1x232x512.size (k1_off1_inb i)).idx (ix3 (0 : Fin 1) j k)) = _
  refine congrArg x1 (funext fun a => Fin.ext ?_)
  rw [LoadRect.idx_apply]
  simp only [Rect.off_unit, Rect.stride_unit, k1_off1_eq i]
  match a with
  | ⟨0, _⟩ => rfl
  | ⟨1, _⟩ => show 128 * (i 1).val + 1 * j.val = (i 1).val * 128 + j.val; omega
  | ⟨2, _⟩ => show 0 + 1 * k.val = k.val; omega

/-- What the second kernel's body leaves in its output block: the windowed layer of the query block, the key rows
    loaded at the block's first row, the weights and the bias. -/
theorem out1_A_4_eq (c : Dev nD) (i : grid1.Coords) (arg2 : Memref sig .tc .vmem S1x128x512 .f32) (harg2 : arg2.IsWhole)
    (arg3 : Memref sig .tc .vmem S1x1128x512 .f32) (harg3 : arg3.IsWhole) (arg4 : Memref sig .tc .vmem S101x128 .f32) (harg4 : arg4.IsWhole)
    (arg5 : Memref sig .tc .vmem S128 .f32) (harg5 : arg5.IsWhole) (arg6 : Memref sig .tc .vmem S1x128x128 .f32) (harg6 : arg6.IsWhole)
    (x0 : Vec Ideal S1x128x512 .f32) (x1 : Vec Ideal S1x1128x512 .f32) (x2 : Vec Ideal S101x128 .f32) (x3 : Vec Ideal S128 .f32)
    (y : S1x128x128.Idx) :
    out1_A_4 (F := Ideal) c i arg2 harg2 arg3 harg3 arg4 harg4 arg5 harg5 arg6 harg6 x0 x1 x2 x3 y
      = Spec.blk1 (fun p k => x0 (ix3 (0 : Fin 1) p k))
          (fun j k => x1 (ix3 (0 : Fin 1) (⟨(i 1).val * 128 + j.val, by have h1 : (i 1).val < 8 := (i 1).isLt; have := j.isLt; omega⟩ : Fin 1128) k))
          x2 x3 (y 1) (y 2) := by
  have hz3 : (![0, 0, 0] : Fin 3 → ℕ) = fun _ => 0 := by funext a; fin_cases a <;> rfl
  have hz2 : (![0, 0] : Fin 2 → ℕ) = fun _ => 0 := by funext a; fin_cases a <;> rfl
  have hz1 : (![0] : Fin 1 → ℕ) = fun _ => 0 := by funext a; fin_cases a; rfl
  obtain ⟨a, p, q, rfl⟩ : ∃ a p q, y = ix3 a p q := ⟨y 0, y 1, y 2, eq_ix3 y⟩
  unfold out1_A_4
  rw [View.read_writes_eq_canon _ _ _ (cover1_A_4 c i arg2 harg2 arg3 harg3 arg4 harg4 arg5 harg5 arg6 harg6 x0 x1 x2 x3)]
  unfold kernelRun1_A
  dsimp only
  sl_unfold_run_names
  rw [View.canon_unit_zero (S := S1x128x128) hz3]
  simp only [View.readAt_eq_ld, harg2.read_unread, harg3.read_unread, harg4.read_unread, harg5.read_unread,
    View.ld_unit_zero (S := S1x128x512) hz3, View.ld_unit_zero (S := S101x128) hz2, View.ld_unit_zero (S := S128) hz1]
  generalize hv5 : View.ld x1 (Rect.unit (s := S1x1128x512) (k1_off1 i) S1x232x512.size (k1_off1_inb i)) = v5
  rw [pay1_apply]
  have h4 := pay4_sum x0 v5 x2 p q
  have h6 := pay6_sum (k1_pay2 x0 v5) x2 _ _ p q h4 (pay5_diag x0 v5 p)
  have h8 := pay8_sum (k1_pay2 x0 v5) x2 _ _ p q h6 (pay7_diag _ p)
  have h10 := pay10_sum (k1_pay2 x0 v5) x2 _ _ p q h8 (pay9_diag _ p)
  have h12 := pay12_sum (k1_pay2 x0 v5) x2 _ _ p q h10 (pay11_diag _ p)
  have h14 := pay14_sum (k1_pay2 x0 v5) x2 _ _ p q h12 (pay13_diag _ p)
  have h16 := pay16_sum (k1_pay2 x0 v5) x2 _ _ p q h14 (pay15_diag _ p)
  have h18 := pay18_sum (k1_pay2 x0 v5) x2 _ _ p q h16 (pay17_diag _ p)
  have h20 := pay20_sum (k1_pay2 x0 v5) x2 _ _ p q h18 (pay19_diag _ p)
  have h22 := pay22_sum (k1_pay2 x0 v5) x2 _ _ p q h20 (pay21_diag _ p)
  have h24 := pay24_sum (k1_pay2 x0 v5) x2 _ _ p q h22 (pay23_diag _ p)
  have h26 := pay26_sum (k1_pay2 x0 v5) x2 _ _ p q h24 (pay25_diag _ p)
  have h28 := pay28_sum (k1_pay2 x0 v5) x2 _ _ p q h26 (pay27_diag _ p)
  have h30 := pay30_sum (k1_pay2 x0 v5) x2 _ _ p q h28 (pay29_diag _ p)
  have h32 := pay32_sum (k1_pay2 x0 v5) x2 _ _ p q h30 (pay31_diag _ p)
  have h34 := pay34_sum (k1_pay2 x0 v5) x2 _ _ p q h32 (pay33_diag _ p)
  have h36 := pay36_sum (k1_pay2 x0 v5) x2 _ _ p q h34 (pay35_diag _ p)
  have h38 := pay38_sum (k1_pay2 x0 v5) x2 _ _ p q h36 (pay37_diag _ p)
  have h40 := pay40_sum (k1_pay2 x0 v5) x2 _ _ p q h38 (pay39_diag _ p)
  have h42 := pay42_sum (k1_pay2 x0 v5) x2 _ _ p q h40 (pay41_diag _ p)
  have h44 := pay44_sum (k1_pay2 x0 v5) x2 _ _ p q h42 (pay43_diag _ p)
  rw [h44, pay46_apply, pay45_apply, ← Finset.sum_range_succ]
  unfold Spec.blk1
  refine congrArg (fun z => max (z + x3 (ix1 q)) 0) ?_
  rw [← Fin.sum_univ_eq_sum_range (fun l => Dg (k1_pay2 x0 v5) p l * Wg x2 q l) 101]
  refine Finset.sum_congr rfl fun l _ => ?_
  have hl := l.isLt
  have hp := p.isLt
  show Dg (k1_pay2 x0 v5) p l.val * Wg x2 q l.val = _
  unfold Dg Wg
  rw [dif_pos (by omega), dif_pos hl, pay2_apply]
  refine congrArg₂ (· * ·) (Finset.sum_congr rfl fun k _ => congrArg (x0 (ix3 (0 : Fin 1) p k) * ·) ?_) rfl
  subst hv5
  exact key_apply i x1 _ k

end Cert.KernelIdeal.KReg1Body

end
-- ==== Proof.KReg1.lean ====
import proofs.«409566_j37400575214078_3_alg».proof.Proof.Gen.KernelIdeal.Frame
import proofs.«409566_j37400575214078_3_alg».proof.Proof.Spec
import proofs.«409566_j37400575214078_3_alg».proof.Proof.KReg1Body
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.KReg1

variable (V : (c : Dev nD) → (b : Ref sig .tc) → Buf (Elt Ideal) ((c : Thread nD τ).loc b))

/-- The index maps over the grid: the query block and the output block sit at block (b, qt, 0), the key slab
    at block (b, 0, 0), the weights and the bias at block 0; b < 4 and qt < 8. -/
theorem idx_facts : ∀ t : Fin cfg1.N,
    win1_0.index t (0 : Fin 3) = (grid1.coords t 0).val ∧ win1_0.index t (1 : Fin 3) = (grid1.coords t 1).val ∧ win1_0.index t (2 : Fin 3) = 0
    ∧ win1_1.index t (0 : Fin 3) = (grid1.coords t 0).val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) = (grid1.coords t 0).val ∧ win1_4.index t (1 : Fin 3) = (grid1.coords t 1).val ∧ win1_4.index t (2 : Fin 3) = 0 :=
  (by decide +kernel : ∀ t : Fin grid1.N, _)

/-- Every block (b, qt, 0) of the output is some point's. -/
theorem idx_onto : ∀ (q0 : Fin 4) (q1 : Fin 8), ∃ t : Fin cfg1.N, win1_4.index t = ![q0.val, q1.val, 0] :=
  (by decide +kernel : ∀ (q0 : Fin 4) (q1 : Fin 8), ∃ t : Fin grid1.N, win1_4.index t = ![q0.val, q1.val, 0])

/-- The query block at a point: rows qt * 128 .. qt * 128 + 127 of batch b of the rows. -/
theorem iblk0_apply (c : Dev nD) (t : Fin cfg1.N) (x : S1x128x512.Idx) (k : Spec.ShX3.Idx)
    (h0 : (k 0).val = (grid1.coords t 0).val) (h1 : (k 1).val = (grid1.coords t 1).val * 128 + (x 1).val)
    (h2 : (k 2).val = (x 2).val) :
    (iblk1 V c 0 t : Vec Ideal S1x128x512 .f32) x = (V c main_v26 : Spec.ShX3.Idx → EReal) k := by
  obtain ⟨e0, e1, e2, -⟩ := idx_facts t
  unfold iblk1
  rw [View.read_apply]
  show V c main_v26 _ = V c main_v26 _
  congr 1
  funext a
  apply Fin.ext
  match a with
  | ⟨0, _⟩ => show win1_0.index t (0 : Fin 3) * 1 + 1 * (x 0).val = (k 0).val; have hx : (x 0).val < 1 := (x 0).isLt; omega
  | ⟨1, _⟩ => show win1_0.index t (1 : Fin 3) * 128 + 1 * (x 1).val = (k 1).val; omega
  | ⟨2, _⟩ => show win1_0.index t (2 : Fin 3) * 512 + 1 * (x 2).val = (k 2).val; omega

/-- The key slab at a point: the whole padded batch b. -/
theorem iblk1_apply (c : Dev nD) (t : Fin cfg1.N) (x : S1x1128x512.Idx) (k : Spec.ShXp.Idx)
    (h0 : (k 0).val = (grid1.coords t 0).val) (h1 : (k 1).val = (x 1).val) (h2 : (k 2).val = (x 2).val) :
    (iblk1 V c 1 t : Vec Ideal S1x1128x512 .f32) x = (V c main_v27 : Spec.ShXp.Idx → EReal) k := by
  obtain ⟨-, -, -, e0, e1, e2, -⟩ := idx_facts t
  unfold iblk1
  rw [View.read_apply]
  show V c main_v27 _ = V c main_v27 _
  congr 1
  funext a
  apply Fin.ext
  match a with
  | ⟨0, _⟩ => show win1_1.index t (0 : Fin 3) * 1 + 1 * (x 0).val = (k 0).val; have hx : (x 0).val < 1 := (x 0).isLt; omega
  | ⟨1, _⟩ => show win1_1.index t (1 : Fin 3) * 1128 + 1 * (x 1).val = (k 1).val; omega
  | ⟨2, _⟩ => show win1_1.index t (2 : Fin 3) * 512 + 1 * (x 2).val = (k 2).val; omega

/-- The weights' block at a point is the weights. -/
theorem iblk2_apply (c : Dev nD) (t : Fin cfg1.N) (x : S101x128.Idx) :
    (iblk1 V c 2 t : Vec Ideal S101x128 .f32) x = (V c main_arg1 : Spec.ShW.Idx → EReal) x := by
  obtain ⟨-, -, -, -, -, -, e0, e1, -⟩ := idx_facts t
  unfold iblk1
  rw [View.read_apply]
  show V c main_arg1 _ = V c main_arg1 _
  congr 1
  funext a
  apply Fin.ext
  match a with
  | ⟨0, _⟩ => show win1_2.index t (0 : Fin 2) * 101 + 1 * (x 0).val = (x 0).val; omega
  | ⟨1, _⟩ => show win1_2.index t (1 : Fin 2) * 128 + 1 * (x 1).val = (x 1).val; omega

/-- The bias' block at a point is the bias. -/
theorem iblk3_apply (c : Dev nD) (t : Fin cfg1.N) (x : S128.Idx) :
    (iblk1 V c 3 t : Vec Ideal S128 .f32) x = (V c main_arg2 : Spec.ShB.Idx → EReal) x := by
  obtain ⟨-, -, -, -, -, -, -, -, e0, -⟩ := idx_facts t
  unfold iblk1
  rw [View.read_apply]
  show V c main_arg2 _ = V c main_arg2 _
  congr 1
  funext a
  apply Fin.ext
  match a with
  | ⟨0, _⟩ => show win1_3.index t (0 : Fin 1) * 128 + 1 * (x 0).val = (x 0).val; omega

/-- What the body leaves at a point, at an index of its block, is the windowed layer at the array's index under it. -/
theorem point_eq (c : Dev nD) (t : Fin cfg1.N) (y : S1x128x128.Idx) (i : Spec.ShOut.Idx)
    (h0 : (i 0).val = (grid1.coords t 0).val) (h1 : (i 1).val = (grid1.coords t 1).val * 128 + (y 1).val)
    (h2 : (i 2).val = (y 2).val) :
    out1_A_4 (F := Ideal) c (grid1.coords t) (ms1_0 t) (hs1_0 t) (ms1_1 t) (hs1_1 t) (ms1_2 t) (hs1_2 t) (ms1_3 t) (hs1_3 t) (ms1_4 t) (hs1_4 t)
        (iblk1 V c 0 t) (iblk1 V c 1 t) (iblk1 V c 2 t) (iblk1 V c 3 t) y
      = Spec.out1 (V c main_v26) (V c main_v27) (V c main_arg1) (V c main_arg2) i := by
  rw [KReg1Body.out1_A_4_eq]
  unfold Spec.blk1 Spec.out1 Spec.dotk
  have hy2 : y 2 = i 2 := Fin.ext h2.symm
  rw [hy2]
  rw [iblk3_apply]
  simp only [iblk2_apply]
  refine congrArg (fun z => max (z + (V c main_arg2 : Spec.ShB.Idx → EReal) (ix1 (i 2))) 0) ?_
  refine Finset.sum_congr rfl fun l _ => ?_
  refine congrArg (fun z => z * (V c main_arg1 : Spec.ShW.Idx → EReal) (ix2 l (i 2))) ?_
  refine Finset.sum_congr rfl fun k _ => ?_
  have hl := l.isLt
  have hy1 : (y 1).val < 128 := (y 1).isLt
  have hq : (grid1.coords t 1).val < 8 := (grid1.coords t 1).isLt
  have a0 := iblk0_apply V c t (ix3 (0 : Fin 1) (y 1) k) (ix3 (i 0) (i 1) k) h0 h1 rfl
  have a1 := iblk1_apply V c t
    (ix3 (0 : Fin 1) (⟨(grid1.coords t 1).val * 128 + (l.val + (y 1).val), by omega⟩ : Fin 1128) k)
    (ix3 (i 0) (⟨(i 1).val + l.val, by have := (i 1).isLt; omega⟩ : Fin 1128) k) h0 (by show (i 1).val + l.val = (grid1.coords t 1).val * 128 + (l.val + (y 1).val); omega) rfl
  exact congrArg₂ (· * ·) a0 a1

/-- What a point writes back is its block of the windowed layer. -/
theorem flushed_eq (c : Dev nD) (t : Fin cfg1.N) :
    (dat1 V c).flushed 4 t = ((cfg1.win 4).blk t).view.read (Elt Ideal)
      (Spec.out1 (V c main_v26) (V c main_v27) (V c main_arg1) (V c main_arg2)) := by
  show (cfg1.win 4).cut (grid1.coords t) ((dat1 V c).after 4 t) = _
  rw [after1_4]
  unfold outsAt1
  obtain ⟨-, -, -, -, -, -, -, -, -, e0, e1, e2⟩ := idx_facts t
  funext y
  rw [View.read_apply]
  refine point_eq V c t (fun a => ⟨(y a).val, (y a).isLt⟩) (((cfg1.win 4).blk t).view.emb y) ?_ ?_ ?_
  · show win1_4.index t (0 : Fin 3) * 1 + 1 * (y 0).val = (grid1.coords t 0).val
    have hy : (y 0).val < 1 := (y 0).isLt
    omega
  · show win1_4.index t (1 : Fin 3) * 128 + 1 * (y 1).val = (grid1.coords t 1).val * 128 + (y 1).val
    omega
  · show win1_4.index t (2 : Fin 3) * 128 + 1 * (y 2).val = (y 2).val
    omega

/-- An index of the output array is in a point's block iff each coordinate is in the block's range on its axis. -/
theorem mem_blk (t : Fin cfg1.N) (i : S4x1024x128.Idx) :
    i ∈ ((cfg1.win 4).blk t).view.set ↔ ∀ a : Fin 3, win1_4.index t a * S1x128x128.size a ≤ (i a).val ∧ (i a).val < win1_4.index t a * S1x128x128.size a + S1x128x128.size a := by
  show i ∈ ((View.whole main_v28).slice (win1_4.rect t)).set ↔ _
  rw [View.set_slice_whole, Rect.mem_set_unit]
  exact Iff.rfl

/-- The output's blocks tile the array: row r of batch b is in the block of the point (b, r / 128). -/
theorem cover (i : S4x1024x128.Idx) : ∃ t : Fin cfg1.N, (cfg1.win 4).flush t = true ∧ i ∈ ((cfg1.win 4).blk t).view.set := by
  have hi0 : (i 0).val < 4 := (i 0).isLt
  have hi1 : (i 1).val < 1024 := (i 1).isLt
  have hi2 : (i 2).val < 128 := (i 2).isLt
  obtain ⟨t, ht⟩ := idx_onto ⟨(i 0).val, hi0⟩ ⟨(i 1).val / 128, by omega⟩
  have q0 : win1_4.index t (0 : Fin 3) = (i 0).val := congrFun ht 0
  have q1 : win1_4.index t (1 : Fin 3) = (i 1).val / 128 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 128 ≤ (i 1).val ∧ (i 1).val < win1_4.index t (1 : Fin 3) * 128 + 128; omega
  | ⟨2, _⟩ => show win1_4.index t (2 : Fin 3) * 128 ≤ (i 2).val ∧ (i 2).val < win1_4.index t (2 : Fin 3) * 128 + 128; omega

/-- After the second region its output array holds the windowed layer of the rows, the padded rows, the weights and
    the bias it was entered with. -/
theorem arr1 (c : Dev nD) :
    ((dat1 V c).arrAt 4 cfg1.N : Spec.ShOut.Idx → EReal)
      = Spec.out1 (V c main_v26) (V c main_v27) (V c main_arg1) (V c main_arg2) :=
  (dat1 V c).arrAt_eq_of_cover 4 (Spec.out1 (V c main_v26) (V c main_v27) (V c main_arg1) (V c main_arg2))
    (fun t _ => flushed_eq V c t) cover

end Cert.KernelIdeal.KReg1

end
-- ==== Proof.KValue.lean ====
/-
  The idealized kernel program's result array as a function of the argument arrays.

  The last boundary's contents at the result array are what the second region's write-backs leave: the windowed layer
  of the rows, the padded rows, the weights and the bias that region was entered with. The rows it was entered with are
  the first region's output regrouped by batch, the padded rows their zero padding; the first region's output is the
  normalised one-hot histogram of the bin words, which the host operations before it compute from the frames. With
  every channel word below 256 the one-hot histogram counts pixels per bin.
-/
import proofs.«409566_j37400575214078_3_alg».proof.Proof.Gen.KernelIdeal.Frame
import proofs.«409566_j37400575214078_3_alg».proof.Proof.Spec
import proofs.«409566_j37400575214078_3_alg».proof.Proof.KMath
import proofs.«409566_j37400575214078_3_alg».proof.Proof.KHost
import proofs.«409566_j37400575214078_3_alg».proof.Proof.KReg0
import proofs.«409566_j37400575214078_3_alg».proof.Proof.KReg1

noncomputable section

open Idealize.ShloMosaic Idealize.ShloMosaic.TcCoe Idealize.SL.Sem Idealize.ShloMosaic.ValueIdx
open Cert.KernelIdeal Cert.KernelIdeal.Gen

namespace Cert.KernelIdeal.KValue

variable (m : (ℓ : Loc nD τ sig) → Buf (Elt Ideal) ℓ) (ρ : Dev nD → PrngReg)

/-- The first region's output array, as the second stretch of host operations finds it. -/
theorem V2_v25 (c : Dev nD) :
    (V2 m ρ c main_v25 : Spec.ShX2.Idx → EReal) = Spec.xk (Spec.kbins (m ((c : Thread nD τ).loc main_arg0))) := by
  have h := KReg0.arr0 (V1 m ρ) c
  rw [KHost.V1_v24 m ρ c] at h
  exact (hF0 m ρ c 1).symm.trans h

/-- The result array at the last boundary. -/
theorem W5_v28 (c : Dev nD) (hr : ∀ i, ((m ((c : Thread nD τ).loc main_arg0) : Spec.ShFrames.Idx → BitVec 32) i).toNat < 256) :
    (W5 m ρ c (Proc.devRef .tc main_v28) : Spec.ShOut.Idx → EReal)
      = Spec.result (m ((c : Thread nD τ).loc main_arg0)) (m ((c : Thread nD τ).loc main_arg1)) (m ((c : Thread nD τ).loc main_arg2)) := by
  have h := KReg1.arr1 (V4 m ρ) c
  rw [KHost.V4_v27 m ρ c, KHost.V4_arg1 m ρ c, KHost.V4_arg2 m ρ c, KMath.out1_padx] at h
  refine ((W5_arr m ρ c 4).trans h).trans ?_
  funext i
  unfold Spec.result
  congr 1
  funext b t k
  rw [KHost.V4_v26 m ρ c, V2_v25 m ρ c]
  exact KMath.xk_kbins _ hr b t k

end Cert.KernelIdeal.KValue

end
-- ==== Proof.RefScatter.lean ====
import proofs.«409566_j37400575214078_3_alg».proof.Proof.Gen.ReferenceIdeal.Run
import proofs.«409566_j37400575214078_3_alg».proof.Proof.Gen.ReferenceIdeal.Read
import proofs.«409566_j37400575214078_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen

namespace Cert.ReferenceIdeal.RefScatter

/-- Over the extended reals an accumulating scatter reads, at each operand position, the operand's element plus the
    sum of the updates that land on that position. -/
theorem scatterAdd_at {s si su : Shape} (d : ScatterDims s si su) {w : Nat} (x : FVec Ideal s .f32) (idx : IVec si w)
    (upd : FVec Ideal su .f32) (i : s.Idx) :
    Host.scatterAdd (F := Ideal) (φ := .f32) d x idx upd i
      = x i + ∑ j ∈ Finset.univ.filter (fun j => d.resultIdx? j idx = some i), upd j := rfl

/-- The dimension numbers of the segment sum: one operand axis, inserted; the index vector lies along axis 1 of the
    scatter indices and has one component, for operand axis 0. -/
abbrev dd := scatter_S2097152_S5308416x1_S5308416_n_0_0_1

/-- Update j reads its start index at row j 0, column 0 of the scatter indices. -/
theorem siIdx_eq (j : S5308416.Idx) (c : Fin dd.scatterDimsToOperandDims.length) :
    dd.siIdx j c = ix2 (j 0) (0 : Fin 1) := by
  funext b
  match b with
  | ⟨0, _⟩ =>
    apply Fin.ext
    rfl
  | ⟨1, _⟩ =>
    apply Fin.ext
    have hc : c.val < 1 := c.isLt
    show c.val = 0
    omega

/-- The start of update j on the operand's one axis is the signed value of its index word. -/
theorem start_eq (j : S5308416.Idx) (idx : IVec S5308416x1 32) (a : Fin 1) :
    dd.start j idx a = (idx (ix2 (j 0) (0 : Fin 1))).toInt := by
  unfold ScatterDims.start
  have ha : a ∈ dd.scatterDimsToOperandDims := by
    have : a = 0 := Subsingleton.elim _ _
    subst this
    exact List.mem_singleton.2 rfl
  rw [dif_pos ha, siIdx_eq]
  rfl

/-- The operand's one axis is an inserted window axis: the window coordinate on it is 0. -/
theorem window_eq (j : S5308416.Idx) (a : Fin 1) : dd.window j a = 0 := by
  unfold ScatterDims.window
  have ha : a ∉ dd.sKept := by
    have : a = 0 := Subsingleton.elim _ _
    subst this
    decide
  rw [dif_neg ha]

/-- Update j lands on position n exactly when its index word, read signed, is n (such a word is in range because
    n is). -/
theorem resultIdx_iff (j : S5308416.Idx) (idx : IVec S5308416x1 32) (n : S2097152.Idx) :
    dd.resultIdx? j idx = some n ↔ (idx (ix2 (j 0) (0 : Fin 1))).toInt = ((n 0).val : ℤ) := by
  have hn : (n 0).val < 2097152 := (n 0).isLt
  unfold ScatterDims.resultIdx?
  constructor
  · intro h
    split at h
    · rename_i hall
      have h1 := Option.some.inj h
      have h0 := congrArg Fin.val (congrFun h1 0)
      have h2 := hall 0
      rw [start_eq, window_eq] at h2
      change (dd.start j idx 0 + ((dd.window j 0 : ℕ) : ℤ)).toNat = (n 0).val at h0
      rw [start_eq, window_eq] at h0
      omega
    · cases h
  · intro h
    have hall : ∀ a, 0 ≤ dd.start j idx a + ((dd.window j a : ℕ) : ℤ)
        ∧ dd.start j idx a + ((dd.window j a : ℕ) : ℤ) < ((S2097152.size a : ℕ) : ℤ) := by
      intro a
      rw [start_eq, window_eq]
      have : a = 0 := Subsingleton.elim _ _
      subst this
      show 0 ≤ _ + ((0 : ℕ) : ℤ) ∧ _ + ((0 : ℕ) : ℤ) < ((2097152 : ℕ) : ℤ)
      omega
    rw [dif_pos hall]
    congr 1
    funext a
    have : a = 0 := Subsingleton.elim _ _
    subst this
    apply Fin.ext
    show (dd.start j idx 0 + ((dd.window j 0 : ℕ) : ℤ)).toNat = (n 0).val
    rw [start_eq, window_eq]
    omega

/-- The updates landing on n are as many as the rows whose index word reads n: a rank-1 index is its one
    coordinate. -/
theorem card_eq (idx : IVec S5308416x1 32) (n : S2097152.Idx)
    (inst : DecidablePred fun j : S5308416.Idx => dd.resultIdx? j idx = some n) :
    (@Finset.filter _ (fun j : S5308416.Idx => dd.resultIdx? j idx = some n) inst Finset.univ).card
      = (Finset.univ.filter fun j : Fin 5308416 => (idx (ix2 j (0 : Fin 1))).toInt = ((n 0).val : ℤ)).card := by
  symm
  apply Finset.card_bij (fun (p : Fin 5308416) _ => (ix1 p : S5308416.Idx))
  · intro p hp
    rw [Finset.mem_filter] at hp ⊢
    exact ⟨Finset.mem_univ _, (resultIdx_iff (ix1 p) idx n).2 hp.2⟩
  · intro p₁ _ p₂ _ h
    exact congrFun h 0
  · intro j hj
    rw [Finset.mem_filter] at hj
    have hj2 := (resultIdx_iff j idx n).1 hj.2
    let p : Fin 5308416 := j 0
    refine ⟨p, ?_, (eq_ix1 j).symm⟩
    rw [Finset.mem_filter]
    exact ⟨Finset.mem_univ _, hj2⟩

/-- The f32 word 0x3F800000 is the number 1: exponent field 127, fraction field 0, so 2^23 * 2^(-23). -/
theorem ofBits_one_f32 : Ideal.ofBits .f32 0x3F800000#32 = 1 := by
  simp [Ideal.ofBits, Ideal.ieee]
  rw [← EReal.coe_mul, ← EReal.coe_one]
  congr 1
  norm_num

/-- The operand is 0 at every position. -/
theorem v27_zero (n : S2097152.Idx) : Read.val_main_v27 (F := Ideal) n = 0 := by
  rw [Read.val_main_v27_apply, Read.val_main_cst_5_apply]
  exact Ideal.ofBits_zero_f32

/-- Every update is 1. -/
theorem v25_one (j : S5308416.Idx) : Read.val_main_v25 (F := Ideal) j = 1 := by
  rw [Read.val_main_v25_apply, Read.val_main_cst_apply]
  exact ofBits_one_f32

/-- A sum of ones over a finite set is the set's size, as an extended real. -/
theorem sum_one {α : Type} (s : Finset α) : (∑ j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- A one-dimensional scatter-add of ones into zeros counts, at each position n, the updates whose index word reads n
    (signed). -/
theorem scatter_count (idx : IVec S5308416x1 32) (n : S2097152.Idx) :
    Host.scatterAdd (F := Ideal) (φ := .f32) scatter_S2097152_S5308416x1_S5308416_n_0_0_1
        (Read.val_main_v27 (F := Ideal)) idx (Read.val_main_v25 (F := Ideal)) n
      = (((Finset.univ.filter fun j : Fin 5308416 => (idx (ix2 j (0 : Fin 1))).toInt = ((n 0).val : ℤ)).card : ℝ) : EReal) := by
  rw [scatterAdd_at, v27_zero, zero_add, Finset.sum_congr rfl (fun j _ => v25_one j), sum_one, card_eq]

end Cert.ReferenceIdeal.RefScatter

end
-- ==== Proof.RefHist.lean ====
import proofs.«409566_j37400575214078_3_alg».proof.Proof.Gen.ReferenceIdeal.Run
import proofs.«409566_j37400575214078_3_alg».proof.Proof.Gen.ReferenceIdeal.Read
import proofs.«409566_j37400575214078_3_alg».proof.Proof.Spec
import proofs.«409566_j37400575214078_3_alg».proof.Proof.Words
import proofs.«409566_j37400575214078_3_alg».proof.Proof.RefScatter
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen

namespace Cert.ReferenceIdeal.RefHist

/-- The first channel plane of the regrouped frames at (f, p) is channel 0 of pixel p of frame f. -/
theorem v2_pix (x0 : IVec S4x1024x27x48x3 32) (f : Fin 4096) (p : Fin 1296) :
    Read.val_main_v2 (F := Ideal) x0 (ix2 f p) = Spec.pix x0 f p 0 := by
  rw [Read.val_main_v2_apply, Read.val_main_v1_apply, Read.val_main_v0_apply]
  unfold Spec.pix
  congr 1
  funext a
  have hf := f.isLt
  have hp := p.isLt
  have e0 : ((ix2 f p : S4096x1296.Idx) 0).val = f.val := rfl
  have e1 : ((ix2 f p : S4096x1296.Idx) 1).val = p.val := rfl
  match a with
  | ⟨0, _⟩ => refine Fin.ext ?_; dsimp only; omega
  | ⟨1, _⟩ => refine Fin.ext ?_; dsimp only; omega
  | ⟨2, _⟩ => refine Fin.ext ?_; dsimp only; omega
  | ⟨3, _⟩ => refine Fin.ext ?_; dsimp only; omega
  | ⟨4, _⟩ => refine Fin.ext ?_; dsimp only; show _ = 0; omega

/-- The second channel plane at (f, p) is channel 1 of that pixel. -/
theorem v8_pix (x0 : IVec S4x1024x27x48x3 32) (f : Fin 4096) (p : Fin 1296) :
    Read.val_main_v8 (F := Ideal) x0 (ix2 f p) = Spec.pix x0 f p 1 := by
  rw [Read.val_main_v8_apply, Read.val_main_v7_apply, Read.val_main_v0_apply]
  unfold Spec.pix
  congr 1
  funext a
  have hf := f.isLt
  have hp := p.isLt
  have e0 : ((ix2 f p : S4096x1296.Idx) 0).val = f.val := rfl
  have e1 : ((ix2 f p : S4096x1296.Idx) 1).val = p.val := rfl
  match a with
  | ⟨0, _⟩ => refine Fin.ext ?_; dsimp only; omega
  | ⟨1, _⟩ => refine Fin.ext ?_; dsimp only; omega
  | ⟨2, _⟩ => refine Fin.ext ?_; dsimp only; omega
  | ⟨3, _⟩ => refine Fin.ext ?_; dsimp only; omega
  | ⟨4, _⟩ => refine Fin.ext ?_; dsimp only; show _ = 1; omega

/-- The third channel plane at (f, p) is channel 2 of that pixel. -/
theorem v15_pix (x0 : IVec S4x1024x27x48x3 32) (f : Fin 4096) (p : Fin 1296) :
    Read.val_main_v15 (F := Ideal) x0 (ix2 f p) = Spec.pix x0 f p 2 := by
  rw [Read.val_main_v15_apply, Read.val_main_v14_apply, Read.val_main_v0_apply]
  unfold Spec.pix
  congr 1
  funext a
  have hf := f.isLt
  have hp := p.isLt
  have e0 : ((ix2 f p : S4096x1296.Idx) 0).val = f.val := rfl
  have e1 : ((ix2 f p : S4096x1296.Idx) 1).val = p.val := rfl
  match a with
  | ⟨0, _⟩ => refine Fin.ext ?_; dsimp only; omega
  | ⟨1, _⟩ => refine Fin.ext ?_; dsimp only; omega
  | ⟨2, _⟩ => refine Fin.ext ?_; dsimp only; omega
  | ⟨3, _⟩ => refine Fin.ext ?_; dsimp only; omega
  | ⟨4, _⟩ => refine Fin.ext ?_; dsimp only; show _ = 2; omega

/-- The frame offset plane at (f, p) is the word f shifted left by nine bits. -/
theorem v23_word (f : Fin 4096) (p : Fin 1296) :
    Read.val_main_v23 (F := Ideal) (ix2 f p) = IntOp.shli .host (BitVec.ofNat 32 f.val) 9#32 := by
  rw [Read.val_main_v23_apply, Read.val_main_v22_apply, Read.val_main_v21_apply, Read.val_main_v19_apply,
    Read.val_main_v20_apply, Read.val_main_c_4_apply]

/-- The index word of pixel p of frame f is the unmasked bin word of its channels plus the frame's offset. -/
theorem v24_word (x0 : IVec S4x1024x27x48x3 32) (f : Fin 4096) (p : Fin 1296) :
    Read.val_main_v24 (F := Ideal) x0 (ix2 f p)
      = Spec.rword (Spec.pix x0 f p 0) (Spec.pix x0 f p 1) (Spec.pix x0 f p 2) (BitVec.ofNat 32 f.val) := by
  rw [Read.val_main_v24_apply, Read.val_main_v18_apply, Read.val_main_v13_apply, Read.val_main_v6_apply,
    Read.val_main_v12_apply, Read.val_main_v4_apply, Read.val_main_v10_apply, Read.val_main_v17_apply,
    Read.val_main_v3_apply, Read.val_main_v5_apply, Read.val_main_v9_apply, Read.val_main_v11_apply,
    Read.val_main_v16_apply, Read.val_main_c_apply, Read.val_main_c_0_apply, Read.val_main_c_1_apply,
    Read.val_main_c_2_apply, Read.val_main_c_3_apply, v2_pix, v8_pix, v15_pix, v23_word]
  rfl

/-- With every channel below 256 each channel of a pixel is below 256. -/
theorem pix_lt (x0 : IVec S4x1024x27x48x3 32) (hr : ∀ i, (x0 i).toNat < 256) (f : Fin 4096) (p : Fin 1296) (ch : Fin 3) :
    (Spec.pix x0 f p ch).toNat < 256 := by
  unfold Spec.pix
  exact hr _

/-- With every channel below 256 the bin of a pixel is below 512. -/
theorem binOf_lt (x0 : IVec S4x1024x27x48x3 32) (hr : ∀ i, (x0 i).toNat < 256) (f : Fin 4096) (p : Fin 1296) :
    Spec.binOf x0 f p < 512 := by
  have h0 := pix_lt x0 hr f p 0
  have h1 := pix_lt x0 hr f p 1
  have h2 := pix_lt x0 hr f p 2
  unfold Spec.binOf
  omega

/-- The index word of update j, read signed, is 512 times its frame number plus the bin of its pixel. -/
theorem v28_toInt (x0 : IVec S4x1024x27x48x3 32) (hr : ∀ i, (x0 i).toNat < 256) (j : Fin 5308416) :
    (Read.val_main_v28 (F := Ideal) x0 (ix2 j (0 : Fin 1))).toInt
      = ((j.val / 1296 * 512 + Spec.binOf x0 ⟨j.val / 1296, by have := j.isLt; omega⟩ ⟨j.val % 1296, by omega⟩ : ℕ) : ℤ) := by
  rw [Read.val_main_v28_apply, Read.val_main_v26_apply]
  have hi : Read.idx_main_v26 (Read.idx_main_v28 (ix2 j (0 : Fin 1)))
      = ix2 (⟨j.val / 1296, by have := j.isLt; omega⟩ : Fin 4096) (⟨j.val % 1296, by omega⟩ : Fin 1296) := by
    funext a
    match a with
    | ⟨0, _⟩ => rfl
    | ⟨1, _⟩ => rfl
  rw [hi, v24_word, Words.rword_toInt _ _ _ _ (by have := j.isLt; omega) (pix_lt x0 hr _ _ 0) (pix_lt x0 hr _ _ 1)
    (pix_lt x0 hr _ _ 2)]
  rfl

/-- Among all updates, those whose frame number and bin give position f * 512 + k are the pixels of frame f in bin k. -/
theorem card_frame (bins : Fin 4096 → Fin 1296 → ℕ) (hb : ∀ f p, bins f p < 512) (f : Fin 4096) (k : Fin 512) :
    (Finset.univ.filter fun j : Fin 5308416 =>
        j.val / 1296 * 512 + bins ⟨j.val / 1296, by have := j.isLt; omega⟩ ⟨j.val % 1296, by omega⟩ = f.val * 512 + k.val).card
      = (Finset.univ.filter fun p : Fin 1296 => bins f p = k.val).card := by
  symm
  have hf := f.isLt
  have hk := k.isLt
  refine Finset.card_bij (fun p _ => (⟨f.val * 1296 + p.val, by have := p.isLt; omega⟩ : Fin 5308416)) ?_ ?_ ?_
  · intro p hp
    have hpl := p.isLt
    rw [Finset.mem_filter] at hp ⊢
    refine ⟨Finset.mem_univ _, ?_⟩
    have e1 : (⟨(f.val * 1296 + p.val) / 1296, by omega⟩ : Fin 4096) = f := Fin.ext (by show (f.val * 1296 + p.val) / 1296 = f.val; omega)
    have e2 : (⟨(f.val * 1296 + p.val) % 1296, by omega⟩ : Fin 1296) = p := Fin.ext (by show (f.val * 1296 + p.val) % 1296 = p.val; omega)
    show (f.val * 1296 + p.val) / 1296 * 512 + bins ⟨(f.val * 1296 + p.val) / 1296, _⟩ ⟨(f.val * 1296 + p.val) % 1296, _⟩ = _
    rw [e1, e2, hp.2]
    have : (f.val * 1296 + p.val) / 1296 = f.val := by omega
    rw [this]
  · intro p _ q _ h
    have := congrArg Fin.val h
    exact Fin.ext (by simp only at this; omega)
  · intro j hj
    rw [Finset.mem_filter] at hj
    have hjl := j.isLt
    have hbb := hb ⟨j.val / 1296, by omega⟩ ⟨j.val % 1296, by omega⟩
    have h := hj.2
    have hq : j.val / 1296 = f.val := by omega
    refine ⟨⟨j.val % 1296, by omega⟩, ?_, ?_⟩
    · rw [Finset.mem_filter]
      refine ⟨Finset.mem_univ _, ?_⟩
      have e1 : (⟨j.val / 1296, by omega⟩ : Fin 4096) = f := Fin.ext hq
      rw [e1] at h
      omega
    · exact Fin.ext (by show f.val * 1296 + j.val % 1296 = j.val; omega)

/-- With every channel below 256 the regrouped scatter-add at (b, t, k) is the number of pixels of frame (b, t) in bin k. -/
theorem v30_hE (x0 : IVec S4x1024x27x48x3 32) (hr : ∀ i, (x0 i).toNat < 256) (b : Fin 4) (t : Fin 1024) (k : Fin 512) :
    Read.val_main_v30 (F := Ideal) x0 (ix3 b t k) = Spec.hE (Spec.binOf x0) (Spec.fr b t) k := by
  rw [Read.val_main_v30_apply]
  unfold Read.val_main_v29
  rw [RefScatter.scatter_count]
  unfold Spec.hE Spec.cnt
  rw [← card_frame (Spec.binOf x0) (binOf_lt x0 hr) (Spec.fr b t) k]
  refine congrArg (fun n : ℕ => ((n : ℝ) : EReal)) (congrArg Finset.card (Finset.filter_congr fun j _ => ?_))
  rw [v28_toInt x0 hr j]
  exact Nat.cast_inj

/-- The reference's normalised histogram at (b, t, k) is the row (b, t) of the regrouped scatter-add divided by the larger
    of its Euclidean norm and the constant. -/
theorem v38_xrow (x0 : IVec S4x1024x27x48x3 32) (b : Fin 4) (t : Fin 1024) (k : Fin 512) :
    Read.val_main_v38 (F := Ideal) x0 (ix3 b t k)
      = Spec.xrow (fun k' => Read.val_main_v30 (F := Ideal) x0 (ix3 b t k')) k := by
  rw [Read.val_main_v38_apply, Read.val_main_v37_apply, Read.val_main_v36_apply, Read.val_main_v34_apply,
    Read.val_main_v33_apply, Read.val_main_v32_apply, Read.val_main_v35_apply, Read.val_main_cst_7_apply,
    Read.val_main_cst_6_apply]
  have hs : ∀ k' : Fin 512, Read.val_main_v31 (F := Ideal) x0
        (Read.idx_main_v32 (Read.idx_main_v33 (Read.idx_main_v37 (ix3 b t k))) k')
      = Read.val_main_v30 (F := Ideal) x0 (ix3 b t k') * Read.val_main_v30 (F := Ideal) x0 (ix3 b t k') := by
    intro k'
    have hi : Read.idx_main_v32 (Read.idx_main_v33 (Read.idx_main_v37 (ix3 b t k))) k' = ix3 b t k' := by
      funext a
      match a with
      | ⟨0, _⟩ => rfl
      | ⟨1, _⟩ => rfl
      | ⟨2, _⟩ => rfl
    rw [hi, Read.val_main_v31_apply, Ideal.mulf_def]
  simp only [hs]
  rw [Ideal.hostDivf_def, Ideal.maximumf_def, Ideal.hostUnary_sqrt_def, Ideal.ofBits_def, Ideal.ofBits_def,
    Ideal.ofBits_zero_f32, zero_add]
  rfl

/-- With every channel below 256 the reference's normalised histogram (scatter-add of ones at bin + 512 * frame,
    regrouped, divided by max(norm, 1e-12)) is the specification's. -/
theorem ref_x (x0 : IVec S4x1024x27x48x3 32) (hr : ∀ i, (x0 i).toNat < 256) :
    (Read.val_main_v38 (F := Ideal) x0 : Spec.ShX3.Idx → EReal) = fun i => Spec.xn (Spec.binOf x0) (i 0) (i 1) (i 2) := by
  funext i
  obtain ⟨b, t, k, rfl⟩ : ∃ (b : Fin 4) (t : Fin 1024) (k : Fin 512), i = ix3 b t k := ⟨i 0, i 1, i 2, eq_ix3 i⟩
  show _ = Spec.xn (Spec.binOf x0) b t k
  have hrow : (fun k' : Fin 512 => Read.val_main_v30 (F := Ideal) x0 (ix3 b t k')) = Spec.hE (Spec.binOf x0) (Spec.fr b t) :=
    funext fun k' => v30_hE x0 hr b t k'
  rw [v38_xrow, hrow]
  rfl

end Cert.ReferenceIdeal.RefHist

end
-- ==== Proof.RefTail.lean ====
import proofs.«409566_j37400575214078_3_alg».proof.Proof.Gen.ReferenceIdeal.Run
import proofs.«409566_j37400575214078_3_alg».proof.Proof.Gen.ReferenceIdeal.Read
import proofs.«409566_j37400575214078_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StableHlo.Predicate

noncomputable section

open Idealize.ShloMosaic Idealize.ShloMosaic.TcCoe Idealize.SL.Sem Idealize.ShloMosaic.ValueIdx
open Cert.ReferenceIdeal Cert.ReferenceIdeal.Gen
open scoped BigOperators

namespace Cert.ReferenceIdeal.RefTail

/-! ## The index words -/

/-- A small non-negative word is not below zero. -/
theorem slt_zero_ofNat (n : ℕ) (hn : n < 2 ^ 31) : IntOp.cmpi .slt (BitVec.ofNat 32 n) 0#32 = 0#1 := by
  apply eq_zero_of_ne_one
  intro h
  have := (StableHlo.Predicate.slt_ofNat_iff n 0 hn (by decide)).mp (by simpa [IntOp.cmpi] using h)
  omega

/-- The sum of two small words is the word of the sum. -/
theorem ofNat_add_ofNat (a b : ℕ) : BitVec.ofNat 32 a + BitVec.ofNat 32 b = BitVec.ofNat 32 (a + b) := by
  apply BitVec.eq_of_toNat_eq; simp [BitVec.toNat_add, BitVec.toNat_ofNat]

theorem v42_at (i : S1024x1.Idx) : Read.val_main_v42 (F := Ideal) i = BitVec.ofNat 32 (i 0).val := by
  rw [Read.val_main_v42_apply, Read.val_main_v41_apply]

theorem v47_at (i : S1024x101.Idx) : Read.val_main_v47 (F := Ideal) i = BitVec.ofNat 32 ((i 0).val + (i 1).val) := by
  rw [Read.val_main_v47_apply, Read.val_main_v45_apply, Read.val_main_v46_apply, v42_at, Read.val_main_v44_apply,
    Read.val_main_v43_apply]
  exact ofNat_add_ofNat _ _

theorem v52_at (i : S1024x1.Idx) : Read.val_main_v52 (F := Ideal) i = BitVec.ofNat 32 (i 0).val := by
  rw [Read.val_main_v52_apply, Read.val_main_v49_apply, Read.val_main_v48_apply, Read.val_main_c_9_apply, v42_at,
    slt_zero_ofNat _ (by have h0 : (i 0).val < 1024 := (i 0).isLt; omega), select_zero]

theorem v57_at (i : S1024x101.Idx) : Read.val_main_v57 (F := Ideal) i = BitVec.ofNat 32 ((i 0).val + (i 1).val) := by
  rw [Read.val_main_v57_apply, Read.val_main_v54_apply, Read.val_main_v53_apply, Read.val_main_c_11_apply, v47_at,
    slt_zero_ofNat _ (by have h0 : (i 0).val < 1024 := (i 0).isLt; have h1 : (i 1).val < 101 := (i 1).isLt; omega), select_zero]

/-- The row word of the start indices. -/
theorem v59_at (i : S1024x101x1.Idx) : Read.val_main_v59 (F := Ideal) i = BitVec.ofNat 32 (i 0).val := by
  rw [Read.val_main_v59_apply, Read.val_main_v58_apply, v52_at]

/-- The column word of the start indices. -/
theorem v60_at (i : S1024x101x1.Idx) : Read.val_main_v60 (F := Ideal) i = BitVec.ofNat 32 ((i 0).val + (i 1).val) := by
  rw [Read.val_main_v60_apply, v57_at]

/-! ## The start indices: row word, column word -/

theorem v61_row (t : Fin 1024) (l : Fin 101) :
    Read.val_main_v61 (F := Ideal) (ix3 t l (0 : Fin 2)) = BitVec.ofNat 32 t.val := by
  unfold Read.val_main_v61
  rw [concatenate_pair_apply_left (t := S1024x101x2) (s₁ := S1024x101x1) (s₂ := S1024x101x1) (2 : Fin 3) _ _ _
    (ix3 t l (0 : Fin 2)) rfl (ix3 t l (0 : Fin 1))
    (fun b => match b with | ⟨0, _⟩ => rfl | ⟨1, _⟩ => rfl | ⟨2, _⟩ => rfl)]
  exact v59_at _

theorem v61_col (t : Fin 1024) (l : Fin 101) :
    Read.val_main_v61 (F := Ideal) (ix3 t l (1 : Fin 2)) = BitVec.ofNat 32 (t.val + l.val) := by
  unfold Read.val_main_v61
  rw [concatenate_pair_apply_right (t := S1024x101x2) (s₁ := S1024x101x1) (s₂ := S1024x101x1) (2 : Fin 3) _ _ _
    (ix3 t l (1 : Fin 2)) rfl rfl (ix3 t l (0 : Fin 1))
    (fun b => match b with | ⟨0, _⟩ => fun _ => rfl | ⟨1, _⟩ => fun _ => rfl | ⟨2, _⟩ => fun h => absurd rfl h) rfl]
  exact v60_at _

/-! ## The gather -/

/-- The gather reads its operand at (b, row word, column word), each word read signed and clamped to the axis. -/
theorem gather_at (x : S4x1024x1124.Idx → EReal) (idx : IVec S1024x101x2 32) (b : Fin 4) (t : Fin 1024) (l : Fin 101)
    (r : Fin 1024) (c : Fin 1124)
    (hr : min (idx (ix3 t l (0 : Fin 2))).toInt.toNat (1024 - 1) = r.val)
    (hc : min (idx (ix3 t l (1 : Fin 2))).toInt.toNat (1124 - 1) = c.val) :
    Host.gather gather_S4x1024x1124_S1024x101x2_S4x1024x101_0_12_n_n_12_2_411 x idx (ix3 b t l) = x (ix3 b r c) := by
  unfold Host.gather
  congr 1
  funext a
  refine Fin.ext ?_
  match a with
  | ⟨0, _⟩ =>
    show GatherDims.start _ (ix3 b t l) idx 0 + GatherDims.batchCoord _ (ix3 b t l) 0 + GatherDims.offCoord _ (ix3 b t l) 0 = b.val
    rw [GatherDims.batchCoord_eq_zero _ _ _ List.not_mem_nil]
    unfold GatherDims.start
    rw [dif_neg (show ¬ (0 : Fin S4x1024x1124.rank) ∈ gather_S4x1024x1124_S1024x101x2_S4x1024x101_0_12_n_n_12_2_411.startIndexMap by decide)]
    unfold GatherDims.offCoord
    rw [dif_pos (show (0 : Fin S4x1024x1124.rank) ∈ gather_S4x1024x1124_S1024x101x2_S4x1024x101_0_12_n_n_12_2_411.sKept by decide)]
    simp only [Nat.zero_add]
    rfl
  | ⟨1, _⟩ =>
    show GatherDims.start _ (ix3 b t l) idx 1 + GatherDims.batchCoord _ (ix3 b t l) 1 + GatherDims.offCoord _ (ix3 b t l) 1 = r.val
    rw [GatherDims.batchCoord_eq_zero _ _ _ List.not_mem_nil,
      GatherDims.offCoord_eq_zero _ _ _ (show ¬ (1 : Fin S4x1024x1124.rank) ∈ gather_S4x1024x1124_S1024x101x2_S4x1024x101_0_12_n_n_12_2_411.sKept by decide)]
    simp only [Nat.add_zero]
    unfold GatherDims.start
    rw [dif_pos (show (1 : Fin S4x1024x1124.rank) ∈ gather_S4x1024x1124_S1024x101x2_S4x1024x101_0_12_n_n_12_2_411.startIndexMap by decide)]
    have hsi : gather_S4x1024x1124_S1024x101x2_S4x1024x101_0_12_n_n_12_2_411.siIdx (ix3 b t l)
        ⟨List.idxOf (1 : Fin S4x1024x1124.rank) gather_S4x1024x1124_S1024x101x2_S4x1024x101_0_12_n_n_12_2_411.startIndexMap,
          List.idxOf_lt_length_iff.2 (by decide)⟩ = ix3 t l (0 : Fin 2) := by
      funext b'; refine Fin.ext ?_
      match b' with
      | ⟨0, _⟩ => rfl
      | ⟨1, _⟩ => rfl
      | ⟨2, _⟩ => rfl
    rw [hsi]
    exact hr
  | ⟨2, _⟩ =>
    show GatherDims.start _ (ix3 b t l) idx 2 + GatherDims.batchCoord _ (ix3 b t l) 2 + GatherDims.offCoord _ (ix3 b t l) 2 = c.val
    rw [GatherDims.batchCoord_eq_zero _ _ _ List.not_mem_nil,
      GatherDims.offCoord_eq_zero _ _ _ (show ¬ (2 : Fin S4x1024x1124.rank) ∈ gather_S4x1024x1124_S1024x101x2_S4x1024x101_0_12_n_n_12_2_411.sKept by decide)]
    simp only [Nat.add_zero]
    unfold GatherDims.start
    rw [dif_pos (show (2 : Fin S4x1024x1124.rank) ∈ gather_S4x1024x1124_S1024x101x2_S4x1024x101_0_12_n_n_12_2_411.startIndexMap by decide)]
    have hsi : gather_S4x1024x1124_S1024x101x2_S4x1024x101_0_12_n_n_12_2_411.siIdx (ix3 b t l)
        ⟨List.idxOf (2 : Fin S4x1024x1124.rank) gather_S4x1024x1124_S1024x101x2_S4x1024x101_0_12_n_n_12_2_411.startIndexMap,
          List.idxOf_lt_length_iff.2 (by decide)⟩ = ix3 t l (1 : Fin 2) := by
      funext b'; refine Fin.ext ?_
      match b' with
      | ⟨0, _⟩ => rfl
      | ⟨1, _⟩ => rfl
      | ⟨2, _⟩ => rfl
    rw [hsi]
    exact hc

/-! ## The inner products and their zero padding -/

/-- All inner products of rows of one batch. -/
theorem v39_at (x0 : IVec S4x1024x27x48x3 32) (b : Fin 4) (t s : Fin 1024) :
    Read.val_main_v39 (F := Ideal) x0 (ix3 b t s)
      = ∑ k : Fin 512, Read.val_main_v38 (F := Ideal) x0 (ix3 b t k) * Read.val_main_v38 (F := Ideal) x0 (ix3 b s k) := by
  rw [Read.val_main_v39_apply]
  refine Finset.sum_congr rfl fun k _ => ?_
  have el : Read.lidx_main_v39 (ix3 b t s) k = ix3 b t k := funext fun a => Fin.ext (by
    match a with
    | ⟨0, _⟩ => rfl
    | ⟨1, _⟩ => rfl
    | ⟨2, _⟩ => rfl)
  have er : Read.ridx_main_v39 (ix3 b t s) k = ix3 b s k := funext fun a => Fin.ext (by
    match a with
    | ⟨0, _⟩ => rfl
    | ⟨1, _⟩ => rfl
    | ⟨2, _⟩ => rfl)
  rw [el, er]

/-- The padding value is zero. -/
theorem pad_value (i : S_.Idx) : Read.val_main_call0_v0 (F := Ideal) i = 0 := by
  rw [Read.val_main_call0_v0_apply, Read.val_main_c_8_apply]
  show ((((0#32 : BitVec 32).toInt : ℤ) : ℝ) : EReal) = 0
  simp

/-- The products padded by 50 zero columns on either side. -/
theorem v40_at (x0 : IVec S4x1024x27x48x3 32) (b : Fin 4) (t : Fin 1024) (c : Fin 1124) :
    Read.val_main_v40 (F := Ideal) x0 (ix3 b t c)
      = if h : 50 ≤ c.val ∧ c.val < 1074 then
          Read.val_main_v39 (F := Ideal) x0 (ix3 b t (⟨c.val - 50, by omega⟩ : Fin 1024))
        else 0 := by
  unfold Read.val_main_v40
  split
  · rename_i h
    exact pad_apply_of_inside (s := S4x1024x1024) (t := S4x1024x1124) _ _ _ _ _ _ _ (ix3 b t c)
      (ix3 b t (⟨c.val - 50, by omega⟩ : Fin 1024)) (fun a => match a with
        | ⟨0, _⟩ => by show b.val = 0 + b.val * (0 + 1); omega
        | ⟨1, _⟩ => by show t.val = 0 + t.val * (0 + 1); omega
        | ⟨2, _⟩ => by show c.val = 50 + (c.val - 50) * (0 + 1); omega)
  · rename_i h
    rw [pad_apply_of_not_inside (s := S4x1024x1024) (t := S4x1024x1124) _ _ _ _ _ _ _ (ix3 b t c) (2 : Fin 3)
      (by show ¬(50 ≤ c.val ∧ (c.val - 50) % (0 + 1) = 0 ∧ (c.val - 50) / (0 + 1) < 1024); omega)]
    exact pad_value _

/-! ## The gathered band, the linear layer -/

/-- The gathered band is the window of inner products. -/
theorem v62_at (x0 : IVec S4x1024x27x48x3 32) (b : Fin 4) (t : Fin 1024) (l : Fin 101) :
    Read.val_main_v62 (F := Ideal) x0 (ix3 b t l)
      = Spec.win (fun b t k => Read.val_main_v38 (F := Ideal) x0 (ix3 b t k)) b t l := by
  have ht : t.val < 1024 := t.isLt
  have hl : l.val < 101 := l.isLt
  unfold Read.val_main_v62
  rw [gather_at _ _ b t l t (⟨t.val + l.val, by omega⟩ : Fin 1124)
    (by rw [v61_row, StableHlo.Predicate.toInt_ofNat_small _ (by omega), Int.toNat_natCast]; omega)
    (by rw [v61_col, StableHlo.Predicate.toInt_ofNat_small _ (by omega), Int.toNat_natCast]
        show min (t.val + l.val) (1124 - 1) = t.val + l.val; omega)]
  rw [v40_at]
  unfold Spec.win
  by_cases h : 50 ≤ t.val + l.val ∧ t.val + l.val < 1074
  · rw [dif_pos h, dif_pos h, v39_at]
  · rw [dif_neg h, dif_neg h]

/-- From the normalised rows on, the reference (all inner products, zero padding, the diagonal band gathered, the
    linear layer, bias, clip at zero) is the windowed layer of those rows. -/
theorem ref_tail (x0 : IVec S4x1024x27x48x3 32) (x1 : FVec Ideal S101x128 .f32) (x2 : FVec Ideal S128 .f32) :
    (Read.val_main_v67 (F := Ideal) x0 x1 x2 : Spec.ShOut.Idx → EReal)
      = fun i => Spec.outv (fun b t k => Read.val_main_v38 (F := Ideal) x0 (ix3 b t k)) x1 x2 (i 0) (i 1) (i 2) := by
  funext i
  obtain ⟨b, t, q, rfl⟩ : ∃ (b : Fin 4) (t : Fin 1024) (q : Fin 128), i = ix3 b t q := ⟨i 0, i 1, i 2, eq_ix3 i⟩
  show Read.val_main_v67 (F := Ideal) x0 x1 x2 (ix3 b t q)
    = Spec.outv (fun b t k => Read.val_main_v38 (F := Ideal) x0 (ix3 b t k)) x1 x2 b t q
  rw [Read.val_main_v67_apply, Read.val_main_v66_apply, Read.val_main_call1_v0_apply, Read.val_main_call1_cst_apply,
    Read.val_main_v65_apply, Read.val_main_v64_apply, Read.val_main_v63_apply]
  unfold Spec.outv
  have hz : (FloatOps.ofBits .f32 0x00000000#32 : Ideal .f32) = 0 := Ideal.ofBits_zero_f32
  rw [Ideal.maximumf_def, Ideal.addf_def, hz]
  have hb : Read.idx_main_v64 (Read.idx_main_v65 (ix3 b t q)) = ix1 q := funext fun a => Fin.ext (by
    match a with
    | ⟨0, _⟩ => rfl)
  rw [hb]
  congr 2
  refine Finset.sum_congr rfl fun l _ => ?_
  have el : Read.lidx_main_v63 (ix3 b t q) l = ix3 b t l := funext fun a => Fin.ext (by
    match a with
    | ⟨0, _⟩ => rfl
    | ⟨1, _⟩ => rfl
    | ⟨2, _⟩ => rfl)
  have er : Read.ridx_main_v63 (ix3 b t q) l = ix2 l q := funext fun a => Fin.ext (by
    match a with
    | ⟨0, _⟩ => rfl
    | ⟨1, _⟩ => rfl)
  rw [el, er, v62_at]

end Cert.ReferenceIdeal.RefTail

end
-- ==== Proof.lean ====
/-
  The certificate of the colour-histogram / windowed-similarity program against its reference.

  Both idealized programs compute, from the frames, the weights and the bias, one function of the argument arrays
  (Proof/Spec.lean, `Spec.result`): per frame the 512-bin histogram of its pixels' 9-bit colour bins, divided by the larger
  of its Euclidean norm and a constant; per batch and time the 101 inner products of the row with its neighbours at
  distance at most 50 (zero outside the batch), a linear layer over them, a bias, and a clip at zero.

  The kernel program masks each channel's top bits to three bits before packing them; the reference does not, and adds
  the frame's offset before one scatter-add over all frames. The two agree where every channel word is an 8-bit
  colour value, which is the precondition's integer conjunct (the reference's own words: "8 levels per RGB channel", a
  "9-bit bin id"). Under it the kernel's histogram — a sum over pixels of a product of two one-hot indicators — and the
  reference's — the number of updates landing on a position — are both the pixel count per bin. The kernel's windowed
  inner products against a zero-padded copy of the rows, taken as the diagonals of a small product matrix, and the
  reference's band gathered out of the zero-padded matrix of all inner products are the same numbers.

  The frames of the two kernel programs and the run of the reference are generated modules.
-/
import proofs.«409566_j37400575214078_3_alg».proof.Defs
import proofs.«409566_j37400575214078_3_alg».proof.Proof.Gen.Kernel
import proofs.«409566_j37400575214078_3_alg».proof.Proof.Gen.Kernel.Skeleton
import proofs.«409566_j37400575214078_3_alg».proof.Proof.Gen.Kernel.Launch
import proofs.«409566_j37400575214078_3_alg».proof.Proof.Gen.Kernel.Points
import proofs.«409566_j37400575214078_3_alg».proof.Proof.Gen.Kernel.Frame
import proofs.«409566_j37400575214078_3_alg».proof.Proof.Gen.KernelIdeal
import proofs.«409566_j37400575214078_3_alg».proof.Proof.Gen.KernelIdeal.Skeleton
import proofs.«409566_j37400575214078_3_alg».proof.Proof.Gen.KernelIdeal.Launch
import proofs.«409566_j37400575214078_3_alg».proof.Proof.Gen.KernelIdeal.Points
import proofs.«409566_j37400575214078_3_alg».proof.Proof.Gen.KernelIdeal.Frame
import proofs.«409566_j37400575214078_3_alg».proof.Proof.Gen.ReferenceIdeal
import proofs.«409566_j37400575214078_3_alg».proof.Proof.Gen.ReferenceIdeal.Run
import proofs.«409566_j37400575214078_3_alg».proof.Proof.Gen.ReferenceIdeal.Read
import proofs.«409566_j37400575214078_3_alg».proof.Proof.Gen.Pre_finite_inputs
import proofs.«409566_j37400575214078_3_alg».proof.Proof.Spec
import proofs.«409566_j37400575214078_3_alg».proof.Proof.PreRange
import proofs.«409566_j37400575214078_3_alg».proof.Proof.KRun
import proofs.«409566_j37400575214078_3_alg».proof.Proof.KValue
import proofs.«409566_j37400575214078_3_alg».proof.Proof.RefHist
import proofs.«409566_j37400575214078_3_alg».proof.Proof.RefTail
import Idealize.ShloMosaic.Adequacy
import Idealize.ShloMosaic.Init

noncomputable section

namespace Cert.Proof

open Idealize.ShloMosaic Idealize.SL.Sem

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at `Spec.result` of the arguments: the kernel program by its run
    and the value of its last boundary, the reference by its generated run read operation by operation; the
    precondition gives the channel range both readings need, and the memories agree on the arguments. -/
theorem algebraic : Cert.algebraic_KernelIdeal_ReferenceIdeal := by
  intro m ρ m' ρ' hpre hagree
  have hr : ∀ c : Dev Cert.KernelIdeal.nD, ∀ i,
      ((m ((c.tc : Thread Cert.KernelIdeal.nD Cert.KernelIdeal.τ).loc Cert.KernelIdeal.main_arg0) : Spec.ShFrames.Idx → BitVec 32) i).toNat < 256 :=
    fun c => Cert.PreRange.range_of_pre (F := Ideal) _ _ _ (hpre c)
  refine ⟨fun c => Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.W5_v28 m ρ c (hr c)), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v67_eq, (hagree c).1, (hagree c).2.1, (hagree c).2.2,
      Cert.ReferenceIdeal.RefTail.ref_tail, Cert.ReferenceIdeal.RefHist.ref_x _ (hr c)]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
